-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x512 : Shape := ⟨3, ![4, 1024, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4x1024x512 .f32) (main_arg1 : FVec F S1536x512 .f32) (main_arg2 : FVec F S1536 .f32) (main_arg3 : FVec F S1536 .f32) (main_arg4 : FVec F S512x512 .f32) (main_arg5 : FVec F S512 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S4x1024x512 : Shape := ⟨3, ![4, 1024, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x1024x1536 : Shape := ⟨3, ![4, 1024, 1536]⟩
abbrev S1x1024x512 : Shape := ⟨3, ![1, 1024, 512]⟩
abbrev S1x1024x1536 : Shape := ⟨3, ![1, 1024, 1536]⟩
abbrev S1024x512 : Shape := ⟨2, ![1024, 512]⟩
abbrev S1024x1536 : Shape := ⟨2, ![1024, 1536]⟩
abbrev S_ : Shape := ⟨0, ![]⟩
abbrev S1x1x1536 : Shape := ⟨3, ![1, 1, 1536]⟩
abbrev S1x1536 : Shape := ⟨2, ![1, 1536]⟩
abbrev S1x512x1536 : Shape := ⟨3, ![1, 512, 1536]⟩
abbrev S1x512x512 : Shape := ⟨3, ![1, 512, 512]⟩
abbrev S512x1536 : Shape := ⟨2, ![512, 1536]⟩
abbrev S4x1024x8x64 : Shape := ⟨4, ![4, 1024, 8, 64]⟩
abbrev S4x8x1024x64 : Shape := ⟨4, ![4, 8, 1024, 64]⟩
abbrev S1x1x1024x64 : Shape := ⟨4, ![1, 1, 1024, 64]⟩
abbrev S1024x64 : Shape := ⟨2, ![1024, 64]⟩
abbrev S1024x1024 : Shape := ⟨2, ![1024, 1024]⟩
abbrev S1x512 : Shape := ⟨2, ![1, 512]⟩

abbrev nBuf : Space → Nat
  | .hbm => 60
  | .vmem => 29
  | .smem => 0
  | _ => 0

abbrev bufTy : (tb : Table) → Fin (tcTables nBuf tb) → BufTy
  | .hbm, ⟨0, _⟩ => ⟨S4x1024x512, .f32⟩
  | .hbm, ⟨1, _⟩ => ⟨S1536x512, .f32⟩
  | .hbm, ⟨2, _⟩ => ⟨S1536, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S1536x512, .bf16⟩
  | .hbm, ⟨7, _⟩ => ⟨S4x1024x1536, .f32⟩
  | .hbm, ⟨8, _⟩ => ⟨S_, .f32⟩
  | .hbm, ⟨9, _⟩ => ⟨S1536, .f32⟩
  | .hbm, ⟨10, _⟩ => ⟨S_, .f32⟩
  | .hbm, ⟨11, _⟩ => ⟨S1536, .f32⟩
  | .hbm, ⟨12, _⟩ => ⟨S1536, .f32⟩
  | .hbm, ⟨13, _⟩ => ⟨S_, .i32⟩
  | .hbm, ⟨14, _⟩ => ⟨S_, .f32⟩
  | .hbm, ⟨15, _⟩ => ⟨S1536, .f32⟩
  | .hbm, ⟨16, _⟩ => ⟨S1x1x1536, .f32⟩
  | .hbm, ⟨17, _⟩ => ⟨S_, .f32⟩
  | .hbm, ⟨18, _⟩ => ⟨S1x1x1536, .f32⟩
  | .hbm, ⟨19, _⟩ => ⟨S1x1x1536, .f32⟩
  | .hbm, ⟨20, _⟩ => ⟨S4x1024x1536, .f32⟩
  | .hbm, ⟨21, _⟩ => ⟨S4x1024x1536, .f32⟩
  | .hbm, ⟨22, _⟩ => ⟨S4x1024x1536, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1536, .f32⟩
  | .hbm, ⟨28, _⟩ => ⟨S1536, .f32⟩
  | .hbm, ⟨29, _⟩ => ⟨S1536, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1536, .f32⟩
  | .hbm, ⟨35, _⟩ => ⟨S1536, .f32⟩
  | .hbm, ⟨36, _⟩ => ⟨S_, .f32⟩
  | .hbm, ⟨37, _⟩ => ⟨S1536, .f32⟩
  | .hbm, ⟨38, _⟩ => ⟨S1536, .f32⟩
  | .hbm, ⟨39, _⟩ => ⟨S1536, .f32⟩
  | .hbm, ⟨40, _⟩ => ⟨S1536, .f32⟩
  | .hbm, ⟨41, _⟩ => ⟨S1536, .f32⟩
  | .hbm, ⟨42, _⟩ => ⟨S1536, .f32⟩
  | .hbm, ⟨43, _⟩ => ⟨S1x1536, .f32⟩
  | .hbm, ⟨44, _⟩ => ⟨S1x1536, .f32⟩
  | .hbm, ⟨45, _⟩ => ⟨S4x1024x512, .bf16⟩
  | .hbm, ⟨46, _⟩ => ⟨S4x1024x512, .bf16⟩
  | .hbm, ⟨47, _⟩ => ⟨S4x1024x512, .bf16⟩
  | .hbm, ⟨48, _⟩ => ⟨S4x1024x8x64, .bf16⟩
  | .hbm, ⟨49, _⟩ => ⟨S4x8x1024x64, .bf16⟩
  | .hbm, ⟨50, _⟩ => ⟨S4x1024x8x64, .bf16⟩
  | .hbm, ⟨51, _⟩ => ⟨S4x8x1024x64, .bf16⟩
  | .hbm, ⟨52, _⟩ => ⟨S4x1024x8x64, .bf16⟩
  | .hbm, ⟨53, _⟩ => ⟨S4x8x1024x64, .bf16⟩
  | .hbm, ⟨54, _⟩ => ⟨S4x8x1024x64, .bf16⟩
  | .hbm, ⟨55, _⟩ => ⟨S4x1024x8x64, .bf16⟩
  | .hbm, ⟨56, _⟩ => ⟨S4x1024x512, .bf16⟩
  | .hbm, ⟨57, _⟩ => ⟨S512x512, .bf16⟩
  | .hbm, ⟨58, _⟩ => ⟨S1x512, .f32⟩
  | .hbm, ⟨59, _⟩ => ⟨S4x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1536x512, .bf16⟩
  | .local _ .vmem, ⟨3, _⟩ => ⟨S1x1024x1536, .f32⟩
  | .local _ .vmem, ⟨4, _⟩ => ⟨S1x1024x1536, .f32⟩
  | .local _ .vmem, ⟨5, _⟩ => ⟨S1x512x1536, .f32⟩
  | .local _ .vmem, ⟨6, _⟩ => ⟨S1x512x1536, .f32⟩
  | .local _ .vmem, ⟨7, _⟩ => ⟨S1x1536, .f32⟩
  | .local _ .vmem, ⟨8, _⟩ => ⟨S1x1536, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x1x1024x64, .bf16⟩
  | .local _ .vmem, ⟨16, _⟩ => ⟨S1x1x1024x64, .bf16⟩
  | .local _ .vmem, ⟨17, _⟩ => ⟨S1x1x1024x64, .bf16⟩
  | .local _ .vmem, ⟨18, _⟩ => ⟨S1x1x1024x64, .bf16⟩
  | .local _ .vmem, ⟨19, _⟩ => ⟨S1x1x1024x64, .bf16⟩
  | .local _ .vmem, ⟨20, _⟩ => ⟨S1x1x1024x64, .bf16⟩
  | .local _ .vmem, ⟨21, _⟩ => ⟨S1x1x1024x64, .bf16⟩
  | .local _ .vmem, ⟨22, _⟩ => ⟨S1x1x1024x64, .bf16⟩
  | .local _ .vmem, ⟨23, _⟩ => ⟨S1x1024x512, .bf16⟩
  | .local _ .vmem, ⟨24, _⟩ => ⟨S1x1024x512, .bf16⟩
  | .local _ .vmem, ⟨25, _⟩ => ⟨S512x512, .bf16⟩
  | .local _ .vmem, ⟨26, _⟩ => ⟨S1x512, .f32⟩
  | .local _ .vmem, ⟨27, _⟩ => ⟨S1x1024x512, .f32⟩
  | .local _ .vmem, ⟨28, _⟩ => ⟨S1x1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14_0 : Ref sig .tc := ⟨.hbm, 45, rfl⟩
abbrev main_v14_1 : Ref sig .tc := ⟨.hbm, 46, rfl⟩
abbrev main_v14_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x1024x1536_S1x1024x1536_0_0_0 : ∀ a, (![0, 0, 0] : Fin 3 → Nat) a + S1x1024x1536.size a ≤ S1x1024x1536.size a
  h_S1x1024x1536 : 0 < S1x1024x1536.numel
  shapeCasts_S1x1024x1536_S1024x1536 : S1x1024x1536.ShapeCasts S1024x1536
  shapeCasts_S1024x1536_S1x1024x1536 : S1024x1536.ShapeCasts S1x1024x1536
  reducesTo_S4x1024x1536_S1536_d0_1 : S4x1024x1536.ReducesTo [0, 1] S1536
  h_S_ : 0 < S_.numel
  bcast_S_S1536 : S_.BroadcastsInDim S1536 (![] : Fin 0 → Fin S1536.rank)
  bcast_S1536_S1x1x1536_2 : S1536.BroadcastsInDim S1x1x1536 (![2] : Fin 1 → Fin S1x1x1536.rank)
  bcast_S_S1x1x1536 : S_.BroadcastsInDim S1x1x1536 (![] : Fin 0 → Fin S1x1x1536.rank)
  bcast_S1x1x1536_S4x1024x1536_0_1_2 : S1x1x1536.BroadcastsInDim S4x1024x1536 (![0, 1, 2] : Fin 3 → Fin S4x1024x1536.rank)
  shapeCasts_S1536_S1x1536 : S1536.ShapeCasts S1x1536
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  shapeCasts_S4x1024x512_S4x1024x8x64 : S4x1024x512.ShapeCasts S4x1024x8x64
  transposes_S4x1024x8x64_S4x8x1024x64_0_2_1_3 : S4x1024x8x64.Transposes [0, 2, 1, 3] S4x8x1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  transposes_S4x8x1024x64_S4x1024x8x64_0_2_1_3 : S4x8x1024x64.Transposes [0, 2, 1, 3] S4x1024x8x64
  shapeCasts_S4x1024x8x64_S4x1024x512 : S4x1024x8x64.ShapeCasts S4x1024x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S1024x512_S1536x512_S1024x1536_1_1_0_0_n_n_wf : DotDims.WF S1024x512 S1536x512 S1024x1536 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x1024x512.size a
  hwx0_0 : ∀ i : grid0.Coords, EltTy.bits .f32 = 32 ∨ (Rect.block (s := S4x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1536.size a ≤ S4x1024x1536.size a
  hwx0_2 : ∀ i : grid0.Coords, EltTy.bits .f32 = 32 ∨ (Rect.block (s := S4x1024x1536) S1x1024x1536.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1536.size a ≤ S4x1024x1536.size a
  hwx1_0 : ∀ i : grid1.Coords, EltTy.bits .f32 = 32 ∨ (Rect.block (s := S4x1024x1536) S1x512x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1536.size a ≤ S1x1536.size a
  hwx1_1 : ∀ i : grid1.Coords, EltTy.bits .f32 = 32 ∨ (Rect.block (s := S1x1536) S1x1536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1536.size a ≤ S1x1536.size a
  hwx1_2 : ∀ i : grid1.Coords, EltTy.bits .f32 = 32 ∨ (Rect.block (s := S1x1536) S1x1536.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S4x1024x512.size a
  hwx1_3 : ∀ i : grid1.Coords, EltTy.bits .bf16 = 32 ∨ (Rect.block (s := S4x1024x512) S1x512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S4x1024x512.size a
  hwx1_4 : ∀ i : grid1.Coords, EltTy.bits .bf16 = 32 ∨ (Rect.block (s := S4x1024x512) S1x512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x512.size a ≤ S4x1024x512.size a
  hwx1_5 : ∀ i : grid1.Coords, EltTy.bits .bf16 = 32 ∨ (Rect.block (s := S4x1024x512) S1x512x512.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x1024x64.size a ≤ S4x8x1024x64.size a
  hwx2_0 : ∀ i : grid2.Coords, EltTy.bits .bf16 = 32 ∨ (Rect.block (s := S4x8x1024x64) S1x1x1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x1024x64.size a ≤ S4x8x1024x64.size a
  hwx2_1 : ∀ i : grid2.Coords, EltTy.bits .bf16 = 32 ∨ (Rect.block (s := S4x8x1024x64) S1x1x1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024x64.size a ≤ S4x8x1024x64.size a
  hwx2_2 : ∀ i : grid2.Coords, EltTy.bits .bf16 = 32 ∨ (Rect.block (s := S4x8x1024x64) S1x1x1024x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1024x64.size a ≤ S4x8x1024x64.size a
  hwx2_3 : ∀ i : grid2.Coords, EltTy.bits .bf16 = 32 ∨ (Rect.block (s := S4x8x1024x64) S1x1x1024x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x512.size a ≤ S4x1024x512.size a
  hwx3_0 : ∀ i : grid3.Coords, EltTy.bits .bf16 = 32 ∨ (Rect.block (s := S4x1024x512) S1x1024x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x512.size a ≤ S4x1024x512.size a
  hwx3_3 : ∀ i : grid3.Coords, EltTy.bits .f32 = 32 ∨ (Rect.block (s := S4x1024x512) S1x1024x512.size (cc3_transform_3 i) (hinb3_3 i)).WholeWords (EltTy.packing .f32)

variable [Facts₀]

def dot_S1024x512_S1536x512_S1024x1536_1_1_0_0_n_n : DotDims S1024x512 S1536x512 S1024x1536 where
  lhsContracting := [1]
  rhsContracting := [1]
  lhsNonContracting := [0]
  rhsNonContracting := [0]
  lhsBatch := []
  rhsBatch := []
  wf := dot_S1024x512_S1536x512_S1024x1536_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x512x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S1x512x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_1) S1x512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14_2) S1x512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v16) S1x1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1x1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x1x1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S1x1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1x1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x1024x512 : Shape := ⟨3, ![4, 1024, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩
abbrev S4x1024x1536 : Shape := ⟨3, ![4, 1024, 1536]⟩
abbrev S1x1x1536 : Shape := ⟨3, ![1, 1, 1536]⟩
abbrev S4x1024x3x8x64 : Shape := ⟨5, ![4, 1024, 3, 8, 64]⟩
abbrev S3x4x8x1024x64 : Shape := ⟨5, ![3, 4, 8, 1024, 64]⟩
abbrev S1x4x8x1024x64 : Shape := ⟨5, ![1, 4, 8, 1024, 64]⟩
abbrev S4x8x1024x64 : Shape := ⟨4, ![4, 8, 1024, 64]⟩
abbrev S4x8x1024x1024 : Shape := ⟨4, ![4, 8, 1024, 1024]⟩
abbrev S4x1024x8x64 : Shape := ⟨4, ![4, 1024, 8, 64]⟩
abbrev S1x1x512 : Shape := ⟨3, ![1, 1, 512]⟩

abbrev nBuf : Space → Nat
  | .hbm => 142
  | .vmem => 0
  | .smem => 0
  | _ => 0

abbrev hbmTy0_0 (i : Nat) : BufTy := match i % 128 with
  | 0 => ⟨S4x1024x512, .f32⟩
  | 1 => ⟨S1536x512, .f32⟩
  | 2 => ⟨S1536, .f32⟩
  | 3 => ⟨S1536, .f32⟩
  | 4 => ⟨S512x512, .f32⟩
  | 5 => ⟨S512, .f32⟩
  | 6 => ⟨S_, .f32⟩
  | 7 => ⟨S_, .f32⟩
  | 8 => ⟨S_, .f32⟩
  | 9 => ⟨S4x1024x512, .f32⟩
  | 10 => ⟨S4x1024x512, .f32⟩
  | 11 => ⟨S_, .f32⟩
  | 12 => ⟨S4x1024x512, .f32⟩
  | 13 => ⟨S4x1024x512, .f32⟩
  | 14 => ⟨S_, .f32⟩
  | 15 => ⟨S4x1024x512, .f32⟩
  | 16 => ⟨S4x1024x512, .f32⟩
  | 17 => ⟨S4x1024x512, .f32⟩
  | 18 => ⟨S4x1024x1536, .f32⟩
  | 19 => ⟨S_, .f32⟩
  | 20 => ⟨S1536, .f32⟩
  | 21 => ⟨S_, .f32⟩
  | 22 => ⟨S1536, .f32⟩
  | 23 => ⟨S1536, .f32⟩
  | 24 => ⟨S_, .i32⟩
  | 25 => ⟨S_, .f32⟩
  | 26 => ⟨S1536, .f32⟩
  | 27 => ⟨S1x1x1536, .f32⟩
  | 28 => ⟨S_, .f32⟩
  | 29 => ⟨S1x1x1536, .f32⟩
  | 30 => ⟨S1x1x1536, .f32⟩
  | 31 => ⟨S4x1024x1536, .f32⟩
  | 32 => ⟨S4x1024x1536, .f32⟩
  | 33 => ⟨S4x1024x1536, .f32⟩
  | 34 => ⟨S_, .f32⟩
  | 35 => ⟨S_, .f32⟩
  | 36 => ⟨S_, .f32⟩
  | 37 => ⟨S_, .f32⟩
  | 38 => ⟨S1536, .f32⟩
  | 39 => ⟨S1536, .f32⟩
  | 40 => ⟨S1536, .f32⟩
  | 41 => ⟨S_, .f32⟩
  | 42 => ⟨S_, .i1⟩
  | 43 => ⟨S_, .f32⟩
  | 44 => ⟨S_, .f32⟩
  | 45 => ⟨S1536, .f32⟩
  | 46 => ⟨S1536, .f32⟩
  | 47 => ⟨S1x1x1536, .f32⟩
  | 48 => ⟨S4x1024x1536, .f32⟩
  | 49 => ⟨S4x1024x1536, .f32⟩
  | 50 => ⟨S_, .f32⟩
  | 51 => ⟨S1536, .f32⟩
  | 52 => ⟨S1536, .f32⟩
  | 53 => ⟨S1536, .f32⟩
  | 54 => ⟨S1x1x1536, .f32⟩
  | 55 => ⟨S4x1024x1536, .f32⟩
  | 56 => ⟨S4x1024x1536, .f32⟩
  | 57 => ⟨S1x1x1536, .f32⟩
  | 58 => ⟨S4x1024x1536, .f32⟩
  | 59 => ⟨S4x1024x1536, .f32⟩
  | 60 => ⟨S1x1x1536, .f32⟩
  | 61 => ⟨S4x1024x1536, .f32⟩
  | 62 => ⟨S4x1024x1536, .f32⟩
  | 63 => ⟨S4x1024x3x8x64, .f32⟩
  | 64 => ⟨S3x4x8x1024x64, .f32⟩
  | 65 => ⟨S1x4x8x1024x64, .f32⟩
  | 66 => ⟨S4x8x1024x64, .f32⟩
  | 67 => ⟨S_, .f32⟩
  | 68 => ⟨S_, .f32⟩
  | 69 => ⟨S_, .f32⟩
  | 70 => ⟨S4x8x1024x64, .f32⟩
  | 71 => ⟨S4x8x1024x64, .f32⟩
  | 72 => ⟨S_, .f32⟩
  | 73 => ⟨S4x8x1024x64, .f32⟩
  | 74 => ⟨S4x8x1024x64, .f32⟩
  | 75 => ⟨S_, .f32⟩
  | 76 => ⟨S4x8x1024x64, .f32⟩
  | 77 => ⟨S4x8x1024x64, .f32⟩
  | 78 => ⟨S4x8x1024x64, .f32⟩
  | 79 => ⟨S1x4x8x1024x64, .f32⟩
  | 80 => ⟨S4x8x1024x64, .f32⟩
  | 81 => ⟨S_, .f32⟩
  | 82 => ⟨S_, .f32⟩
  | 83 => ⟨S_, .f32⟩
  | 84 => ⟨S4x8x1024x64, .f32⟩
  | 85 => ⟨S4x8x1024x64, .f32⟩
  | 86 => ⟨S_, .f32⟩
  | 87 => ⟨S4x8x1024x64, .f32⟩
  | 88 => ⟨S4x8x1024x64, .f32⟩
  | 89 => ⟨S_, .f32⟩
  | 90 => ⟨S4x8x1024x64, .f32⟩
  | 91 => ⟨S4x8x1024x64, .f32⟩
  | 92 => ⟨S4x8x1024x64, .f32⟩
  | 93 => ⟨S1x4x8x1024x64, .f32⟩
  | 94 => ⟨S4x8x1024x64, .f32⟩
  | 95 => ⟨S_, .f32⟩
  | 96 => ⟨S_, .f32⟩
  | 97 => ⟨S_, .f32⟩
  | 98 => ⟨S4x8x1024x64, .f32⟩
  | 99 => ⟨S4x8x1024x64, .f32⟩
  | 100 => ⟨S_, .f32⟩
  | 101 => ⟨S4x8x1024x64, .f32⟩
  | 102 => ⟨S4x8x1024x64, .f32⟩
  | 103 => ⟨S_, .f32⟩
  | 104 => ⟨S4x8x1024x64, .f32⟩
  | 105 => ⟨S4x8x1024x64, .f32⟩
  | 106 => ⟨S4x8x1024x64, .f32⟩
  | 107 => ⟨S4x8x1024x1024, .f32⟩
  | 108 => ⟨S_, .f32⟩
  | 109 => ⟨S_, .f32⟩
  | 110 => ⟨S_, .f32⟩
  | 111 => ⟨S4x8x1024x1024, .f32⟩
  | 112 => ⟨S4x8x1024x1024, .f32⟩
  | 113 => ⟨S_, .f32⟩
  | 114 => ⟨S4x8x1024x1024, .f32⟩
  | 115 => ⟨S4x8x1024x1024, .f32⟩
  | 116 => ⟨S_, .f32⟩
  | 117 => ⟨S4x8x1024x1024, .f32⟩
  | 118 => ⟨S4x8x1024x1024, .f32⟩
  | 119 => ⟨S4x8x1024x1024, .f32⟩
  | 120 => ⟨S4x8x1024x64, .f32⟩
  | 121 => ⟨S_, .f32⟩
  | 122 => ⟨S4x8x1024x64, .f32⟩
  | 123 => ⟨S4x8x1024x64, .f32⟩
  | 124 => ⟨S4x1024x8x64, .f32⟩
  | 125 => ⟨S4x1024x512, .f32⟩
  | 126 => ⟨S_, .f32⟩
  | 127 => ⟨S_, .f32⟩
  | _ => ⟨S4x1024x512, .f32⟩

abbrev hbmTy0_1 (i : Nat) : BufTy := match i % 128 with
  | 0 => ⟨S_, .f32⟩
  | 1 => ⟨S4x1024x512, .f32⟩
  | 2 => ⟨S4x1024x512, .f32⟩
  | 3 => ⟨S_, .f32⟩
  | 4 => ⟨S4x1024x512, .f32⟩
  | 5 => ⟨S4x1024x512, .f32⟩
  | 6 => ⟨S_, .f32⟩
  | 7 => ⟨S4x1024x512, .f32⟩
  | 8 => ⟨S4x1024x512, .f32⟩
  | 9 => ⟨S4x1024x512, .f32⟩
  | 10 => ⟨S4x1024x512, .f32⟩
  | 11 => ⟨S1x1x512, .f32⟩
  | 12 => ⟨S4x1024x512, .f32⟩
  | 13 => ⟨S4x1024x512, .f32⟩
  | _ => ⟨S4x1024x512, .f32⟩

abbrev hbmTy (i : Nat) : BufTy := match i / 128 with
  | 0 => hbmTy0_0 i
  | 1 => hbmTy0_1 i
  | _ => ⟨S4x1024x512, .f32⟩

abbrev bufTy : (tb : Table) → Fin (tcTables nBuf tb) → BufTy
  | .hbm, ⟨i, _⟩ => hbmTy i
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_cst_3 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_cst_2 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_cst_3 : Ref sig .tc := ⟨.hbm, 41, rfl⟩
abbrev main_call1_v12 : Ref sig .tc := ⟨.hbm, 42, rfl⟩
abbrev main_call1_cst_4 : Ref sig .tc := ⟨.hbm, 43, rfl⟩
abbrev main_call1_call0_v0 : Ref sig .tc := ⟨.hbm, 44, rfl⟩
abbrev main_call1_call0_v1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_4 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_5 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v28 : Ref sig .tc := ⟨.hbm, 74, rfl⟩
abbrev main_cst_7 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_8 : Ref sig .tc := ⟨.hbm, 81, rfl⟩
abbrev main_cst_9 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v34 : Ref sig .tc := ⟨.hbm, 88, rfl⟩
abbrev main_cst_10 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_11 : Ref sig .tc := ⟨.hbm, 95, rfl⟩
abbrev main_cst_12 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v40 : Ref sig .tc := ⟨.hbm, 102, rfl⟩
abbrev main_cst_13 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_14 : Ref sig .tc := ⟨.hbm, 108, rfl⟩
abbrev main_cst_15 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v45 : Ref sig .tc := ⟨.hbm, 115, rfl⟩
abbrev main_cst_16 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_cst_17 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_cst_18 : Ref sig .tc := ⟨.hbm, 126, rfl⟩
abbrev main_cst_19 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_v54 : Ref sig .tc := ⟨.hbm, 133, rfl⟩
abbrev main_cst_20 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩

abbrev nD : Nat := 1
abbrev τ : Topo := Topo.v7x

variable {F : FTy → Type} [FloatOps F]

class Facts₀ : Prop where
  bcast_S_S4x1024x512 : S_.BroadcastsInDim S4x1024x512 (![] : Fin 0 → Fin S4x1024x512.rank)
  reducesTo_S4x1024x1536_S1536_d0_1 : S4x1024x1536.ReducesTo [0, 1] S1536
  h_S_ : 0 < S_.numel
  bcast_S_S1536 : S_.BroadcastsInDim S1536 (![] : Fin 0 → Fin S1536.rank)
  bcast_S1536_S1x1x1536_2 : S1536.BroadcastsInDim S1x1x1536 (![2] : Fin 1 → Fin S1x1x1536.rank)
  bcast_S_S1x1x1536 : S_.BroadcastsInDim S1x1x1536 (![] : Fin 0 → Fin S1x1x1536.rank)
  bcast_S1x1x1536_S4x1024x1536_0_1_2 : S1x1x1536.BroadcastsInDim S4x1024x1536 (![0, 1, 2] : Fin 3 → Fin S4x1024x1536.rank)
  shapeCasts_S4x1024x1536_S4x1024x3x8x64 : S4x1024x1536.ShapeCasts S4x1024x3x8x64
  transposes_S4x1024x3x8x64_S3x4x8x1024x64_2_0_3_1_4 : S4x1024x3x8x64.Transposes [2, 0, 3, 1, 4] S3x4x8x1024x64
  slices_S3x4x8x1024x64_S1x4x8x1024x64_0_0_0_0_0 : S3x4x8x1024x64.Slices ![0, 0, 0, 0, 0] S1x4x8x1024x64
  shapeCasts_S1x4x8x1024x64_S4x8x1024x64 : S1x4x8x1024x64.ShapeCasts S4x8x1024x64
  bcast_S_S4x8x1024x64 : S_.BroadcastsInDim S4x8x1024x64 (![] : Fin 0 → Fin S4x8x1024x64.rank)
  slices_S3x4x8x1024x64_S1x4x8x1024x64_1_0_0_0_0 : S3x4x8x1024x64.Slices ![1, 0, 0, 0, 0] S1x4x8x1024x64
  slices_S3x4x8x1024x64_S1x4x8x1024x64_2_0_0_0_0 : S3x4x8x1024x64.Slices ![2, 0, 0, 0, 0] S1x4x8x1024x64
  bcast_S_S4x8x1024x1024 : S_.BroadcastsInDim S4x8x1024x1024 (![] : Fin 0 → Fin S4x8x1024x1024.rank)
  transposes_S4x8x1024x64_S4x1024x8x64_0_2_1_3 : S4x8x1024x64.Transposes [0, 2, 1, 3] S4x1024x8x64
  shapeCasts_S4x1024x8x64_S4x1024x512 : S4x1024x8x64.ShapeCasts S4x1024x512
  bcast_S512_S1x1x512_2 : S512.BroadcastsInDim S1x1x512 (![2] : Fin 1 → Fin S1x1x512.rank)
  bcast_S1x1x512_S4x1024x512_0_1_2 : S1x1x512.BroadcastsInDim S4x1024x512 (![0, 1, 2] : Fin 3 → Fin S4x1024x512.rank)
  dot_S4x1024x512_S1536x512_S4x1024x1536_2_1_01_0_n_n_wf : DotDims.WF S4x1024x512 S1536x512 S4x1024x1536 [2] [1] [0, 1] [0] [] []
  dot_S4x8x1024x64_S4x8x1024x64_S4x8x1024x1024_3_3_2_2_01_01_wf : DotDims.WF S4x8x1024x64 S4x8x1024x64 S4x8x1024x1024 [3] [3] [2] [2] [0, 1] [0, 1]
  dot_S4x8x1024x1024_S4x8x1024x64_S4x8x1024x64_3_2_2_3_01_01_wf : DotDims.WF S4x8x1024x1024 S4x8x1024x64 S4x8x1024x64 [3] [2] [2] [3] [0, 1] [0, 1]
  dot_S4x1024x512_S512x512_S4x1024x512_2_1_01_0_n_n_wf : DotDims.WF S4x1024x512 S512x512 S4x1024x512 [2] [1] [0, 1] [0] [] []

variable [Facts₀]

def dot_S4x1024x512_S1536x512_S4x1024x1536_2_1_01_0_n_n : DotDims S4x1024x512 S1536x512 S4x1024x1536 where
  lhsContracting := [2]
  rhsContracting := [1]
  lhsNonContracting := [0, 1]
  rhsNonContracting := [0]
  lhsBatch := []
  rhsBatch := []
  wf := dot_S4x1024x512_S1536x512_S4x1024x1536_2_1_01_0_n_n_wf
def dot_S4x8x1024x64_S4x8x1024x64_S4x8x1024x1024_3_3_2_2_01_01 : DotDims S4x8x1024x64 S4x8x1024x64 S4x8x1024x1024 where
  lhsContracting := [3]
  rhsContracting := [3]
  lhsNonContracting := [2]
  rhsNonContracting := [2]
  lhsBatch := [0, 1]
  rhsBatch := [0, 1]
  wf := dot_S4x8x1024x64_S4x8x1024x64_S4x8x1024x1024_3_3_2_2_01_01_wf
def dot_S4x8x1024x1024_S4x8x1024x64_S4x8x1024x64_3_2_2_3_01_01 : DotDims S4x8x1024x1024 S4x8x1024x64 S4x8x1024x64 where
  lhsContracting := [3]
  rhsContracting := [2]
  lhsNonContracting := [2]
  rhsNonContracting := [3]
  lhsBatch := [0, 1]
  rhsBatch := [0, 1]
  wf := dot_S4x8x1024x1024_S4x8x1024x64_S4x8x1024x64_3_2_2_3_01_01_wf
def dot_S4x1024x512_S512x512_S4x1024x512_2_1_01_0_n_n : DotDims S4x1024x512 S512x512 S4x1024x512 where
  lhsContracting := [2]
  rhsContracting := [1]
  lhsNonContracting := [0, 1]
  rhsNonContracting := [0]
  lhsBatch := []
  rhsBatch := []
  wf := dot_S4x1024x512_S512x512_S4x1024x512_2_1_01_0_n_n_wf

class Facts : Prop extends Facts₀ where

variable [Facts]
-- ==== Proof.Spec.lean ====
/-
  The mathematics both programs compute, index by index over the extended reals.

  An activation is "spiked": clipped to [0, 4], shifted by one half and rounded down,
  `spk v = ⌊min 4 (max 0 v) + 1/2⌋`.  From an input `x : [4,1024,512]` and weights `w : [1536,512]`:

    q(b,n,d)      = Σ_k spk(x(b,n,k)) · w(d,k)                                   (the qkv projection)
    nrm(b,n,d)    = the batch normalisation of q along (b,n) with per-channel mean μ(d) and inverse deviation inv(d),
                    scaled by γ(d) and shifted by β(d) — written in the two arrangements the two programs use
                    (`normK`: q·(γ·inv) + (β − μ·(γ·inv));  `normR`: ((q − μ)·inv)·γ + β), equal when μ, inv, q, γ, β are finite
    Q,K,V(b,h,n,e) = spk(nrm(b,n, s·512 + h·64 + e)) for s = 0, 1, 2               (split into 8 heads of width 64)
    O(b,h,n,e)    = spk( (Σ_m spk(Σ_e' Q(b,h,n,e')·K(b,h,m,e')) · V(b,h,m,e)) · 1/8 )   (attention without a softmax)
    out(b,n,d)    = Σ_c O(b, c / 64, n, c % 64) · wp(d,c) + bp(d)                  (heads merged, projected, biased)

  The mean and the inverse deviation enter as PARAMETERS `μ inv : [1536]`: both programs compute them from `q` by the same
  host operations, which are named, not opened, where the two sides are joined.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arrays the specification speaks of. -/
abbrev SX : Shape := ⟨3, ![4, 1024, 512]⟩
abbrev SW : Shape := ⟨2, ![1536, 512]⟩
abbrev SC : Shape := ⟨1, ![1536]⟩
abbrev SP : Shape := ⟨2, ![512, 512]⟩
abbrev SB : Shape := ⟨1, ![512]⟩
abbrev SQ : Shape := ⟨3, ![4, 1024, 1536]⟩

/-- The clip's lower bound 0, its upper bound 4, the rounding shift 1/2 and the attention scale 1/8, as the words both programs print. -/
abbrev lo : EReal := Ideal.ofBits .f32 0x00000000#32
abbrev hi : EReal := Ideal.ofBits .f32 0x40800000#32
abbrev half : EReal := Ideal.ofBits .f32 0x3F000000#32
abbrev eighth : EReal := Ideal.ofBits .f32 0x3E000000#32

/-- The spike: clip to [0, 4], add one half, round down. -/
def spk (v : EReal) : EReal := Ideal.liftRound Int.floor (min hi (max lo v) + half)

/-- The qkv projection at (b, n, d): the spiked input row against row `d` of the weights. -/
def qkvS (x : SX.Idx → EReal) (w : SW.Idx → EReal) (b : Fin 4) (n : Fin 1024) (d : Fin 1536) : EReal :=
  ∑ k : Fin 512, spk (x (ix3 b n k)) * w (ix2 d k)

/-- The same as an array. -/
def qkvA (x : SX.Idx → EReal) (w : SW.Idx → EReal) : SQ.Idx → EReal := fun i => qkvS x w (i 0) (i 1) (i 2)

theorem qkvA_ix3 (x : SX.Idx → EReal) (w : SW.Idx → EReal) (b : Fin 4) (n : Fin 1024) (d : Fin 1536) :
    qkvA x w (ix3 b n d) = qkvS x w b n d := rfl

/-- The normalisation as the kernel arranges it: a per-channel scale γ·inv and shift β − μ·(γ·inv), computed once, applied to q. -/
def normK (q : SQ.Idx → EReal) (μ inv γ β : SC.Idx → EReal) (b : Fin 4) (n : Fin 1024) (d : Fin 1536) : EReal :=
  q (ix3 b n d) * (γ (ix1 d) * inv (ix1 d)) + (β (ix1 d) - μ (ix1 d) * (γ (ix1 d) * inv (ix1 d)))

/-- The normalisation as the reference arranges it: centre, scale by inv, then by γ, shift by β. -/
def normR (q : SQ.Idx → EReal) (μ inv γ β : SC.Idx → EReal) (b : Fin 4) (n : Fin 1024) (d : Fin 1536) : EReal :=
  (q (ix3 b n d) - μ (ix1 d)) * inv (ix1 d) * γ (ix1 d) + β (ix1 d)

/-- Channel `s·512 + h·64 + e` of the 1536: part `s` (query, key, value), head `h`, lane `e`. -/
def chan (s : Fin 3) (h : Fin 8) (e : Fin 64) : Fin 1536 :=
  ⟨s.val * 512 + h.val * 64 + e.val, by have := s.isLt; have := h.isLt; have := e.isLt; omega⟩

/-- Channel `s·512 + c` of the 1536: part `s`, merged channel `c` of that part's 512. -/
def chanW (s : Fin 3) (c : Fin 512) : Fin 1536 :=
  ⟨s.val * 512 + c.val, by have := s.isLt; have := c.isLt; omega⟩

/-- Merged channel `h·64 + e` of the 512: head `h`, lane `e`. -/
def mergeHE (h : Fin 8) (e : Fin 64) : Fin 512 := ⟨h.val * 64 + e.val, by have := h.isLt; have := e.isLt; omega⟩

theorem chan_eq (s : Fin 3) (h : Fin 8) (e : Fin 64) : chan s h e = chanW s (mergeHE h e) :=
  Fin.ext (by simp only [chan, chanW, mergeHE]; omega)

/-- Part `s` of the spiked normalised activations, head-major. -/
def headS (nrm : Fin 4 → Fin 1024 → Fin 1536 → EReal) (s : Fin 3) (b : Fin 4) (h : Fin 8) (n : Fin 1024) (e : Fin 64) : EReal :=
  spk (nrm b n (chan s h e))

/-- Attention without a softmax, per batch and head: spiked scores against the values, scaled by 1/8, spiked. -/
def attS (Q K V : Fin 4 → Fin 8 → Fin 1024 → Fin 64 → EReal) (b : Fin 4) (h : Fin 8) (n : Fin 1024) (e : Fin 64) : EReal :=
  spk ((∑ m : Fin 1024, spk (∑ e' : Fin 64, Q b h n e' * K b h m e') * V b h m e) * eighth)

/-- Head and lane of merged channel `c` of the 512. -/
def headOf (c : Fin 512) : Fin 8 := ⟨c.val / 64, by have := c.isLt; omega⟩
def laneOf (c : Fin 512) : Fin 64 := ⟨c.val % 64, Nat.mod_lt _ (by decide)⟩

/-- The output projection at (b, n, d): the merged heads against row `d` of the projection weights, plus the bias. -/
def outS (O : Fin 4 → Fin 8 → Fin 1024 → Fin 64 → EReal) (wp : SP.Idx → EReal) (bp : SB.Idx → EReal)
    (b : Fin 4) (n : Fin 1024) (d : Fin 512) : EReal :=
  (∑ c : Fin 512, O b (headOf c) n (laneOf c) * wp (ix2 d c)) + bp (ix1 d)

/-- Everything after the normalisation: split, attention, projection. -/
def outOf (nrm : Fin 4 → Fin 1024 → Fin 1536 → EReal) (wp : SP.Idx → EReal) (bp : SB.Idx → EReal)
    (b : Fin 4) (n : Fin 1024) (d : Fin 512) : EReal :=
  outS (attS (headS nrm 0) (headS nrm 1) (headS nrm 2)) wp bp b n d

end Cert.Spec

end
-- ==== Proof.KTerm.lean ====
/-
  The per-channel statistics the kernel's host code computes between its first and second region, as pure terms of the qkv
  activations: the sum over batch and sequence, the mean over the 4096 positions, the variance (mean square deviation, guarded by
  "the divisor is positive") and the inverse deviation 1/√(var + ε); then the scale γ·inv and the shift β − μ·(γ·inv) the second
  region applies. The operations are the ones the reference applies for the same statistics.
-/
import proofs.«145565_j53025666236638_1_alg».proof.Proof.Gen.KernelIdeal

noncomputable section

namespace Cert.KernelIdeal.Term

open Cert.KernelIdeal Cert.KernelIdeal.Facts₀ Cert.KernelIdeal.Facts Idealize.ShloMosaic

variable {F : FTy → Type} [FloatOps F]

/-- The contents of an f32 buffer of shape `S`. -/
abbrev C (S : Shape) : Type := (⟨S, .f32⟩ : BufTy).Contents (Elt F)

def sumBN (q : C (F := F) S4x1024x1536) : C (F := F) S1536 :=
  Host.reduceAdd q (constant S_ .f32 0x00000000#32) reducesTo_S4x1024x1536_S1536_d0_1 h_S_

def mean (q : C (F := F) S4x1024x1536) : C (F := F) S1536 :=
  Host.divf (sumBN q) (broadcastInDim S1536 ![] bcast_S_S1536 (constant S_ .f32 0x45800000#32))

def count : (⟨S_, .f32⟩ : BufTy).Contents (Elt F) :=
  subf (constant S_ .f32 0x45800000#32) (sitofp .f32 (constantI S_ 32 0#32))

def dev (q : C (F := F) S4x1024x1536) : C (F := F) S4x1024x1536 :=
  subf q (broadcastInDim S4x1024x1536 ![0, 1, 2] bcast_S1x1x1536_S4x1024x1536_0_1_2
    (Host.divf (broadcastInDim S1x1x1536 ![2] bcast_S1536_S1x1x1536_2 (sumBN q))
      (broadcastInDim S1x1x1536 ![] bcast_S_S1x1x1536 (constant S_ .f32 0x45800000#32))))

def var (q : C (F := F) S4x1024x1536) : C (F := F) S1536 :=
  select (broadcastInDim S1536 ![] bcast_S_S1536 (cmpf .ogt (count (F := F)) (constant S_ .f32 0x00000000#32)))
    (Host.divf (Host.reduceAdd (mulf (dev q) (dev q)) (constant S_ .f32 0x00000000#32) reducesTo_S4x1024x1536_S1536_d0_1 h_S_)
      (broadcastInDim S1536 ![] bcast_S_S1536 (count (F := F))))
    (broadcastInDim S1536 ![] bcast_S_S1536 (constant S_ .f32 0x7FC00000#32))

def inv (q : C (F := F) S4x1024x1536) : C (F := F) S1536 :=
  Host.rsqrt (addf (var q) (broadcastInDim S1536 ![] bcast_S_S1536 (constant S_ .f32 0x3727C5AC#32)))

/-- The per-channel scale γ·inv. -/
def scale (q : C (F := F) S4x1024x1536) (g : C (F := F) S1536) : C (F := F) S1536 := mulf g (inv q)

/-- The per-channel shift β − μ·(γ·inv). -/
def shift (q : C (F := F) S4x1024x1536) (g b : C (F := F) S1536) : C (F := F) S1536 := subf b (mulf (mean q) (scale q g))

end Cert.KernelIdeal.Term

end
-- ==== Proof.KReg0.lean ====
import proofs.«145565_j53025666236638_1_alg».proof.Proof.Gen.KernelIdeal.Frame
import proofs.«145565_j53025666236638_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.ShloMosaic.ValueIdx Idealize.SL.Sem
open scoped BigOperators

/-! ## The projection's dimension numbers: operand indices at an output index and a contraction index -/

/-- The activation operand's row is the output's row … -/
theorem lhs_qkv_0 (i : S1024x1536.Idx) (q : dot_S1024x512_S1536x512_S1024x1536_1_1_0_0_n_n.contr.Idx) :
    (dot_S1024x512_S1536x512_S1024x1536_1_1_0_0_n_n.lhsIdx i q 0).val = (i 0).val := by
  unfold DotDims.lhsIdx
  rw [dif_neg (show ¬(0 : Fin S1024x512.rank) ∈ dot_S1024x512_S1536x512_S1024x1536_1_1_0_0_n_n.lhsBatch by decide), dif_pos (show (0 : Fin S1024x512.rank) ∈ dot_S1024x512_S1536x512_S1024x1536_1_1_0_0_n_n.lhsNonContracting by decide)]
  rfl
/-- … and its column the contraction position. -/
theorem lhs_qkv_1 (i : S1024x1536.Idx) (q : dot_S1024x512_S1536x512_S1024x1536_1_1_0_0_n_n.contr.Idx) :
    (dot_S1024x512_S1536x512_S1024x1536_1_1_0_0_n_n.lhsIdx i q 1).val = (q ⟨0, by decide⟩).val :=
  dot_S1024x512_S1536x512_S1024x1536_1_1_0_0_n_n.lhsIdx_val_of_single rfl i q
/-- The weight operand's row is the output's column … -/
theorem rhs_qkv_0 (i : S1024x1536.Idx) (q : dot_S1024x512_S1536x512_S1024x1536_1_1_0_0_n_n.contr.Idx) :
    (dot_S1024x512_S1536x512_S1024x1536_1_1_0_0_n_n.rhsIdx i q 0).val = (i 1).val := by
  unfold DotDims.rhsIdx
  rw [dif_neg (show ¬(0 : Fin S1536x512.rank) ∈ dot_S1024x512_S1536x512_S1024x1536_1_1_0_0_n_n.rhsBatch by decide), dif_pos (show (0 : Fin S1536x512.rank) ∈ dot_S1024x512_S1536x512_S1024x1536_1_1_0_0_n_n.rhsNonContracting by decide)]
  rfl
/-- … and its column the contraction position. -/
theorem rhs_qkv_1 (i : S1024x1536.Idx) (q : dot_S1024x512_S1536x512_S1024x1536_1_1_0_0_n_n.contr.Idx) :
    (dot_S1024x512_S1536x512_S1024x1536_1_1_0_0_n_n.rhsIdx i q 1).val = (q ⟨0, by decide⟩).val :=
  dot_S1024x512_S1536x512_S1024x1536_1_1_0_0_n_n.rhsIdx_val_of_single rfl i q

/-- The product into the zero accumulator, at (n, d): the sum over the 512 contraction positions of the activation
    row against the weight row. -/
theorem matmul_qkv_apply (A : FVec Ideal S1024x512 .bf16) (W : FVec Ideal S1536x512 .bf16) (n : Fin 1024) (d : Fin 1536) :
    matmul dot_S1024x512_S1536x512_S1024x1536_1_1_0_0_n_n none A W (constant (F := Ideal) S1024x1536 .f32 0x00000000#32) (ix2 n d)
      = ∑ k : Fin 512, A (ix2 n k) * W (ix2 d k) := by
  simp only [matmul]
  rw [Ideal.matmul_constant_zero_apply, ← Equiv.sum_comp (contrEquiv1 dot_S1024x512_S1536x512_S1024x1536_1_1_0_0_n_n 512 rfl rfl).symm]
  refine Finset.sum_congr rfl fun k _ => ?_
  have hk := contrEquiv1_symm_val dot_S1024x512_S1536x512_S1024x1536_1_1_0_0_n_n 512 rfl rfl k
  have el : dot_S1024x512_S1536x512_S1024x1536_1_1_0_0_n_n.lhsIdx (ix2 n d) ((contrEquiv1 dot_S1024x512_S1536x512_S1024x1536_1_1_0_0_n_n 512 rfl rfl).symm k) = ix2 n k := funext fun a => Fin.ext (by
    match a with
    | ⟨0, _⟩ => exact lhs_qkv_0 _ _
    | ⟨1, _⟩ => exact (lhs_qkv_1 _ _).trans hk)
  have er : dot_S1024x512_S1536x512_S1024x1536_1_1_0_0_n_n.rhsIdx (ix2 n d) ((contrEquiv1 dot_S1024x512_S1536x512_S1024x1536_1_1_0_0_n_n 512 rfl rfl).symm k) = ix2 d k := funext fun a => Fin.ext (by
    match a with
    | ⟨0, _⟩ => exact rhs_qkv_0 _ _
    | ⟨1, _⟩ => exact (rhs_qkv_1 _ _).trans hk)
  rw [el, er]

/-! ## The body's payload at an index -/

/-- The spiked activation block at (n, k): clip to [0, 4], add one half, round down (the narrowing to bf16 is the
    identity on the extended reals). -/
theorem spike_apply (x : Vec Ideal S1x1024x512 .f32) (n : Fin 1024) (k : Fin 512) :
    (truncf .bf16 (floor (addf (minimumf (broadcast S1024x512 (Scalar.ofBits (F := Ideal) .f32 0x40800000#32))
        (maximumf (broadcast S1024x512 (Scalar.ofBits (F := Ideal) .f32 0x00000000#32)) (shapeCast S1024x512 x shapeCasts_S1x1024x512_S1024x512)))
        (broadcast S1024x512 (Scalar.ofBits (F := Ideal) .f32 0x3F000000#32)))) bitsLt_bf16_f32 : FVec Ideal S1024x512 .bf16) (ix2 n k)
      = Cert.Spec.spk (x (ix3 (0 : Fin 1) n k)) := by
  rw [truncf_apply]
  show FloatOps.floor _ = _
  rw [Ideal.floor_def, addf_apply, minimumf_apply, maximumf_apply, broadcast_apply, broadcast_apply, broadcast_apply, shapeCast_1ab_ab_apply]
  rfl

/-- THE PAYLOAD AT (0, n, d): the spiked activation row n of the block against row d of the weights. -/
theorem pay_apply (x : Vec Ideal S1x1024x512 .f32) (w : Vec Ideal S1536x512 .bf16) (u : Fin 1) (n : Fin 1024) (d : Fin 1536) :
    k0_pay1 (F := Ideal) x w (ix3 u n d) = ∑ k : Fin 512, Cert.Spec.spk (x (ix3 (0 : Fin 1) n k)) * w (ix2 d k) := by
  unfold k0_pay1
  rw [shapeCast_ab_1ab_apply, matmul_qkv_apply]
  refine Finset.sum_congr rfl fun k _ => ?_
  rw [spike_apply, shapeCast_self]

/-- The payload at any index of the block, by its coordinates. -/
theorem pay_apply_idx (x : Vec Ideal S1x1024x512 .f32) (w : Vec Ideal S1536x512 .bf16) (y : S1x1024x1536.Idx) :
    k0_pay1 (F := Ideal) x w y = ∑ k : Fin 512, Cert.Spec.spk (x (ix3 (0 : Fin 1) (y 1) k)) * w (ix2 (y 2) k) := by
  obtain ⟨u, n, d, rfl⟩ : ∃ (u : Fin 1) (n : Fin 1024) (d : Fin 1536), y = ix3 u n d := ⟨y 0, y 1, y 2, eq_ix3 y⟩
  exact pay_apply x w u n d

/-! ## From blocks to the array -/

variable (V : (c : Dev nD) → (b : Ref sig .tc) → Buf (Elt Ideal) ((c : Thread nD τ).loc b))

/-- The two arrays region 0 reads, as the region finds them, at their literal types: the input and the (narrowed) qkv weights. -/
abbrev xArr (c : Dev nD) : Vec Ideal S4x1024x512 .f32 := V c (Pipeline.arrRef spec0 0)
abbrev wArr (c : Dev nD) : Vec Ideal S1536x512 .bf16 := V c (Pipeline.arrRef spec0 1)

theorem hz3 : (![0, 0, 0] : Fin 3 → Nat) = fun _ => 0 := funext fun a => by fin_cases a <;> rfl
theorem hz2 : (![0, 0] : Fin 2 → Nat) = fun _ => 0 := funext fun a => by fin_cases a <;> rfl

/-- The whole output array the region leaves: the qkv projection of the spiked input. -/
abbrev qkvArr (c : Dev nD) : Vec Ideal S4x1024x1536 .f32 := Cert.Spec.qkvA (xArr V c) (wArr V c)

/-- The index maps over the grid of 4 points: the input block and the output block move together along the batch
    (block t of each), all other block indices are 0, the weights' block is the whole array. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT t WRITES BACK is block t of the projection array. -/
theorem flushed_eq (c : Dev nD) (t : Fin cfg0.N) :
    (dat0 (F := Ideal) V c).flushed 2 t = ((cfg0.win 2).blk t).view.read (Elt Ideal) (qkvArr V c) := by
  show (cfg0.win 2).cut (grid0.coords t) ((dat0 V c).after 2 t) = _
  rw [after0_2]
  unfold out0_2
  rw [View.canon_unit_zero hz3]
  simp only [View.ld_unit_zero (S := S1x1024x512) hz3, View.ld_unit_zero (S := S1536x512) hz2]
  obtain ⟨e00, e01, e02, e10, e11, e20, e21, e22⟩ := idx_facts t
  funext j
  refine (pay_apply_idx (iblk0 V c 0 t) (iblk0 V c 1 t) _).trans ?_
  show _ = Cert.Spec.qkvS (xArr V c) (wArr V c) ((((cfg0.win 2).blk t).view.emb j) 0) ((((cfg0.win 2).blk t).view.emb j) 1) ((((cfg0.win 2).blk t).view.emb j) 2)
  unfold Cert.Spec.qkvS
  refine Finset.sum_congr rfl fun k _ => ?_
  have hx : iblk0 V c 0 t (ix3 (0 : Fin 1) ((cfg0.win 2).xinj (grid0.coords t) j 1) k)
      = xArr V c (ix3 ((((cfg0.win 2).blk t).view.emb j) 0) ((((cfg0.win 2).blk t).view.emb j) 1) k) := by
    show V c (Pipeline.arrRef spec0 0) (((cfg0.win 0).blk t).view.emb (ix3 (0 : Fin 1) ((cfg0.win 2).xinj (grid0.coords t) j 1) k)) = V c (Pipeline.arrRef spec0 0) _
    refine congrArg _ (funext fun a => Fin.ext ?_)
    match a with
    | ⟨0, _⟩ => show win0_0.index t (0 : Fin 3) * 1 + 1 * 0 = win0_2.index t (0 : Fin 3) * 1 + 1 * (j 0).val; have hj : (j 0).val < 1 := (j 0).isLt; omega
    | ⟨1, _⟩ => show win0_0.index t (1 : Fin 3) * 1024 + 1 * (j 1).val = win0_2.index t (1 : Fin 3) * 1024 + 1 * (j 1).val; omega
    | ⟨2, _⟩ => show win0_0.index t (2 : Fin 3) * 512 + 1 * k.val = k.val; omega
  have hw : iblk0 V c 1 t (ix2 ((cfg0.win 2).xinj (grid0.coords t) j 2) k)
      = wArr V c (ix2 ((((cfg0.win 2).blk t).view.emb j) 2) k) := by
    show V c (Pipeline.arrRef spec0 1) (((cfg0.win 1).blk t).view.emb (ix2 ((cfg0.win 2).xinj (grid0.coords t) j 2) k)) = V c (Pipeline.arrRef spec0 1) _
    refine congrArg _ (funext fun a => Fin.ext ?_)
    match a with
    | ⟨0, _⟩ => show win0_1.index t (0 : Fin 2) * 1536 + 1 * (j 2).val = win0_2.index t (2 : Fin 3) * 1536 + 1 * (j 2).val; omega
    | ⟨1, _⟩ => show win0_1.index t (1 : Fin 2) * 512 + 1 * k.val = k.val; omega
  rw [hx, hw]

/-- An index of the array is in point t's block iff each coordinate is in the block's range on its axis. -/
theorem mem_blk (t : Fin cfg0.N) (i : S4x1024x1536.Idx) :
    i ∈ ((cfg0.win 2).blk t).view.set ↔ ∀ a : Fin 3, win0_2.index t a * S1x1024x1536.size a ≤ (i a).val ∧ (i a).val < win0_2.index t a * S1x1024x1536.size a + S1x1024x1536.size a := by
  show i ∈ ((View.whole main_v1).slice (win0_2.rect t)).set ↔ _
  rw [View.set_slice_whole, Rect.mem_set_unit]
  exact Iff.rfl

/-- The blocks cover the array: index (b, n, d) lies in the block of point b. -/
theorem cover (i : S4x1024x1536.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 1536 := (i 2).isLt
  obtain ⟨t, ht⟩ : ∃ t : Fin cfg0.N, t.val = (i 0).val := ⟨⟨(i 0).val, by rw [show cfg0.N = 4 from N_0]; exact h0⟩, rfl⟩
  obtain ⟨-, -, -, -, -, e20, e21, e22⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1536 ≤ (i 2).val ∧ (i 2).val < win0_2.index t (2 : Fin 3) * 1536 + 1536; omega

/-- After region 0 its output array holds the qkv projection of the spiked input. -/
theorem value (c : Dev nD) (b : Fin 4) (n : Fin 1024) (d : Fin 1536) :
    (dat0 (F := Ideal) V c).arrAt 2 cfg0.N (ix3 b n d) = Cert.Spec.qkvS (xArr V c) (wArr V c) b n d := by
  have h := (dat0 (F := Ideal) V c).arrAt_eq_of_cover 2 (qkvArr V c) (fun t _ => flushed_eq V c t) cover
  exact (congrFun h (ix3 b n d)).trans (Cert.Spec.qkvA_ix3 _ _ b n d)

end Cert.KernelIdeal.Reg0

end
-- ==== Proof.KReg1.lean ====
import proofs.«145565_j53025666236638_1_alg».proof.Proof.Gen.KernelIdeal.Frame
import proofs.«145565_j53025666236638_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The arrays region 1 reads: the qkv activations, the per-channel scale and the per-channel shift (each a 1 × 1536 row). -/
abbrev qArr (c : Dev nD) : Vec Ideal S4x1024x1536 .f32 := V c (Pipeline.arrRef spec1 0)
abbrev scArr (c : Dev nD) : Vec Ideal S1x1536 .f32 := V c (Pipeline.arrRef spec1 1)
abbrev shArr (c : Dev nD) : Vec Ideal S1x1536 .f32 := V c (Pipeline.arrRef spec1 2)

/-- Part `s` at (b, n, e): the activation at channel s·512 + e scaled, shifted and spiked. -/
def cell (c : Dev nD) (s : Fin 3) (b : Fin 4) (n : Fin 1024) (e : Fin 512) : EReal :=
  Cert.Spec.spk (qArr V c (ix3 b n (Cert.Spec.chanW s e)) * scArr V c (ix2 (0 : Fin 1) (Cert.Spec.chanW s e))
    + shArr V c (ix2 (0 : Fin 1) (Cert.Spec.chanW s e)))

/-! ## One tile entry: the payloads read at an index

Over three blocks x0 (a 1 × 512 × 1536 slab of activations), x1 and x2 (the 1 × 1536 scale and shift rows) the body forms the
512 × 1536 tile x0·x1 + x2 (the rows broadcast down the tile), cuts it into three 512-column slices and spikes each:
clip to [0, 4], add one half, round down. -/

/-- The scaled and shifted tile at (p, d): the activation times the scale row's entry plus the shift row's entry. -/
private theorem pay2_apply (x0 : Vec Ideal S1x512x1536 .f32) (x1 x2 : Vec Ideal S1x1536 .f32) (p : Fin 512) (d : Fin 1536) :
    k1_pay2 (F := Ideal) x0 x1 x2 (ix2 p d) = x0 (ix3 (0 : Fin 1) p d) * x1 (ix2 (0 : Fin 1) d) + x2 (ix2 (0 : Fin 1) d) := by
  unfold k1_pay2
  rw [addf_apply, mulf_apply, shapeCast_1ab_ab_apply, broadcastTo_1b_ab_apply, broadcastTo_1b_ab_apply, shapeCast_self, shapeCast_self]

/-- Channel s·512 + e of the 1536 is column e of the slice that starts at column s·512. -/
private theorem chanW_val (s : Fin 3) (e : Fin 512) : (Cert.Spec.chanW s e).val = s.val * 512 + e.val := rfl

/-- One tile entry in terms of the three blocks: the spike of the scaled, shifted activation at channel s·512 + e of row p. -/
private def tileCell (x0 : Vec Ideal S1x512x1536 .f32) (x1 x2 : Vec Ideal S1x1536 .f32) (s : Fin 3) (p : Fin 512) (e : Fin 512) : EReal :=
  Cert.Spec.spk (x0 (ix3 (0 : Fin 1) p (Cert.Spec.chanW s e)) * x1 (ix2 (0 : Fin 1) (Cert.Spec.chanW s e)) + x2 (ix2 (0 : Fin 1) (Cert.Spec.chanW s e)))

/-- The query payload at (u, p, e): columns 0..511 of the tile, spiked. Rounding down is the exact floor; the narrowing to
    the output's element type is the identity on exact values. -/
private theorem payQ_apply (x0 : Vec Ideal S1x512x1536 .f32) (x1 x2 : Vec Ideal S1x1536 .f32) (u : Fin 1) (p : Fin 512) (e : Fin 512) :
    k1_pay4 (F := Ideal) x0 x1 x2 (ix3 u p e) = tileCell x0 x1 x2 0 p e := by
  unfold k1_pay4 tileCell Cert.Spec.spk
  rw [shapeCast_ab_1ab_apply, truncf_apply]
  show FloatOps.floor _ = _
  rw [Ideal.floor_def]
  congr 1
  rw [addf_apply, minimumf_apply, maximumf_apply, broadcast_apply, broadcast_apply, broadcast_apply,
    slice2_axis1_apply 0 _ _ p e (Cert.Spec.chanW 0 e) (by rw [chanW_val]; simp), pay2_apply]
  rfl

/-- The key payload at (u, p, e): columns 512..1023 of the tile, spiked. -/
private theorem payK_apply (x0 : Vec Ideal S1x512x1536 .f32) (x1 x2 : Vec Ideal S1x1536 .f32) (u : Fin 1) (p : Fin 512) (e : Fin 512) :
    k1_pay5 (F := Ideal) x0 x1 x2 (ix3 u p e) = tileCell x0 x1 x2 1 p e := by
  unfold k1_pay5 tileCell Cert.Spec.spk
  rw [shapeCast_ab_1ab_apply, truncf_apply]
  show FloatOps.floor _ = _
  rw [Ideal.floor_def]
  congr 1
  rw [addf_apply, minimumf_apply, maximumf_apply, broadcast_apply, broadcast_apply, broadcast_apply,
    slice2_axis1_apply 512 _ _ p e (Cert.Spec.chanW 1 e) (by rw [chanW_val]; simp), pay2_apply]
  rfl

/-- The value payload at (u, p, e): columns 1024..1535 of the tile, spiked; here the clip's bounds 0 and 4 reach the
    payload as scalar arguments. -/
private theorem payV_apply (x0 : Vec Ideal S1x512x1536 .f32) (x1 x2 : Vec Ideal S1x1536 .f32) (u : Fin 1) (p : Fin 512) (e : Fin 512) :
    k1_pay1 (F := Ideal) (k1_pay3 x0 x1 x2) (Scalar.ofBits .f32 0x00000000#32) (Scalar.ofBits .f32 0x40800000#32) (ix3 u p e)
      = tileCell x0 x1 x2 2 p e := by
  unfold k1_pay1 k1_pay3 tileCell Cert.Spec.spk
  rw [shapeCast_ab_1ab_apply, truncf_apply]
  show FloatOps.floor _ = _
  rw [Ideal.floor_def]
  congr 1
  rw [addf_apply, minimumf_apply, maximumf_apply, broadcast_apply, broadcast_apply, broadcast_apply,
    slice2_axis1_apply 1024 _ _ p e (Cert.Spec.chanW 2 e) (by rw [chanW_val]; simp), pay2_apply]
  rfl

/-! ## The blocks of a grid point

The grid is 4 batches × 2 row-tiles of 512 rows. At grid point t the activation window holds the slab
(batch block, row-tile block, all 1536 channels), the scale and shift windows hold their whole rows, and each output
window's block sits at the same (batch block, row-tile block) of its array, all 512 columns. -/

private theorem hz3 : (![0, 0, 0] : Fin 3 → Nat) = fun _ => 0 := funext fun a => by fin_cases a <;> rfl
private theorem hz2 : (![0, 0] : Fin 2 → Nat) = fun _ => 0 := funext fun a => by fin_cases a <;> rfl

/-- The printed index maps, decided over the eight grid points: the activation block index is in range with column block 0,
    the scale and shift rows are at block (0, 0), and each output block index equals the activation's on the batch and
    row-tile axes with column block 0. -/
private theorem idx_facts : ∀ t : Fin cfg1.N,
    win1_0.index t (0 : Fin 3) ≤ 3 ∧ win1_0.index t (1 : Fin 3) ≤ 1 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_0.index t (0 : Fin 3) ∧ win1_3.index t (1 : Fin 3) = win1_0.index t (1 : Fin 3) ∧ win1_3.index t (2 : Fin 3) = 0
    ∧ win1_4.index t (0 : Fin 3) = win1_0.index t (0 : Fin 3) ∧ win1_4.index t (1 : Fin 3) = win1_0.index t (1 : Fin 3) ∧ win1_4.index t (2 : Fin 3) = 0
    ∧ win1_5.index t (0 : Fin 3) = win1_0.index t (0 : Fin 3) ∧ win1_5.index t (1 : Fin 3) = win1_0.index t (1 : Fin 3) ∧ win1_5.index t (2 : Fin 3) = 0 :=
  (by decide +kernel : ∀ t : Fin grid1.N, _)

/-- Every (batch, row-tile) pair is some grid point's block. -/
private theorem idx_onto : ∀ (q0 : Fin 4) (q1 : Fin 2), ∃ t : Fin cfg1.N, win1_0.index t (0 : Fin 3) = q0.val ∧ win1_0.index t (1 : Fin 3) = q1.val :=
  (by decide +kernel : ∀ (q0 : Fin 4) (q1 : Fin 2), ∃ t : Fin grid1.N, win1_0.index t (0 : Fin 3) = q0.val ∧ win1_0.index t (1 : Fin 3) = q1.val)

/-- The activation block at grid point t, at (0, p, d), is the activations at batch = the batch block and
    row = 512 · (row-tile block) + p, channel d: a block's coordinate is block index × block size + the coordinate inside. -/
private theorem q_read (c : Dev nD) (t : Fin cfg1.N) (p : Fin 512) (d : Fin 1536) (b : Fin 4) (n : Fin 1024)
    (hb : b.val = win1_0.index t (0 : Fin 3)) (hn : n.val = win1_0.index t (1 : Fin 3) * 512 + p.val) :
    (iblk1 V c 0 t : Vec Ideal S1x512x1536 .f32) (ix3 (0 : Fin 1) p d) = qArr V c (ix3 b n d) := by
  obtain ⟨-, -, e2, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 3) * 1 + 1 * (0 : Fin 1).val = b.val; rw [hb]; simp
  | ⟨1, _⟩ => show win1_0.index t (1 : Fin 3) * 512 + 1 * p.val = n.val; rw [hn]; omega
  | ⟨2, _⟩ => show win1_0.index t (2 : Fin 3) * 1536 + 1 * d.val = d.val; rw [e2]; omega

/-- The scale window's block is the whole scale row at every grid point. -/
private theorem sc_read (c : Dev nD) (t : Fin cfg1.N) (d : Fin 1536) :
    (iblk1 V c 1 t : Vec Ideal S1x1536 .f32) (ix2 (0 : Fin 1) d) = scArr V c (ix2 (0 : Fin 1) d) := by
  obtain ⟨-, -, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (0 : Fin 1).val = (0 : Fin 1).val; rw [e0]; simp
  | ⟨1, _⟩ => show win1_1.index t (1 : Fin 2) * 1536 + 1 * d.val = d.val; rw [e1]; omega

/-- The shift window's block is the whole shift row at every grid point. -/
private theorem sh_read (c : Dev nD) (t : Fin cfg1.N) (d : Fin 1536) :
    (iblk1 V c 2 t : Vec Ideal S1x1536 .f32) (ix2 (0 : Fin 1) d) = shArr V c (ix2 (0 : Fin 1) d) := by
  obtain ⟨-, -, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (0 : Fin 1).val = (0 : Fin 1).val; rw [e0]; simp
  | ⟨1, _⟩ => show win1_2.index t (1 : Fin 2) * 1536 + 1 * d.val = d.val; rw [e1]; omega

/-- A tile entry computed from grid point t's blocks is the stated cell of the whole arrays, at the batch, row and column
    the block's position gives. -/
private theorem tileCell_iblk (c : Dev nD) (t : Fin cfg1.N) (s : Fin 3) (p : Fin 512) (e : Fin 512) (b : Fin 4) (n : Fin 1024) (e' : Fin 512)
    (hb : b.val = win1_0.index t (0 : Fin 3)) (hn : n.val = win1_0.index t (1 : Fin 3) * 512 + p.val) (he : e'.val = e.val) :
    tileCell (iblk1 V c 0 t) (iblk1 V c 1 t) (iblk1 V c 2 t) s p e = cell V c s b n e' := by
  obtain rfl : e' = e := Fin.ext he
  unfold tileCell cell
  rw [q_read V c t p _ b n hb hn, sc_read V c t, sh_read V c t]

/-- Part s as one function of an output array's index. -/
private def G (c : Dev nD) (s : Fin 3) : Vec Ideal S4x1024x512 .bf16 := fun i => cell V c s (i 0) (i 1) (i 2)

/-! ## The query array -/

/-- What grid point t writes back to the query array is block t of the query part: the one whole-block store of the
    payload over the whole-block loads of the three input blocks. -/
private theorem flushedQ (c : Dev nD) (t : Fin cfg1.N) :
    (dat1 (F := Ideal) V c).flushed 3 t = ((cfg1.win 3).blk t).view.read (Elt Ideal) (G V c 0) := by
  show (cfg1.win 3).cut (grid1.coords t) ((dat1 V c).after 3 t) = _
  rw [after1_3]
  unfold out1_3
  rw [View.canon_unit_zero hz3]
  simp only [View.ld_unit_zero (S := S1x512x1536) hz3, View.ld_unit_zero (S := S1x1536) hz2]
  obtain ⟨-, -, -, -, -, -, -, e0, e1, e2, -⟩ := idx_facts t
  funext j
  obtain ⟨u, p, e, rfl⟩ : ∃ (u : Fin 1) (p : Fin 512) (e : Fin 512), j = ix3 u p e := ⟨j 0, j 1, j 2, eq_ix3 j⟩
  show k1_pay4 (F := Ideal) (iblk1 V c 0 t) (iblk1 V c 1 t) (iblk1 V c 2 t) (ix3 u p e)
    = G V c 0 (((cfg1.win 3).blk t).view.emb (ix3 u p e))
  refine (payQ_apply _ _ _ u p e).trans ?_
  unfold G
  have hu : u.val = 0 := by omega
  refine tileCell_iblk V c t 0 p e _ _ _ ?_ ?_ ?_
  · show win1_3.index t (0 : Fin 3) * 1 + 1 * u.val = win1_0.index t (0 : Fin 3); rw [e0, hu]; omega
  · show win1_3.index t (1 : Fin 3) * 512 + 1 * p.val = win1_0.index t (1 : Fin 3) * 512 + p.val; rw [e1]; omega
  · show win1_3.index t (2 : Fin 3) * 512 + 1 * e.val = e.val; rw [e2]; omega

/-- An index of the query array is in point t's block iff each coordinate is in the block's range on its axis. -/
private theorem mem_blkQ (t : Fin cfg1.N) (i : S4x1024x512.Idx) :
    i ∈ ((cfg1.win 3).blk t).view.set ↔ ∀ a : Fin 3, win1_3.index t a * S1x512x512.size a ≤ (i a).val ∧ (i a).val < win1_3.index t a * S1x512x512.size a + S1x512x512.size a := by
  show i ∈ ((View.whole main_v14_0).slice (win1_3.rect t)).set ↔ _
  rw [View.set_slice_whole, Rect.mem_set_unit]
  exact Iff.rfl

/-- The blocks tile the query array: (b, n, e) lies in the block of the point at batch b, row-tile n / 512. -/
private theorem coverQ (i : S4x1024x512.Idx) : ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 512 := (i 2).isLt
  obtain ⟨t, q0, q1⟩ := idx_onto ⟨(i 0).val, hi0⟩ ⟨(i 1).val / 512, by omega⟩
  obtain ⟨-, -, -, -, -, -, -, e0, e1, e2, -⟩ := idx_facts t
  refine ⟨t, flush1_3 t, ?_⟩
  rw [mem_blkQ]
  intro a
  match a with
  | ⟨0, _⟩ => show win1_3.index t (0 : Fin 3) * 1 ≤ (i 0).val ∧ (i 0).val < win1_3.index t (0 : Fin 3) * 1 + 1; rw [e0, q0]; show (i 0).val * 1 ≤ (i 0).val ∧ (i 0).val < (i 0).val * 1 + 1; omega
  | ⟨1, _⟩ => show win1_3.index t (1 : Fin 3) * 512 ≤ (i 1).val ∧ (i 1).val < win1_3.index t (1 : Fin 3) * 512 + 512; rw [e1, q1]; show (i 1).val / 512 * 512 ≤ (i 1).val ∧ (i 1).val < (i 1).val / 512 * 512 + 512; omega
  | ⟨2, _⟩ => show win1_3.index t (2 : Fin 3) * 512 ≤ (i 2).val ∧ (i 2).val < win1_3.index t (2 : Fin 3) * 512 + 512; rw [e2]; omega

/-- After the region the query array is the query part everywhere: every point writes its block of it, and the blocks cover. -/
private theorem finalQ (c : Dev nD) : (dat1 (F := Ideal) V c).arrAt 3 cfg1.N = G V c 0 :=
  (dat1 (F := Ideal) V c).arrAt_eq_of_cover 3 (G V c 0) (fun t _ => flushedQ V c t) coverQ

/-! ## The key array -/

/-- What grid point t writes back to the key array is block t of the key part: the one whole-block store of the
    payload over the whole-block loads of the three input blocks. -/
private theorem flushedK (c : Dev nD) (t : Fin cfg1.N) :
    (dat1 (F := Ideal) V c).flushed 4 t = ((cfg1.win 4).blk t).view.read (Elt Ideal) (G V c 1) := by
  show (cfg1.win 4).cut (grid1.coords t) ((dat1 V c).after 4 t) = _
  rw [after1_4]
  unfold out1_4
  rw [View.canon_unit_zero hz3]
  simp only [View.ld_unit_zero (S := S1x512x1536) hz3, View.ld_unit_zero (S := S1x1536) hz2]
  obtain ⟨-, -, -, -, -, -, -, -, -, -, e0, e1, e2, -⟩ := idx_facts t
  funext j
  obtain ⟨u, p, e, rfl⟩ : ∃ (u : Fin 1) (p : Fin 512) (e : Fin 512), j = ix3 u p e := ⟨j 0, j 1, j 2, eq_ix3 j⟩
  show k1_pay5 (F := Ideal) (iblk1 V c 0 t) (iblk1 V c 1 t) (iblk1 V c 2 t) (ix3 u p e)
    = G V c 1 (((cfg1.win 4).blk t).view.emb (ix3 u p e))
  refine (payK_apply _ _ _ u p e).trans ?_
  unfold G
  have hu : u.val = 0 := by omega
  refine tileCell_iblk V c t 1 p e _ _ _ ?_ ?_ ?_
  · show win1_4.index t (0 : Fin 3) * 1 + 1 * u.val = win1_0.index t (0 : Fin 3); rw [e0, hu]; omega
  · show win1_4.index t (1 : Fin 3) * 512 + 1 * p.val = win1_0.index t (1 : Fin 3) * 512 + p.val; rw [e1]; omega
  · show win1_4.index t (2 : Fin 3) * 512 + 1 * e.val = e.val; rw [e2]; omega

/-- An index of the key array is in point t's block iff each coordinate is in the block's range on its axis. -/
private theorem mem_blkK (t : Fin cfg1.N) (i : S4x1024x512.Idx) :
    i ∈ ((cfg1.win 4).blk t).view.set ↔ ∀ a : Fin 3, win1_4.index t a * S1x512x512.size a ≤ (i a).val ∧ (i a).val < win1_4.index t a * S1x512x512.size a + S1x512x512.size a := by
  show i ∈ ((View.whole main_v14_1).slice (win1_4.rect t)).set ↔ _
  rw [View.set_slice_whole, Rect.mem_set_unit]
  exact Iff.rfl

/-- The blocks tile the key array: (b, n, e) lies in the block of the point at batch b, row-tile n / 512. -/
private theorem coverK (i : S4x1024x512.Idx) : ∃ t : Fin cfg1.N, (cfg1.win 4).flush t = true ∧ i ∈ ((cfg1.win 4).blk t).view.set := by
  have hi0 : (i 0).val < 4 := (i 0).isLt
  have hi1 : (i 1).val < 1024 := (i 1).isLt
  have hi2 : (i 2).val < 512 := (i 2).isLt
  obtain ⟨t, q0, q1⟩ := idx_onto ⟨(i 0).val, hi0⟩ ⟨(i 1).val / 512, by omega⟩
  obtain ⟨-, -, -, -, -, -, -, -, -, -, e0, e1, e2, -⟩ := idx_facts t
  refine ⟨t, flush1_4 t, ?_⟩
  rw [mem_blkK]
  intro a
  match a with
  | ⟨0, _⟩ => show win1_4.index t (0 : Fin 3) * 1 ≤ (i 0).val ∧ (i 0).val < win1_4.index t (0 : Fin 3) * 1 + 1; rw [e0, q0]; show (i 0).val * 1 ≤ (i 0).val ∧ (i 0).val < (i 0).val * 1 + 1; omega
  | ⟨1, _⟩ => show win1_4.index t (1 : Fin 3) * 512 ≤ (i 1).val ∧ (i 1).val < win1_4.index t (1 : Fin 3) * 512 + 512; rw [e1, q1]; show (i 1).val / 512 * 512 ≤ (i 1).val ∧ (i 1).val < (i 1).val / 512 * 512 + 512; omega
  | ⟨2, _⟩ => show win1_4.index t (2 : Fin 3) * 512 ≤ (i 2).val ∧ (i 2).val < win1_4.index t (2 : Fin 3) * 512 + 512; rw [e2]; omega

/-- After the region the key array is the key part everywhere: every point writes its block of it, and the blocks cover. -/
private theorem finalK (c : Dev nD) : (dat1 (F := Ideal) V c).arrAt 4 cfg1.N = G V c 1 :=
  (dat1 (F := Ideal) V c).arrAt_eq_of_cover 4 (G V c 1) (fun t _ => flushedK V c t) coverK

/-! ## The value array -/

/-- What grid point t writes back to the value array is block t of the value part: the one whole-block store of the
    payload over the whole-block loads of the three input blocks. -/
private theorem flushedV (c : Dev nD) (t : Fin cfg1.N) :
    (dat1 (F := Ideal) V c).flushed 5 t = ((cfg1.win 5).blk t).view.read (Elt Ideal) (G V c 2) := by
  show (cfg1.win 5).cut (grid1.coords t) ((dat1 V c).after 5 t) = _
  rw [after1_5]
  unfold out1_5
  rw [View.canon_unit_zero hz3]
  simp only [View.ld_unit_zero (S := S1x512x1536) hz3, View.ld_unit_zero (S := S1x1536) hz2]
  obtain ⟨-, -, -, -, -, -, -, -, -, -, -, -, -, e0, e1, e2⟩ := idx_facts t
  funext j
  obtain ⟨u, p, e, rfl⟩ : ∃ (u : Fin 1) (p : Fin 512) (e : Fin 512), j = ix3 u p e := ⟨j 0, j 1, j 2, eq_ix3 j⟩
  show k1_pay1 (F := Ideal) (k1_pay3 (iblk1 V c 0 t) (iblk1 V c 1 t) (iblk1 V c 2 t)) (Scalar.ofBits .f32 0x00000000#32) (Scalar.ofBits .f32 0x40800000#32) (ix3 u p e)
    = G V c 2 (((cfg1.win 5).blk t).view.emb (ix3 u p e))
  refine (payV_apply _ _ _ u p e).trans ?_
  unfold G
  have hu : u.val = 0 := by omega
  refine tileCell_iblk V c t 2 p e _ _ _ ?_ ?_ ?_
  · show win1_5.index t (0 : Fin 3) * 1 + 1 * u.val = win1_0.index t (0 : Fin 3); rw [e0, hu]; omega
  · show win1_5.index t (1 : Fin 3) * 512 + 1 * p.val = win1_0.index t (1 : Fin 3) * 512 + p.val; rw [e1]; omega
  · show win1_5.index t (2 : Fin 3) * 512 + 1 * e.val = e.val; rw [e2]; omega

/-- An index of the value array is in point t's block iff each coordinate is in the block's range on its axis. -/
private theorem mem_blkV (t : Fin cfg1.N) (i : S4x1024x512.Idx) :
    i ∈ ((cfg1.win 5).blk t).view.set ↔ ∀ a : Fin 3, win1_5.index t a * S1x512x512.size a ≤ (i a).val ∧ (i a).val < win1_5.index t a * S1x512x512.size a + S1x512x512.size a := by
  show i ∈ ((View.whole main_v14_2).slice (win1_5.rect t)).set ↔ _
  rw [View.set_slice_whole, Rect.mem_set_unit]
  exact Iff.rfl

/-- The blocks tile the value array: (b, n, e) lies in the block of the point at batch b, row-tile n / 512. -/
private theorem coverV (i : S4x1024x512.Idx) : ∃ t : Fin cfg1.N, (cfg1.win 5).flush t = true ∧ i ∈ ((cfg1.win 5).blk t).view.set := by
  have hi0 : (i 0).val < 4 := (i 0).isLt
  have hi1 : (i 1).val < 1024 := (i 1).isLt
  have hi2 : (i 2).val < 512 := (i 2).isLt
  obtain ⟨t, q0, q1⟩ := idx_onto ⟨(i 0).val, hi0⟩ ⟨(i 1).val / 512, by omega⟩
  obtain ⟨-, -, -, -, -, -, -, -, -, -, -, -, -, e0, e1, e2⟩ := idx_facts t
  refine ⟨t, flush1_5 t, ?_⟩
  rw [mem_blkV]
  intro a
  match a with
  | ⟨0, _⟩ => show win1_5.index t (0 : Fin 3) * 1 ≤ (i 0).val ∧ (i 0).val < win1_5.index t (0 : Fin 3) * 1 + 1; rw [e0, q0]; show (i 0).val * 1 ≤ (i 0).val ∧ (i 0).val < (i 0).val * 1 + 1; omega
  | ⟨1, _⟩ => show win1_5.index t (1 : Fin 3) * 512 ≤ (i 1).val ∧ (i 1).val < win1_5.index t (1 : Fin 3) * 512 + 512; rw [e1, q1]; show (i 1).val / 512 * 512 ≤ (i 1).val ∧ (i 1).val < (i 1).val / 512 * 512 + 512; omega
  | ⟨2, _⟩ => show win1_5.index t (2 : Fin 3) * 512 ≤ (i 2).val ∧ (i 2).val < win1_5.index t (2 : Fin 3) * 512 + 512; rw [e2]; omega

/-- After the region the value array is the value part everywhere: every point writes its block of it, and the blocks cover. -/
private theorem finalV (c : Dev nD) : (dat1 (F := Ideal) V c).arrAt 5 cfg1.N = G V c 2 :=
  (dat1 (F := Ideal) V c).arrAt_eq_of_cover 5 (G V c 2) (fun t _ => flushedV V c t) coverV

/-- After region 1 its three output arrays hold the query, key and value parts. -/
theorem valueQ (c : Dev nD) (b : Fin 4) (n : Fin 1024) (e : Fin 512) :
    (dat1 (F := Ideal) V c).arrAt 3 cfg1.N (ix3 b n e) = cell V c 0 b n e :=
  congrFun (finalQ V c) (ix3 b n e)
theorem valueK (c : Dev nD) (b : Fin 4) (n : Fin 1024) (e : Fin 512) :
    (dat1 (F := Ideal) V c).arrAt 4 cfg1.N (ix3 b n e) = cell V c 1 b n e :=
  congrFun (finalK V c) (ix3 b n e)
theorem valueV (c : Dev nD) (b : Fin 4) (n : Fin 1024) (e : Fin 512) :
    (dat1 (F := Ideal) V c).arrAt 5 cfg1.N (ix3 b n e) = cell V c 2 b n e :=
  congrFun (finalV V c) (ix3 b n e)

end Cert.KernelIdeal.Reg1

end
-- ==== Proof.KReg2.lean ====
import proofs.«145565_j53025666236638_1_alg».proof.Proof.Gen.KernelIdeal.Frame
import proofs.«145565_j53025666236638_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The head-major query, key and value arrays region 2 reads. -/
abbrev qH (c : Dev nD) : Vec Ideal S4x8x1024x64 .bf16 := V c (Pipeline.arrRef spec2 0)
abbrev kH (c : Dev nD) : Vec Ideal S4x8x1024x64 .bf16 := V c (Pipeline.arrRef spec2 1)
abbrev vH (c : Dev nD) : Vec Ideal S4x8x1024x64 .bf16 := V c (Pipeline.arrRef spec2 2)

/-! ## The two products read at an index -/

/-- On the query's row axis the score's left index is the output row. -/
theorem scores_lhs_0 (j : S1024x1024.Idx) (k : dot_S1024x64_S1024x64_S1024x1024_1_1_0_0_n_n.contr.Idx) :
    (dot_S1024x64_S1024x64_S1024x1024_1_1_0_0_n_n.lhsIdx j k 0).val = (j 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
/-- On the query's lane axis it is the contracted lane. -/
theorem scores_lhs_1 (j : S1024x1024.Idx) (k : dot_S1024x64_S1024x64_S1024x1024_1_1_0_0_n_n.contr.Idx) :
    (dot_S1024x64_S1024x64_S1024x1024_1_1_0_0_n_n.lhsIdx j k 1).val = (k ⟨0, by decide⟩).val :=
  dot_S1024x64_S1024x64_S1024x1024_1_1_0_0_n_n.lhsIdx_val_of_single rfl j k
/-- On the key's row axis the score's right index is the output column. -/
theorem scores_rhs_0 (j : S1024x1024.Idx) (k : dot_S1024x64_S1024x64_S1024x1024_1_1_0_0_n_n.contr.Idx) :
    (dot_S1024x64_S1024x64_S1024x1024_1_1_0_0_n_n.rhsIdx j k 0).val = (j 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
/-- On the key's lane axis it is the contracted lane. -/
theorem scores_rhs_1 (j : S1024x1024.Idx) (k : dot_S1024x64_S1024x64_S1024x1024_1_1_0_0_n_n.contr.Idx) :
    (dot_S1024x64_S1024x64_S1024x1024_1_1_0_0_n_n.rhsIdx j k 1).val = (k ⟨0, by decide⟩).val :=
  dot_S1024x64_S1024x64_S1024x1024_1_1_0_0_n_n.rhsIdx_val_of_single rfl j k

/-- The scores' product: rows of the query against rows of the key, contracted over the 64 lanes. -/
theorem scores_apply (q k : FVec Ideal S1024x64 .bf16) (n m : Fin 1024) :
    matmul dot_S1024x64_S1024x64_S1024x1024_1_1_0_0_n_n none q k (constant (F := Ideal) S1024x1024 .f32 0x00000000#32) (ix2 n m)
      = ∑ e' : Fin 64, q (ix2 n e') * k (ix2 m e') := by
  show FloatOps.matmul _ none q k _ (ix2 n m) = _
  rw [Ideal.matmul_constant_zero_apply,
    ← Equiv.sum_comp (contrEquiv1 dot_S1024x64_S1024x64_S1024x1024_1_1_0_0_n_n 64 rfl rfl).symm]
  refine Finset.sum_congr rfl fun c _ => ?_
  have hc := contrEquiv1_symm_val dot_S1024x64_S1024x64_S1024x1024_1_1_0_0_n_n 64 rfl rfl c
  have hl : dot_S1024x64_S1024x64_S1024x1024_1_1_0_0_n_n.lhsIdx (ix2 n m)
      ((contrEquiv1 dot_S1024x64_S1024x64_S1024x1024_1_1_0_0_n_n 64 rfl rfl).symm c) = ix2 n c := by
    funext a; apply Fin.ext
    match a with
    | ⟨0, _⟩ => exact scores_lhs_0 _ _
    | ⟨1, _⟩ => exact (scores_lhs_1 _ _).trans hc
  have hr : dot_S1024x64_S1024x64_S1024x1024_1_1_0_0_n_n.rhsIdx (ix2 n m)
      ((contrEquiv1 dot_S1024x64_S1024x64_S1024x1024_1_1_0_0_n_n 64 rfl rfl).symm c) = ix2 m c := by
    funext a; apply Fin.ext
    match a with
    | ⟨0, _⟩ => exact scores_rhs_0 _ _
    | ⟨1, _⟩ => exact (scores_rhs_1 _ _).trans hc
  rw [hl, hr]

/-- On the spiked scores' row axis the weighted sum's left index is the output row. -/
theorem wsum_lhs_0 (j : S1024x64.Idx) (k : dot_S1024x1024_S1024x64_S1024x64_1_0_0_1_n_n.contr.Idx) :
    (dot_S1024x1024_S1024x64_S1024x64_1_0_0_1_n_n.lhsIdx j k 0).val = (j 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- On the spiked scores' column axis it is the contracted key position. -/
theorem wsum_lhs_1 (j : S1024x64.Idx) (k : dot_S1024x1024_S1024x64_S1024x64_1_0_0_1_n_n.contr.Idx) :
    (dot_S1024x1024_S1024x64_S1024x64_1_0_0_1_n_n.lhsIdx j k 1).val = (k ⟨0, by decide⟩).val :=
  dot_S1024x1024_S1024x64_S1024x64_1_0_0_1_n_n.lhsIdx_val_of_single rfl j k
/-- On the value's row axis the right index is the contracted key position. -/
theorem wsum_rhs_0 (j : S1024x64.Idx) (k : dot_S1024x1024_S1024x64_S1024x64_1_0_0_1_n_n.contr.Idx) :
    (dot_S1024x1024_S1024x64_S1024x64_1_0_0_1_n_n.rhsIdx j k 0).val = (k ⟨0, by decide⟩).val :=
  dot_S1024x1024_S1024x64_S1024x64_1_0_0_1_n_n.rhsIdx_val_of_single rfl j k
/-- On the value's lane axis it is the output lane. -/
theorem wsum_rhs_1 (j : S1024x64.Idx) (k : dot_S1024x1024_S1024x64_S1024x64_1_0_0_1_n_n.contr.Idx) :
    (dot_S1024x1024_S1024x64_S1024x64_1_0_0_1_n_n.rhsIdx j k 1).val = (j 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The weighted sum: a row of spiked scores against a column of the value, contracted over the 1024 key positions. -/
theorem wsum_apply (p : FVec Ideal S1024x1024 .bf16) (v : FVec Ideal S1024x64 .bf16) (n : Fin 1024) (e : Fin 64) :
    matmul dot_S1024x1024_S1024x64_S1024x64_1_0_0_1_n_n none p v (constant (F := Ideal) S1024x64 .f32 0x00000000#32) (ix2 n e)
      = ∑ m : Fin 1024, p (ix2 n m) * v (ix2 m e) := by
  show FloatOps.matmul _ none p v _ (ix2 n e) = _
  rw [Ideal.matmul_constant_zero_apply,
    ← Equiv.sum_comp (contrEquiv1 dot_S1024x1024_S1024x64_S1024x64_1_0_0_1_n_n 1024 rfl rfl).symm]
  refine Finset.sum_congr rfl fun c _ => ?_
  have hc := contrEquiv1_symm_val dot_S1024x1024_S1024x64_S1024x64_1_0_0_1_n_n 1024 rfl rfl c
  have hl : dot_S1024x1024_S1024x64_S1024x64_1_0_0_1_n_n.lhsIdx (ix2 n e)
      ((contrEquiv1 dot_S1024x1024_S1024x64_S1024x64_1_0_0_1_n_n 1024 rfl rfl).symm c) = ix2 n c := by
    funext a; apply Fin.ext
    match a with
    | ⟨0, _⟩ => exact wsum_lhs_0 _ _
    | ⟨1, _⟩ => exact (wsum_lhs_1 _ _).trans hc
  have hr : dot_S1024x1024_S1024x64_S1024x64_1_0_0_1_n_n.rhsIdx (ix2 n e)
      ((contrEquiv1 dot_S1024x1024_S1024x64_S1024x64_1_0_0_1_n_n 1024 rfl rfl).symm c) = ix2 c e := by
    funext a; apply Fin.ext
    match a with
    | ⟨0, _⟩ => exact (wsum_rhs_0 _ _).trans hc
    | ⟨1, _⟩ => exact wsum_rhs_1 _ _
  rw [hl, hr]

/-! ## The unit axes of a block -/

/-- A [1,1,1024,64] block viewed as [1024,64] reads (0,0,n,e) at (n,e). -/
theorem drop2_apply {α : Type} (x : S1x1x1024x64.Idx → α) (n : Fin 1024) (e : Fin 64) :
    shapeCast S1024x64 x shapeCasts_S1x1x1024x64_S1024x64 (ix2 n e) = x (ix4 (0 : Fin 1) (0 : Fin 1) n e) := by
  refine shapeCast_apply x _ (ix2 n e) (ix4 (0 : Fin 1) (0 : Fin 1) n e) ?_
  rw [Shape.rowMajor_val_four, Shape.rowMajor_val_two]
  show ((0 * 1 + 0) * 1024 + n.val) * 64 + e.val = n.val * 64 + e.val
  omega

/-- A [1024,64] result stored as a [1,1,1024,64] block reads (n,e) at (a,b,n,e). -/
theorem add2_apply {α : Type} (y : S1024x64.Idx → α) (a b : Fin 1) (n : Fin 1024) (e : Fin 64) :
    shapeCast S1x1x1024x64 y shapeCasts_S1024x64_S1x1x1024x64 (ix4 a b n e) = y (ix2 n e) := by
  refine shapeCast_apply y _ (ix4 a b n e) (ix2 n e) ?_
  rw [Shape.rowMajor_val_four, Shape.rowMajor_val_two]
  show n.val * 64 + e.val = ((a.val * 1 + b.val) * 1024 + n.val) * 64 + e.val
  have := a.isLt; have := b.isLt
  omega

/-! ## The payload read at an index -/

/-- The kernel's spike read at an index: clip to [0, 4], add one half, round down. -/
theorem spike_apply {s : Shape} (x : FVec Ideal s .f32) (i : s.Idx) :
    floor (addf (minimumf (broadcast s (Scalar.ofBits (F := Ideal) .f32 0x40800000#32))
      (maximumf (broadcast s (Scalar.ofBits (F := Ideal) .f32 0x00000000#32)) x))
      (broadcast s (Scalar.ofBits (F := Ideal) .f32 0x3F000000#32))) i = Cert.Spec.spk (x i) := rfl

/-- THE PAYLOAD AT AN INDEX: the attention of one batch and head, from the three loaded blocks. -/
theorem pay_apply (x0 x1 x2 : Vec Ideal S1x1x1024x64 .bf16) (a b : Fin 1) (n : Fin 1024) (e : Fin 64) :
    k2_pay1 x0 x1 x2 (ix4 a b n e)
      = Cert.Spec.spk ((∑ m : Fin 1024, Cert.Spec.spk (∑ e' : Fin 64, x0 (ix4 (0 : Fin 1) (0 : Fin 1) n e') * x1 (ix4 (0 : Fin 1) (0 : Fin 1) m e'))
          * x2 (ix4 (0 : Fin 1) (0 : Fin 1) m e)) * Cert.Spec.eighth) := by
  unfold k2_pay1
  rw [add2_apply, truncf_apply, spike_apply, mulf_apply, broadcast_apply, wsum_apply]
  refine congrArg Cert.Spec.spk (congrArg (· * Cert.Spec.eighth) (Finset.sum_congr rfl fun m _ => ?_))
  rw [truncf_apply, spike_apply, scores_apply, drop2_apply]
  simp only [drop2_apply]

/-! ## From one grid point's block to the array -/

/-- The attention of every batch and head as ONE array: what region 2's output ends holding. -/
def attA (Q K W : S4x8x1024x64.Idx → EReal) : S4x8x1024x64.Idx → EReal := fun i =>
  Cert.Spec.attS (fun b h n e => Q (ix4 b h n e)) (fun b h n e => K (ix4 b h n e)) (fun b h n e => W (ix4 b h n e))
    (i 0) (i 1) (i 2) (i 3)

/-- One grid point's payload is the (b, h) block of that array, when its three loaded blocks are the (b, h) blocks of
    the query, key and value arrays. -/
theorem pay_block (x0 x1 x2 : Vec Ideal S1x1x1024x64 .bf16) (Q K W : S4x8x1024x64.Idx → EReal) (b : Fin 4) (h : Fin 8)
    (h0 : ∀ (n : Fin 1024) (e : Fin 64), x0 (ix4 (0 : Fin 1) (0 : Fin 1) n e) = Q (ix4 b h n e))
    (h1 : ∀ (n : Fin 1024) (e : Fin 64), x1 (ix4 (0 : Fin 1) (0 : Fin 1) n e) = K (ix4 b h n e))
    (h2 : ∀ (n : Fin 1024) (e : Fin 64), x2 (ix4 (0 : Fin 1) (0 : Fin 1) n e) = W (ix4 b h n e))
    (a a' : Fin 1) (n : Fin 1024) (e : Fin 64) :
    k2_pay1 x0 x1 x2 (ix4 a a' n e) = attA Q K W (ix4 b h n e) := by
  rw [pay_apply]
  show _ = Cert.Spec.attS _ _ _ b h n e
  unfold Cert.Spec.attS
  simp only [h0, h1, h2]

theorem hz : (![0, 0, 0, 0] : Fin 4 → Nat) = fun _ => 0 := funext fun a => by fin_cases a <;> rfl

/-- The printed index maps, decided over the grid: every window's block sits at (batch, head, 0, 0), the same batch
    and head for the four windows, inside the array. -/
theorem idx_facts : ∀ t : Fin cfg2.N,
    (win2_0.index t (0 : Fin 4) = win2_3.index t (0 : Fin 4) ∧ win2_0.index t (1 : Fin 4) = win2_3.index t (1 : Fin 4)
      ∧ win2_0.index t (2 : Fin 4) = 0 ∧ win2_0.index t (3 : Fin 4) = 0)
    ∧ (win2_1.index t (0 : Fin 4) = win2_3.index t (0 : Fin 4) ∧ win2_1.index t (1 : Fin 4) = win2_3.index t (1 : Fin 4)
      ∧ win2_1.index t (2 : Fin 4) = 0 ∧ win2_1.index t (3 : Fin 4) = 0)
    ∧ (win2_2.index t (0 : Fin 4) = win2_3.index t (0 : Fin 4) ∧ win2_2.index t (1 : Fin 4) = win2_3.index t (1 : Fin 4)
      ∧ win2_2.index t (2 : Fin 4) = 0 ∧ win2_2.index t (3 : Fin 4) = 0)
    ∧ win2_3.index t (0 : Fin 4) < 4 ∧ win2_3.index t (1 : Fin 4) < 8
      ∧ win2_3.index t (2 : Fin 4) = 0 ∧ win2_3.index t (3 : Fin 4) = 0 :=
  (by decide +kernel : ∀ t : Fin grid2.N, _)

/-- WHAT POINT t WRITES BACK is block t of the attention array of the query, key and value arrays as the region finds them. -/
theorem flushed_eq (c : Dev nD) (t : Fin cfg2.N) :
    (dat2 (F := Ideal) V c).flushed 3 t
      = ((cfg2.win 3).blk t).view.read (Elt Ideal) (attA (qH V c) (kH V c) (vH V c)) := by
  show (cfg2.win 3).cut (grid2.coords t) ((dat2 V c).after 3 t) = _
  rw [after2_3]
  unfold out2_3
  rw [View.canon_unit_zero hz]
  simp only [View.ld_unit_zero (S := S1x1x1024x64) hz]
  obtain ⟨⟨p0, p1, p2, p3⟩, ⟨q0, q1, q2, q3⟩, ⟨r0, r1, r2, r3⟩, o0, o1, o2, o3⟩ := idx_facts t
  show (k2_pay1 (iblk2 V c 0 t) (iblk2 V c 1 t) (iblk2 V c 2 t) : S1x1x1024x64.Idx → EReal)
    = fun j : S1x1x1024x64.Idx => attA (qH V c) (kH V c) (vH V c) (((cfg2.win 3).blk t).view.emb j)
  funext j
  obtain ⟨a, a', n, e, rfl⟩ : ∃ (a a' : Fin 1) (n : Fin 1024) (e : Fin 64), j = ix4 a a' n e :=
    ⟨j 0, j 1, j 2, j 3, eq_ix4 j⟩
  have ha : a.val = 0 := by have := a.isLt; omega
  have ha' : a'.val = 0 := by have := a'.isLt; omega
  refine (pay_block _ _ _ (qH V c) (kH V c) (vH V c) ⟨win2_3.index t 0, o0⟩ ⟨win2_3.index t 1, o1⟩ ?_ ?_ ?_ a a' n e).trans ?_
  · intro n e
    show qH V c (((cfg2.win 0).blk t).view.emb (ix4 (0 : Fin 1) (0 : Fin 1) n e)) = qH V c _
    refine congrArg (qH V c) (funext fun ax => Fin.ext ?_)
    match ax with
    | ⟨0, _⟩ => show win2_0.index t (0 : Fin 4) * 1 + 1 * 0 = win2_3.index t (0 : Fin 4); omega
    | ⟨1, _⟩ => show win2_0.index t (1 : Fin 4) * 1 + 1 * 0 = win2_3.index t (1 : Fin 4); omega
    | ⟨2, _⟩ => show win2_0.index t (2 : Fin 4) * 1024 + 1 * n.val = n.val; omega
    | ⟨3, _⟩ => show win2_0.index t (3 : Fin 4) * 64 + 1 * e.val = e.val; omega
  · intro n e
    show kH V c (((cfg2.win 1).blk t).view.emb (ix4 (0 : Fin 1) (0 : Fin 1) n e)) = kH V c _
    refine congrArg (kH V c) (funext fun ax => Fin.ext ?_)
    match ax with
    | ⟨0, _⟩ => show win2_1.index t (0 : Fin 4) * 1 + 1 * 0 = win2_3.index t (0 : Fin 4); omega
    | ⟨1, _⟩ => show win2_1.index t (1 : Fin 4) * 1 + 1 * 0 = win2_3.index t (1 : Fin 4); omega
    | ⟨2, _⟩ => show win2_1.index t (2 : Fin 4) * 1024 + 1 * n.val = n.val; omega
    | ⟨3, _⟩ => show win2_1.index t (3 : Fin 4) * 64 + 1 * e.val = e.val; omega
  · intro n e
    show vH V c (((cfg2.win 2).blk t).view.emb (ix4 (0 : Fin 1) (0 : Fin 1) n e)) = vH V c _
    refine congrArg (vH V c) (funext fun ax => Fin.ext ?_)
    match ax with
    | ⟨0, _⟩ => show win2_2.index t (0 : Fin 4) * 1 + 1 * 0 = win2_3.index t (0 : Fin 4); omega
    | ⟨1, _⟩ => show win2_2.index t (1 : Fin 4) * 1 + 1 * 0 = win2_3.index t (1 : Fin 4); omega
    | ⟨2, _⟩ => show win2_2.index t (2 : Fin 4) * 1024 + 1 * n.val = n.val; omega
    | ⟨3, _⟩ => show win2_2.index t (3 : Fin 4) * 64 + 1 * e.val = e.val; omega
  · refine congrArg (attA (qH V c) (kH V c) (vH V c)) (funext fun ax => Fin.ext ?_)
    match ax with
    | ⟨0, _⟩ => show win2_3.index t (0 : Fin 4) = win2_3.index t (0 : Fin 4) * 1 + 1 * a.val; omega
    | ⟨1, _⟩ => show win2_3.index t (1 : Fin 4) = win2_3.index t (1 : Fin 4) * 1 + 1 * a'.val; omega
    | ⟨2, _⟩ => show n.val = win2_3.index t (2 : Fin 4) * 1024 + 1 * n.val; omega
    | ⟨3, _⟩ => show e.val = win2_3.index t (3 : Fin 4) * 64 + 1 * e.val; omega

/-! ## The blocks cover the array -/

/-- Every (batch, head) is SOME point's block. -/
theorem idx_onto : ∀ (q0 : Fin 4) (q1 : Fin 8), ∃ t : Fin cfg2.N, win2_3.index t = ![q0.val, q1.val, 0, 0] :=
  (by decide +kernel : ∀ (q0 : Fin 4) (q1 : Fin 8), ∃ t : Fin grid2.N, win2_3.index t = ![q0.val, q1.val, 0, 0])

/-- An index of the array is in point t's block iff each coordinate is in the block's range on its axis. -/
theorem mem_blk (t : Fin cfg2.N) (i : S4x8x1024x64.Idx) :
    i ∈ ((cfg2.win 3).blk t).view.set ↔ ∀ a : Fin 4, win2_3.index t a * S1x1x1024x64.size a ≤ (i a).val
      ∧ (i a).val < win2_3.index t a * S1x1x1024x64.size a + S1x1x1024x64.size a := by
  show i ∈ ((View.whole main_v21).slice (win2_3.rect t)).set ↔ _
  rw [View.set_slice_whole, Rect.mem_set_unit]
  exact Iff.rfl

/-- THE COVER: index (b, h, n, e) lies in the block of the point whose batch is b and whose head is h. -/
theorem cover (i : S4x8x1024x64.Idx) :
    ∃ t : Fin cfg2.N, (cfg2.win 3).flush t = true ∧ i ∈ ((cfg2.win 3).blk t).view.set := by
  have hi0 : (i 0).val < 4 := (i 0).isLt
  have hi1 : (i 1).val < 8 := (i 1).isLt
  have hi2 : (i 2).val < 1024 := (i 2).isLt
  have hi3 : (i 3).val < 64 := (i 3).isLt
  obtain ⟨t, ht⟩ := idx_onto ⟨(i 0).val, hi0⟩ ⟨(i 1).val, hi1⟩
  have e0 : win2_3.index t (0 : Fin 4) = (i 0).val := congrFun ht 0
  have e1 : win2_3.index t (1 : Fin 4) = (i 1).val := congrFun ht 1
  have e2 : win2_3.index t (2 : Fin 4) = 0 := congrFun ht 2
  have e3 : win2_3.index t (3 : Fin 4) = 0 := congrFun ht 3
  refine ⟨t, flush2_3 t, ?_⟩
  rw [mem_blk]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 1 ≤ (i 1).val ∧ (i 1).val < win2_3.index t (1 : Fin 4) * 1 + 1; omega
  | ⟨2, _⟩ => show win2_3.index t (2 : Fin 4) * 1024 ≤ (i 2).val ∧ (i 2).val < win2_3.index t (2 : Fin 4) * 1024 + 1024; omega
  | ⟨3, _⟩ => show win2_3.index t (3 : Fin 4) * 64 ≤ (i 3).val ∧ (i 3).val < win2_3.index t (3 : Fin 4) * 64 + 64; omega

/-- THE ARRAY after region 2: the attention array of the query, key and value arrays the region found. -/
theorem final (c : Dev nD) : (dat2 (F := Ideal) V c).arrAt 3 cfg2.N = attA (qH V c) (kH V c) (vH V c) :=
  (dat2 (F := Ideal) V c).arrAt_eq_of_cover 3 (attA (qH V c) (kH V c) (vH V c)) (fun t _ => flushed_eq V c t) cover

/-- After region 2 its output array holds the attention of each batch and head. -/
theorem value (c : Dev nD) (b : Fin 4) (h : Fin 8) (n : Fin 1024) (e : Fin 64) :
    (dat2 (F := Ideal) V c).arrAt 3 cfg2.N (ix4 b h n e)
      = Cert.Spec.attS (fun b h n e => qH V c (ix4 b h n e)) (fun b h n e => kH V c (ix4 b h n e))
          (fun b h n e => vH V c (ix4 b h n e)) b h n e :=
  congrFun (final V c) (ix4 b h n e)

end Cert.KernelIdeal.Reg2

end
-- ==== Proof.KReg3.lean ====
import proofs.«145565_j53025666236638_1_alg».proof.Proof.Gen.KernelIdeal.Frame
import proofs.«145565_j53025666236638_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The arrays region 3 reads: the merged heads, the (narrowed) projection weights, the bias as a 1 × 512 row. -/
abbrev oArr (c : Dev nD) : Vec Ideal S4x1024x512 .bf16 := V c (Pipeline.arrRef spec3 0)
abbrev wArr (c : Dev nD) : Vec Ideal S512x512 .bf16 := V c (Pipeline.arrRef spec3 1)
abbrev bArr (c : Dev nD) : Vec Ideal S1x512 .f32 := V c (Pipeline.arrRef spec3 2)

/-! ## The projection's contraction: operand indices on each axis -/

/-- The left operand's row is the output's row. -/
private theorem lhs_proj_0 (j : S1024x512.Idx) (k : dot_S1024x512_S512x512_S1024x512_1_1_0_0_n_n.contr.Idx) :
    (dot_S1024x512_S512x512_S1024x512_1_1_0_0_n_n.lhsIdx j k 0).val = (j 0).val := by
  simp [DotDims.lhsIdx, dot_S1024x512_S512x512_S1024x512_1_1_0_0_n_n]; rfl

/-- The left operand's column is the contracted coordinate. -/
private theorem lhs_proj_1 (j : S1024x512.Idx) (k : dot_S1024x512_S512x512_S1024x512_1_1_0_0_n_n.contr.Idx) :
    (dot_S1024x512_S512x512_S1024x512_1_1_0_0_n_n.lhsIdx j k 1).val = (k ⟨0, by decide⟩).val :=
  dot_S1024x512_S512x512_S1024x512_1_1_0_0_n_n.lhsIdx_val_of_single (cl := 1) rfl j k

/-- The right operand's row is the output's column. -/
private theorem rhs_proj_0 (j : S1024x512.Idx) (k : dot_S1024x512_S512x512_S1024x512_1_1_0_0_n_n.contr.Idx) :
    (dot_S1024x512_S512x512_S1024x512_1_1_0_0_n_n.rhsIdx j k 0).val = (j 1).val := by
  simp [DotDims.rhsIdx, dot_S1024x512_S512x512_S1024x512_1_1_0_0_n_n]; rfl

/-- The right operand's column is the contracted coordinate. -/
private theorem rhs_proj_1 (j : S1024x512.Idx) (k : dot_S1024x512_S512x512_S1024x512_1_1_0_0_n_n.contr.Idx) :
    (dot_S1024x512_S512x512_S1024x512_1_1_0_0_n_n.rhsIdx j k 1).val = (k ⟨0, by decide⟩).val :=
  dot_S1024x512_S512x512_S1024x512_1_1_0_0_n_n.rhsIdx_val_of_single (cr := 1) rfl j k

/-- A block of rows against the transposed weights, into zeros, read at (n, d): the row's dot product with row d of the weights. -/
theorem proj_apply (A : FVec Ideal S1024x512 .bf16) (W : FVec Ideal S512x512 .bf16) (n : Fin 1024) (d : Fin 512) :
    matmul dot_S1024x512_S512x512_S1024x512_1_1_0_0_n_n none A W (constant S1024x512 .f32 0x00000000#32) (ix2 n d)
      = ∑ k : Fin 512, A (ix2 n k) * W (ix2 d k) := by
  show FloatOps.matmul _ none A W _ (ix2 n d) = _
  rw [Ideal.matmul_constant_zero_apply,
    ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have hl : dot_S1024x512_S512x512_S1024x512_1_1_0_0_n_n.lhsIdx (ix2 n d)
      ((contrEquiv1 dot_S1024x512_S512x512_S1024x512_1_1_0_0_n_n 512 rfl rfl).symm k) = ix2 n k := by
    funext a; apply Fin.ext
    match a with
    | ⟨0, _⟩ => exact lhs_proj_0 _ _
    | ⟨1, _⟩ => exact (lhs_proj_1 _ _).trans hk
  have hr : dot_S1024x512_S512x512_S1024x512_1_1_0_0_n_n.rhsIdx (ix2 n d)
      ((contrEquiv1 dot_S1024x512_S512x512_S1024x512_1_1_0_0_n_n 512 rfl rfl).symm k) = ix2 d k := by
    funext a; apply Fin.ext
    match a with
    | ⟨0, _⟩ => exact rhs_proj_0 _ _
    | ⟨1, _⟩ => exact (rhs_proj_1 _ _).trans hk
  rw [hl, hr]

/-! ## The payload at an index -/

/-- The body's payload at (0, n, d): row n of the block against row d of the weights, plus the bias at d. -/
theorem pay_apply (x0 : Vec Ideal S1x1024x512 .bf16) (x1 : Vec Ideal S512x512 .bf16) (x2 : Vec Ideal S1x512 .f32)
    (z : Fin 1) (n : Fin 1024) (d : Fin 512) :
    k3_pay1 x0 x1 x2 (ix3 z n d)
      = (∑ k : Fin 512, x0 (ix3 (0 : Fin 1) n k) * x1 (ix2 d k)) + x2 (ix2 (0 : Fin 1) d) := by
  unfold k3_pay1
  refine (shapeCast_apply _ _ (ix3 z n d) (ix2 n d) ?_).trans ?_
  · rw [Shape.rowMajor_val_two, Shape.rowMajor_val_three]
    have hz : z.val = 0 := by omega
    show n.val * 512 + d.val = (z.val * 1024 + n.val) * 512 + d.val
    rw [hz]; omega
  rw [addf_apply, shapeCast_self, shapeCast_self, proj_apply]
  congr 1
  · refine Finset.sum_congr rfl fun k _ => ?_
    congr 1
    refine shapeCast_apply _ _ (ix2 n k) (ix3 (0 : Fin 1) n k) ?_
    rw [Shape.rowMajor_val_two, Shape.rowMajor_val_three]
    show ((0 : Fin 1).val * 1024 + n.val) * 512 + k.val = n.val * 512 + k.val
    simp
  · refine broadcastTo_apply _ _ (ix2 n d) (ix2 (0 : Fin 1) d) fun a => ?_
    match a with
    | ⟨0, _⟩ => rfl
    | ⟨1, _⟩ => rfl

/-! ## From blocks to the array -/

theorem zero3 : (![0, 0, 0] : Fin 3 → Nat) = fun _ => 0 := funext fun a => by fin_cases a <;> rfl
theorem zero2 : (![0, 0] : Fin 2 → Nat) = fun _ => 0 := funext fun a => by fin_cases a <;> rfl

/-- The projection of the merged heads plus the bias, as one function of the output array's index. -/
def projFn (c : Dev nD) : S4x1024x512.Idx → EReal := fun i =>
  (∑ k : Fin 512, oArr V c (ix3 (i 0 : Fin 4) (i 1 : Fin 1024) k) * wArr V c (ix2 (i 2 : Fin 512) k))
    + bArr V c (ix2 (0 : Fin 1) (i 2 : Fin 512))

/-- The payload at a block index in one piece. -/
theorem pay_at (x0 : Vec Ideal S1x1024x512 .bf16) (x1 : Vec Ideal S512x512 .bf16) (x2 : Vec Ideal S1x512 .f32)
    (j : S1x1024x512.Idx) :
    k3_pay1 x0 x1 x2 j
      = (∑ k : Fin 512, x0 (ix3 (0 : Fin 1) (j 1 : Fin 1024) k) * x1 (ix2 (j 2 : Fin 512) k))
        + x2 (ix2 (0 : Fin 1) (j 2 : Fin 512)) := by
  obtain ⟨z, n, d, rfl⟩ : ∃ (z : Fin 1) (n : Fin 1024) (d : Fin 512), j = ix3 z n d := ⟨j 0, j 1, j 2, eq_ix3 j⟩
  exact pay_apply x0 x1 x2 z n d

/-- The printed index maps, decided over the grid: the heads' and the output's blocks move with the batch, the weights
    and the bias stay whole. -/
theorem idx_facts : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0 :=
  (by decide +kernel : ∀ t : Fin grid3.N, _)

/-- The heads' block at point t is batch t of the array. -/
theorem oblk_apply (c : Dev nD) (t : Fin cfg3.N) (x : S1x1024x512.Idx) (i : S4x1024x512.Idx)
    (h0 : (i 0).val = t.val) (h1 : (i 1).val = (x 1).val) (h2 : (i 2).val = (x 2).val) :
    (iblk3 V c 0 t : Vec Ideal S1x1024x512 .bf16) x = oArr V c i := by
  obtain ⟨e0, e1, e2, -⟩ := idx_facts t
  unfold iblk3
  rw [View.read_apply]
  show V c (Pipeline.arrRef spec3 0) _ = V c (Pipeline.arrRef spec3 0) i
  congr 1
  funext a
  apply Fin.ext
  have hx : (x 0).val < 1 := (x 0).isLt
  match a with
  | ⟨0, _⟩ => show win3_0.index t (0 : Fin 3) * 1 + 1 * (x 0).val = (i 0).val; omega
  | ⟨1, _⟩ => show win3_0.index t (1 : Fin 3) * 1024 + 1 * (x 1).val = (i 1).val; omega
  | ⟨2, _⟩ => show win3_0.index t (2 : Fin 3) * 512 + 1 * (x 2).val = (i 2).val; omega

/-- The weights' block at every point is the whole array. -/
theorem wblk_apply (c : Dev nD) (t : Fin cfg3.N) (x : S512x512.Idx) :
    (iblk3 V c 1 t : Vec Ideal S512x512 .bf16) x = wArr V c x := by
  obtain ⟨-, -, -, e0, e1, -⟩ := idx_facts t
  unfold iblk3
  rw [View.read_apply]
  show V c (Pipeline.arrRef spec3 1) _ = V c (Pipeline.arrRef spec3 1) x
  congr 1
  funext a
  apply Fin.ext
  match a with
  | ⟨0, _⟩ => show win3_1.index t (0 : Fin 2) * 512 + 1 * (x 0).val = (x 0).val; omega
  | ⟨1, _⟩ => show win3_1.index t (1 : Fin 2) * 512 + 1 * (x 1).val = (x 1).val; omega

/-- The bias's block at every point is the whole row. -/
theorem bblk_apply (c : Dev nD) (t : Fin cfg3.N) (x : S1x512.Idx) :
    (iblk3 V c 2 t : Vec Ideal S1x512 .f32) x = bArr V c x := by
  obtain ⟨-, -, -, -, -, e0, e1, -⟩ := idx_facts t
  unfold iblk3
  rw [View.read_apply]
  show V c (Pipeline.arrRef spec3 2) _ = V c (Pipeline.arrRef spec3 2) x
  congr 1
  funext a
  apply Fin.ext
  match a with
  | ⟨0, _⟩ => show win3_2.index t (0 : Fin 2) * 1 + 1 * (x 0).val = (x 0).val; omega
  | ⟨1, _⟩ => show win3_2.index t (1 : Fin 2) * 512 + 1 * (x 1).val = (x 1).val; omega

/-- What point t writes back is block t of the projection. -/
theorem flushed_eq (c : Dev nD) (t : Fin cfg3.N) :
    (dat3 (F := Ideal) V c).flushed 3 t = ((cfg3.win 3).blk t).view.read (Elt Ideal) (projFn V c) := by
  show (cfg3.win 3).cut (grid3.coords t) ((dat3 (F := Ideal) V c).after 3 t) = _
  rw [after3_3]
  unfold out3_3
  rw [View.canon_unit_zero zero3]
  simp only [View.ld_unit_zero (S := S1x1024x512) zero3, View.ld_unit_zero (S := S512x512) zero2, View.ld_unit_zero (S := S1x512) zero2]
  obtain ⟨-, -, -, -, -, -, -, e0, e1, e2⟩ := idx_facts t
  funext j
  refine (pay_at (iblk3 V c 0 t) (iblk3 V c 1 t) (iblk3 V c 2 t) j).trans ?_
  rw [View.read_apply]
  show _ = projFn V c (((cfg3.win 3).blk t).view.emb j)
  unfold projFn
  have hj : (j 0).val < 1 := (j 0).isLt
  have c0 : ((((cfg3.win 3).blk t).view.emb j) 0).val = t.val := by
    show win3_3.index t (0 : Fin 3) * 1 + 1 * (j 0).val = t.val; omega
  have c1 : ((((cfg3.win 3).blk t).view.emb j) 1).val = (j 1).val := by
    show win3_3.index t (1 : Fin 3) * 1024 + 1 * (j 1).val = (j 1).val; omega
  have c2 : ((((cfg3.win 3).blk t).view.emb j) 2).val = (j 2).val := by
    show win3_3.index t (2 : Fin 3) * 512 + 1 * (j 2).val = (j 2).val; omega
  have hE2 : ((((cfg3.win 3).blk t).view.emb j) 2 : Fin 512) = (j 2 : Fin 512) := Fin.ext c2
  refine congrArg₂ (· + ·) (Finset.sum_congr rfl fun k _ => congrArg₂ (· * ·) ?_ ?_) ?_
  · exact oblk_apply V c t _ _ c0 c1 rfl
  · exact (wblk_apply V c t _).trans (congrArg (fun q : Fin 512 => wArr V c (ix2 q k)) hE2.symm)
  · exact (bblk_apply V c t _).trans (congrArg (fun q : Fin 512 => bArr V c (ix2 (0 : Fin 1) q)) hE2.symm)

/-- An index of the output array is in point t's block iff each coordinate is in the block's range on its axis. -/
theorem mem_blk (t : Fin cfg3.N) (i : S4x1024x512.Idx) :
    i ∈ ((cfg3.win 3).blk t).view.set ↔ ∀ a : Fin 3, win3_3.index t a * S1x1024x512.size a ≤ (i a).val
      ∧ (i a).val < win3_3.index t a * S1x1024x512.size a + S1x1024x512.size a := by
  show i ∈ ((View.whole main_v26).slice (win3_3.rect t)).set ↔ _
  rw [View.set_slice_whole, Rect.mem_set_unit]
  exact Iff.rfl

/-- Every index of the output array lies in the block of the point that is its batch coordinate. -/
theorem cover (i : S4x1024x512.Idx) :
    ∃ t : Fin cfg3.N, (cfg3.win 3).flush t = true ∧ i ∈ ((cfg3.win 3).blk t).view.set := by
  have hi0 : (i 0).val < 4 := (i 0).isLt
  have hi1 : (i 1).val < 1024 := (i 1).isLt
  have hi2 : (i 2).val < 512 := (i 2).isLt
  obtain ⟨t, ht⟩ : ∃ t : Fin cfg3.N, t.val = (i 0).val :=
    ⟨⟨(i 0).val, by rw [show cfg3.N = 4 from N_3]; exact hi0⟩, rfl⟩
  obtain ⟨-, -, -, -, -, -, -, e0, e1, e2⟩ := idx_facts t
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 1024 ≤ (i 1).val ∧ (i 1).val < win3_3.index t (1 : Fin 3) * 1024 + 1024; omega
  | ⟨2, _⟩ => show win3_3.index t (2 : Fin 3) * 512 ≤ (i 2).val ∧ (i 2).val < win3_3.index t (2 : Fin 3) * 512 + 512; omega

/-- The output array after the region: the projection everywhere. -/
theorem final (c : Dev nD) : (dat3 (F := Ideal) V c).arrAt 3 cfg3.N = projFn V c :=
  (dat3 (F := Ideal) V c).arrAt_eq_of_cover 3 (projFn V c) (fun t _ => flushed_eq V c t) cover

/-- After region 3 its output array holds the projection of the merged heads plus the bias. -/
theorem value (c : Dev nD) (b : Fin 4) (n : Fin 1024) (d : Fin 512) :
    (dat3 (F := Ideal) V c).arrAt 3 cfg3.N (ix3 b n d)
      = (∑ k : Fin 512, oArr V c (ix3 b n k) * wArr V c (ix2 d k)) + bArr V c (ix2 (0 : Fin 1) d) :=
  congrFun (final V c) (ix3 b n d)

end Cert.KernelIdeal.Reg3

end
-- ==== Proof.KHost.lean ====
/-
  What the host operations between the kernel's regions leave in the arrays the next region reads, index by index.

  Each stretch of host operations is a straight line: a buffer holds its operation's function of the operands' contents, and a
  buffer no operation of the stretch writes keeps its contents. The layout operations are read at an index: the reshape of a
  vector to a one-row matrix reads the vector; the split of 512 channels into 8 heads of 64 followed by the swap of the sequence
  and head axes reads (b, h, n, e) at (b, n, h·64 + e), and the inverse chain reads (b, n, c) at (b, c / 64, n, c % 64). The
  narrowing of a weight matrix is the identity over the extended reals. The statistics stretch is recognised as the named terms
  (sum, mean, variance, inverse deviation, scale, shift), which are not opened.
-/
import proofs.«145565_j53025666236638_1_alg».proof.Proof.Gen.KernelIdeal.Frame
import proofs.«145565_j53025666236638_1_alg».proof.Proof.Spec
import proofs.«145565_j53025666236638_1_alg».proof.Proof.KTerm
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! ## Layout chains read at an index -/

section Layout
variable {α : Type}

/-- The 512 channels split into 8 heads of 64, then the sequence and head axes swapped: at (b, h, n, e) the operand at
    (b, n, h·64 + e). Both positions are ((b·1024 + n)·8 + h)·64 + e in row-major order. -/
theorem splitHeads_at (x : S4x1024x512.Idx → α) (b : Fin 4) (h : Fin 8) (n : Fin 1024) (e : Fin 64) :
    transpose S4x8x1024x64 [0, 2, 1, 3] (shapeCast S4x1024x8x64 x shapeCasts_S4x1024x512_S4x1024x8x64)
        transposes_S4x1024x8x64_S4x8x1024x64_0_2_1_3 (ix4 b h n e)
      = x (ix3 b n (Cert.Spec.mergeHE h e)) := by
  refine (transpose_apply _ _ _ (ix4 b h n e) (ix4 b n h e) fun a =>
    match a with | ⟨0, _⟩ => rfl | ⟨1, _⟩ => rfl | ⟨2, _⟩ => rfl | ⟨3, _⟩ => rfl).trans ?_
  refine shapeCast_apply x _ (ix4 b n h e) (ix3 b n (Cert.Spec.mergeHE h e)) ?_
  rw [Shape.rowMajor_val_three, Shape.rowMajor_val_four]
  show (b.val * 1024 + n.val) * 512 + (h.val * 64 + e.val) = ((b.val * 1024 + n.val) * 8 + h.val) * 64 + e.val
  omega

/-- The head and sequence axes swapped back, then the 8 heads of 64 merged into 512 channels: at (b, n, c) the operand at
    (b, c / 64, n, c % 64). -/
theorem mergeHeads_at (x : S4x8x1024x64.Idx → α) (b : Fin 4) (n : Fin 1024) (k : Fin 512) :
    shapeCast S4x1024x512 (transpose S4x1024x8x64 [0, 2, 1, 3] x transposes_S4x8x1024x64_S4x1024x8x64_0_2_1_3)
        shapeCasts_S4x1024x8x64_S4x1024x512 (ix3 b n k)
      = x (ix4 b (Cert.Spec.headOf k) n (Cert.Spec.laneOf k)) := by
  refine (shapeCast_apply _ _ (ix3 b n k) (ix4 b n (Cert.Spec.headOf k) (Cert.Spec.laneOf k)) ?_).trans ?_
  · rw [Shape.rowMajor_val_four, Shape.rowMajor_val_three]
    show ((b.val * 1024 + n.val) * 8 + k.val / 64) * 64 + k.val % 64 = (b.val * 1024 + n.val) * 512 + k.val
    omega
  · exact transpose_apply _ x _ (ix4 b n (Cert.Spec.headOf k) (Cert.Spec.laneOf k)) (ix4 b (Cert.Spec.headOf k) n (Cert.Spec.laneOf k))
      fun a => match a with | ⟨0, _⟩ => rfl | ⟨1, _⟩ => rfl | ⟨2, _⟩ => rfl | ⟨3, _⟩ => rfl

end Layout

/-! ## The stretch before region 0: the qkv weights narrowed -/

/-- The input is as launched. -/
theorem x_entry (c : Dev nD) :
    W1 (F := Ideal) m ρ c (Proc.devRef .tc main_arg0) = m ((c.tc : Thread nD τ).loc main_arg0) := by
  show StableHlo.after hostOps0 (W0 m ρ c) (Proc.devRef .tc main_arg0) = _
  after_results

/-- The narrowed qkv weights are the weights as launched: narrowing is the identity over the extended reals. -/
theorem w_entry_at (c : Dev nD) (d : Fin 1536) (k : Fin 512) :
    (W1 (F := Ideal) m ρ c (Proc.devRef .tc main_v0) : S1536x512.Idx → EReal) (ix2 d k)
      = (m ((c.tc : Thread nD τ).loc main_arg1) : S1536x512.Idx → EReal) (ix2 d k) := by
  show (StableHlo.after hostOps0 (W0 m ρ c) (Proc.devRef .tc main_v0) : S1536x512.Idx → EReal) (ix2 d k) = _
  after_results
  rfl

/-- The scale and shift parameters at region 0's exit are as launched: region 0 writes neither, nor does the narrowing. -/
theorem gamma_exit0 (c : Dev nD) :
    W2 (F := Ideal) m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  after_results
theorem beta_exit0 (c : Dev nD) :
    W2 (F := Ideal) m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  after_results

/-! ## The statistics stretches between regions 0 and 1 -/

section Stats
variable (V : Valuation τ sig (Elt Ideal))

/-- No operation of the three stretches writes the qkv activations. -/
theorem stats_keep_q :
    StableHlo.after hostOps1_2 (StableHlo.after hostOps1_1 (StableHlo.after hostOps1 V)) (Proc.devRef .tc main_v1)
      = V (Proc.devRef .tc main_v1) := by
  after_results_simp

/-- The per-channel scale, as a one-row matrix: the named term γ·inv of the qkv activations, reshaped. -/
theorem stats_scale :
    (StableHlo.after hostOps1_2 (StableHlo.after hostOps1_1 (StableHlo.after hostOps1 V)) (Proc.devRef .tc main_v12) : S1x1536.Idx → EReal)
      = shapeCast S1x1536 (Term.scale (F := Ideal) (V (Proc.devRef .tc main_v1)) (V (Proc.devRef .tc main_arg2))) shapeCasts_S1536_S1x1536 := by
  after_results_simp
  simp only [StableHlo.TRef.ofBuf, StableHlo.TRef.toBuf, cast_eq]
  rfl

/-- The per-channel shift, as a one-row matrix: the named term β − μ·(γ·inv), reshaped. -/
theorem stats_shift :
    (StableHlo.after hostOps1_2 (StableHlo.after hostOps1_1 (StableHlo.after hostOps1 V)) (Proc.devRef .tc main_v13) : S1x1536.Idx → EReal)
      = shapeCast S1x1536 (Term.shift (F := Ideal) (V (Proc.devRef .tc main_v1)) (V (Proc.devRef .tc main_arg2)) (V (Proc.devRef .tc main_arg3)))
          shapeCasts_S1536_S1x1536 := by
  after_results_simp
  simp only [StableHlo.TRef.ofBuf, StableHlo.TRef.toBuf, cast_eq]
  rfl

end Stats

/-- Region 1 finds the qkv activations as region 0 left them. -/
theorem q_entry1 (c : Dev nD) :
    W5 (F := Ideal) m ρ c (Proc.devRef .tc main_v1) = W2 (F := Ideal) m ρ c (Proc.devRef .tc main_v1) :=
  stats_keep_q (W2 m ρ c)

/-- The scale row region 1 finds, at channel d: γ(d)·inv(d), inv the inverse deviation of the activations region 0 left. -/
theorem scale_entry1_at (c : Dev nD) (d : Fin 1536) :
    (W5 (F := Ideal) m ρ c (Proc.devRef .tc main_v12) : S1x1536.Idx → EReal) (ix2 (0 : Fin 1) d)
      = Term.scale (F := Ideal) (W2 (F := Ideal) m ρ c (Proc.devRef .tc main_v1)) (W2 (F := Ideal) m ρ c (Proc.devRef .tc main_arg2)) (ix1 d) :=
  (congrFun (stats_scale (W2 m ρ c)) (ix2 (0 : Fin 1) d)).trans (shapeCast_a_1a_apply _ _ 0 d)

/-- The shift row region 1 finds, at channel d. -/
theorem shift_entry1_at (c : Dev nD) (d : Fin 1536) :
    (W5 (F := Ideal) m ρ c (Proc.devRef .tc main_v13) : S1x1536.Idx → EReal) (ix2 (0 : Fin 1) d)
      = Term.shift (F := Ideal) (W2 (F := Ideal) m ρ c (Proc.devRef .tc main_v1)) (W2 (F := Ideal) m ρ c (Proc.devRef .tc main_arg2))
          (W2 (F := Ideal) m ρ c (Proc.devRef .tc main_arg3)) (ix1 d) :=
  (congrFun (stats_shift (W2 m ρ c)) (ix2 (0 : Fin 1) d)).trans (shapeCast_a_1a_apply _ _ 0 d)

/-! ## The stretch between regions 1 and 2: each part split into heads -/

theorem query_entry2_at (c : Dev nD) (b : Fin 4) (h : Fin 8) (n : Fin 1024) (e : Fin 64) :
    (W7 (F := Ideal) m ρ c (Proc.devRef .tc main_v16) : S4x8x1024x64.Idx → EReal) (ix4 b h n e)
      = (W6 (F := Ideal) m ρ c (Proc.devRef .tc main_v14_0) : S4x1024x512.Idx → EReal) (ix3 b n (Cert.Spec.mergeHE h e)) := by
  show (StableHlo.after hostOps2 (W6 m ρ c) (Proc.devRef .tc main_v16) : S4x8x1024x64.Idx → EReal) (ix4 b h n e) = _
  after_results
  exact splitHeads_at _ b h n e
theorem key_entry2_at (c : Dev nD) (b : Fin 4) (h : Fin 8) (n : Fin 1024) (e : Fin 64) :
    (W7 (F := Ideal) m ρ c (Proc.devRef .tc main_v18) : S4x8x1024x64.Idx → EReal) (ix4 b h n e)
      = (W6 (F := Ideal) m ρ c (Proc.devRef .tc main_v14_1) : S4x1024x512.Idx → EReal) (ix3 b n (Cert.Spec.mergeHE h e)) := by
  show (StableHlo.after hostOps2 (W6 m ρ c) (Proc.devRef .tc main_v18) : S4x8x1024x64.Idx → EReal) (ix4 b h n e) = _
  after_results
  exact splitHeads_at _ b h n e
theorem value_entry2_at (c : Dev nD) (b : Fin 4) (h : Fin 8) (n : Fin 1024) (e : Fin 64) :
    (W7 (F := Ideal) m ρ c (Proc.devRef .tc main_v20) : S4x8x1024x64.Idx → EReal) (ix4 b h n e)
      = (W6 (F := Ideal) m ρ c (Proc.devRef .tc main_v14_2) : S4x1024x512.Idx → EReal) (ix3 b n (Cert.Spec.mergeHE h e)) := by
  show (StableHlo.after hostOps2 (W6 m ρ c) (Proc.devRef .tc main_v20) : S4x8x1024x64.Idx → EReal) (ix4 b h n e) = _
  after_results
  exact splitHeads_at _ b h n e

/-! ## The stretch between regions 2 and 3: the heads merged, the projection weights narrowed, the bias as a row -/

theorem merged_entry3_at (c : Dev nD) (b : Fin 4) (n : Fin 1024) (k : Fin 512) :
    (W9 (F := Ideal) m ρ c (Proc.devRef .tc main_v23) : S4x1024x512.Idx → EReal) (ix3 b n k)
      = (W8 (F := Ideal) m ρ c (Proc.devRef .tc main_v21) : S4x8x1024x64.Idx → EReal) (ix4 b (Cert.Spec.headOf k) n (Cert.Spec.laneOf k)) := by
  show (StableHlo.after hostOps3 (W8 m ρ c) (Proc.devRef .tc main_v23) : S4x1024x512.Idx → EReal) (ix3 b n k) = _
  after_results
  exact mergeHeads_at _ b n k

/-- The projection weights and the bias at region 2's exit are as launched: the last stretch and the last region write neither,
    and they end as launched. -/
theorem wp_exit2 (c : Dev nD) :
    W8 (F := Ideal) m ρ c (Proc.devRef .tc main_arg4) = m ((c.tc : Thread nD τ).loc main_arg4) := by
  refine Eq.trans (Eq.symm ?_) ((W10_of_ne m ρ c main_arg4 (by decide)).symm.trans (W10_main_arg4 m ρ c))
  show StableHlo.after hostOps3 (W8 m ρ c) (Proc.devRef .tc main_arg4) = _
  after_results
theorem bp_exit2 (c : Dev nD) :
    W8 (F := Ideal) m ρ c (Proc.devRef .tc main_arg5) = m ((c.tc : Thread nD τ).loc main_arg5) := by
  refine Eq.trans (Eq.symm ?_) ((W10_of_ne m ρ c main_arg5 (by decide)).symm.trans (W10_main_arg5 m ρ c))
  show StableHlo.after hostOps3 (W8 m ρ c) (Proc.devRef .tc main_arg5) = _
  after_results

theorem wp_entry3_at (c : Dev nD) (d k : Fin 512) :
    (W9 (F := Ideal) m ρ c (Proc.devRef .tc main_v24) : S512x512.Idx → EReal) (ix2 d k)
      = (m ((c.tc : Thread nD τ).loc main_arg4) : S512x512.Idx → EReal) (ix2 d k) := by
  rw [← wp_exit2 m ρ c]
  show (StableHlo.after hostOps3 (W8 m ρ c) (Proc.devRef .tc main_v24) : S512x512.Idx → EReal) (ix2 d k) = _
  after_results
  rfl

theorem bp_entry3_at (c : Dev nD) (d : Fin 512) :
    (W9 (F := Ideal) m ρ c (Proc.devRef .tc main_v25) : S1x512.Idx → EReal) (ix2 (0 : Fin 1) d)
      = (m ((c.tc : Thread nD τ).loc main_arg5) : S512.Idx → EReal) (ix1 d) := by
  rw [← bp_exit2 m ρ c]
  show (StableHlo.after hostOps3 (W8 m ρ c) (Proc.devRef .tc main_v25) : S1x512.Idx → EReal) (ix2 (0 : Fin 1) d) = _
  after_results
  exact shapeCast_a_1a_apply _ _ 0 d

end Cert.KernelIdeal.HostRead

end
-- ==== Proof.KValue.lean ====
/-
  The whole kernel, index by index: the result buffer after the last region is the specification's output over the kernel's
  arrangement of the normalisation.

  From the result backwards: the last region leaves the projection of its merged-heads input plus the bias; its input is, through
  the head merge, the attention the third region left; that region's three inputs are, through the head split, the three parts
  the second region left: each the spike of the qkv activation scaled and shifted per channel; the scale and the shift are the
  host's statistics of the activations the first region left, which are the qkv projection of the spiked input. The mean and the
  inverse deviation stay the named terms of those activations.
-/
import proofs.«145565_j53025666236638_1_alg».proof.Proof.Gen.KernelIdeal.Frame
import proofs.«145565_j53025666236638_1_alg».proof.Proof.Spec
import proofs.«145565_j53025666236638_1_alg».proof.Proof.KTerm
import proofs.«145565_j53025666236638_1_alg».proof.Proof.KReg0
import proofs.«145565_j53025666236638_1_alg».proof.Proof.KReg1
import proofs.«145565_j53025666236638_1_alg».proof.Proof.KReg2
import proofs.«145565_j53025666236638_1_alg».proof.Proof.KReg3
import proofs.«145565_j53025666236638_1_alg».proof.Proof.KHost
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The six argument arrays as launched, at their literal types. -/
abbrev xA (c : Dev nD) : Vec Ideal S4x1024x512 .f32 := m ((c.tc : Thread nD τ).loc main_arg0)
abbrev wA (c : Dev nD) : Vec Ideal S1536x512 .f32 := m ((c.tc : Thread nD τ).loc main_arg1)
abbrev gA (c : Dev nD) : Vec Ideal S1536 .f32 := m ((c.tc : Thread nD τ).loc main_arg2)
abbrev bA (c : Dev nD) : Vec Ideal S1536 .f32 := m ((c.tc : Thread nD τ).loc main_arg3)
abbrev wpA (c : Dev nD) : Vec Ideal S512x512 .f32 := m ((c.tc : Thread nD τ).loc main_arg4)
abbrev bpA (c : Dev nD) : Vec Ideal S512 .f32 := m ((c.tc : Thread nD τ).loc main_arg5)

/-- The qkv activations as an array, and the normalised activations in the kernel's arrangement, the mean and the inverse
    deviation being the host statistics of the activations. -/
abbrev qA (c : Dev nD) : Cert.Spec.SQ.Idx → EReal := Cert.Spec.qkvA (xA m c) (wA m c)
abbrev nrm (c : Dev nD) : Fin 4 → Fin 1024 → Fin 1536 → EReal :=
  Cert.Spec.normK (qA m c) (Term.mean (F := Ideal) (qA m c)) (Term.inv (F := Ideal) (qA m c)) (gA m c) (bA m c)

/-! ## Region 0 leaves the qkv projection -/

theorem qkv_exit0_at (c : Dev nD) (b : Fin 4) (n : Fin 1024) (d : Fin 1536) :
    (W2 (F := Ideal) m ρ c (Proc.devRef .tc main_v1) : S4x1024x1536.Idx → EReal) (ix3 b n d)
      = Cert.Spec.qkvS (xA m c) (wA m c) b n d := by
  have e0 : (W2 (F := Ideal) m ρ c (Proc.devRef .tc main_v1) : S4x1024x1536.Idx → EReal)
      = (dat0 (F := Ideal) (V1 m ρ) c).arrAt 2 cfg0.N := W2_arr m ρ c 2
  have hx : Reg0.xArr (V1 m ρ) c = xA m c := HostRead.x_entry m ρ c
  have hw : Reg0.wArr (V1 m ρ) c = wA m c := funext fun i => by
    obtain ⟨p, q, rfl⟩ : ∃ (p : Fin 1536) (q : Fin 512), i = ix2 p q := ⟨i 0, i 1, eq_ix2 i⟩
    exact HostRead.w_entry_at m ρ c p q
  rw [e0, Reg0.value (V1 m ρ) c b n d, hx, hw]

theorem qkv_exit0 (c : Dev nD) :
    (W2 (F := Ideal) m ρ c (Proc.devRef .tc main_v1) : S4x1024x1536.Idx → EReal) = qA m c := funext fun i => by
  obtain ⟨b, n, d, rfl⟩ : ∃ (b : Fin 4) (n : Fin 1024) (d : Fin 1536), i = ix3 b n d := ⟨i 0, i 1, i 2, eq_ix3 i⟩
  exact qkv_exit0_at m ρ c b n d

/-! ## Region 1 leaves the three spiked parts of the normalised activations -/

/-- The scale and the shift region 1 finds at channel d, over the launched parameters and the named statistics. -/
theorem scale_at (c : Dev nD) (d : Fin 1536) :
    Reg1.scArr (V5 m ρ) c (ix2 (0 : Fin 1) d) = gA m c (ix1 d) * Term.inv (F := Ideal) (qA m c) (ix1 d) := by
  refine (HostRead.scale_entry1_at m ρ c d).trans ?_
  rw [qkv_exit0 m ρ c, HostRead.gamma_exit0 m ρ c]
  rfl
theorem shift_at (c : Dev nD) (d : Fin 1536) :
    Reg1.shArr (V5 m ρ) c (ix2 (0 : Fin 1) d)
      = bA m c (ix1 d) - Term.mean (F := Ideal) (qA m c) (ix1 d) * (gA m c (ix1 d) * Term.inv (F := Ideal) (qA m c) (ix1 d)) := by
  refine (HostRead.shift_entry1_at m ρ c d).trans ?_
  rw [qkv_exit0 m ρ c, HostRead.gamma_exit0 m ρ c, HostRead.beta_exit0 m ρ c]
  rfl

/-- Part s at (b, n, e) is the spike of the normalised activation at channel s·512 + e. -/
theorem cell_eq (c : Dev nD) (s : Fin 3) (b : Fin 4) (n : Fin 1024) (e : Fin 512) :
    Reg1.cell (V5 m ρ) c s b n e = Cert.Spec.spk (nrm m c b n (Cert.Spec.chanW s e)) := by
  have hq : Reg1.qArr (V5 m ρ) c = qA m c := (HostRead.q_entry1 m ρ c).trans (qkv_exit0 m ρ c)
  unfold Reg1.cell
  rw [hq, scale_at m ρ c, shift_at m ρ c]
  rfl

theorem query_exit1_at (c : Dev nD) (b : Fin 4) (n : Fin 1024) (e : Fin 512) :
    (W6 (F := Ideal) m ρ c (Proc.devRef .tc main_v14_0) : S4x1024x512.Idx → EReal) (ix3 b n e)
      = Cert.Spec.spk (nrm m c b n (Cert.Spec.chanW 0 e)) := by
  have e0 : (W6 (F := Ideal) m ρ c (Proc.devRef .tc main_v14_0) : S4x1024x512.Idx → EReal)
      = (dat1 (F := Ideal) (V5 m ρ) c).arrAt 3 cfg1.N := W6_arr m ρ c 3
  rw [e0, Reg1.valueQ (V5 m ρ) c b n e, cell_eq m ρ c 0 b n e]
theorem key_exit1_at (c : Dev nD) (b : Fin 4) (n : Fin 1024) (e : Fin 512) :
    (W6 (F := Ideal) m ρ c (Proc.devRef .tc main_v14_1) : S4x1024x512.Idx → EReal) (ix3 b n e)
      = Cert.Spec.spk (nrm m c b n (Cert.Spec.chanW 1 e)) := by
  have e0 : (W6 (F := Ideal) m ρ c (Proc.devRef .tc main_v14_1) : S4x1024x512.Idx → EReal)
      = (dat1 (F := Ideal) (V5 m ρ) c).arrAt 4 cfg1.N := W6_arr m ρ c 4
  rw [e0, Reg1.valueK (V5 m ρ) c b n e, cell_eq m ρ c 1 b n e]
theorem value_exit1_at (c : Dev nD) (b : Fin 4) (n : Fin 1024) (e : Fin 512) :
    (W6 (F := Ideal) m ρ c (Proc.devRef .tc main_v14_2) : S4x1024x512.Idx → EReal) (ix3 b n e)
      = Cert.Spec.spk (nrm m c b n (Cert.Spec.chanW 2 e)) := by
  have e0 : (W6 (F := Ideal) m ρ c (Proc.devRef .tc main_v14_2) : S4x1024x512.Idx → EReal)
      = (dat1 (F := Ideal) (V5 m ρ) c).arrAt 5 cfg1.N := W6_arr m ρ c 5
  rw [e0, Reg1.valueV (V5 m ρ) c b n e, cell_eq m ρ c 2 b n e]

/-! ## Region 2 finds the three parts head-major and leaves their attention -/

theorem query_entry2 (c : Dev nD) : (fun b h n e => Reg2.qH (V7 m ρ) c (ix4 b h n e)) = Cert.Spec.headS (nrm m c) 0 :=
  funext fun b => funext fun h => funext fun n => funext fun e => by
    refine (HostRead.query_entry2_at m ρ c b h n e).trans ?_
    rw [query_exit1_at m ρ c, Cert.Spec.headS, Cert.Spec.chan_eq]
theorem key_entry2 (c : Dev nD) : (fun b h n e => Reg2.kH (V7 m ρ) c (ix4 b h n e)) = Cert.Spec.headS (nrm m c) 1 :=
  funext fun b => funext fun h => funext fun n => funext fun e => by
    refine (HostRead.key_entry2_at m ρ c b h n e).trans ?_
    rw [key_exit1_at m ρ c, Cert.Spec.headS, Cert.Spec.chan_eq]
theorem value_entry2 (c : Dev nD) : (fun b h n e => Reg2.vH (V7 m ρ) c (ix4 b h n e)) = Cert.Spec.headS (nrm m c) 2 :=
  funext fun b => funext fun h => funext fun n => funext fun e => by
    refine (HostRead.value_entry2_at m ρ c b h n e).trans ?_
    rw [value_exit1_at m ρ c, Cert.Spec.headS, Cert.Spec.chan_eq]

theorem att_exit2_at (c : Dev nD) (b : Fin 4) (h : Fin 8) (n : Fin 1024) (e : Fin 64) :
    (W8 (F := Ideal) m ρ c (Proc.devRef .tc main_v21) : S4x8x1024x64.Idx → EReal) (ix4 b h n e)
      = Cert.Spec.attS (Cert.Spec.headS (nrm m c) 0) (Cert.Spec.headS (nrm m c) 1) (Cert.Spec.headS (nrm m c) 2) b h n e := by
  have e0 : (W8 (F := Ideal) m ρ c (Proc.devRef .tc main_v21) : S4x8x1024x64.Idx → EReal)
      = (dat2 (F := Ideal) (V7 m ρ) c).arrAt 3 cfg2.N := W8_arr m ρ c 3
  rw [e0, Reg2.value (V7 m ρ) c b h n e, query_entry2 m ρ c, key_entry2 m ρ c, value_entry2 m ρ c]

/-! ## Region 3 finds the merged heads, the projection weights and the bias, and leaves the output -/

/-- What the result buffer holds after the last region: the specification's output over the kernel's arrangement of the
    normalisation, the mean and inverse deviation being the host statistics of the qkv projection. -/
theorem value (c : Dev nD) (bb : Fin 4) (n : Fin 1024) (d : Fin 512) :
    W10 (F := Ideal) m ρ c (Proc.devRef .tc main_v26) (ix3 bb n d)
      = Cert.Spec.outOf
          (Cert.Spec.normK (Cert.Spec.qkvA (xA m c) (wA m c)) (Term.mean (F := Ideal) (Cert.Spec.qkvA (xA m c) (wA m c)))
            (Term.inv (F := Ideal) (Cert.Spec.qkvA (xA m c) (wA m c))) (gA m c) (bA m c))
          (wpA m c) (bpA m c) bb n d := by
  have e0 : (W10 (F := Ideal) m ρ c (Proc.devRef .tc main_v26) : S4x1024x512.Idx → EReal)
      = (dat3 (F := Ideal) (V9 m ρ) c).arrAt 3 cfg3.N := W10_arr m ρ c 3
  rw [e0, Reg3.value (V9 m ρ) c bb n d]
  unfold Cert.Spec.outOf Cert.Spec.outS
  refine congrArg₂ (· + ·) (Finset.sum_congr rfl fun k _ => congrArg₂ (· * ·) ?_ ?_) ?_
  · exact (HostRead.merged_entry3_at m ρ c bb n k).trans (att_exit2_at m ρ c bb (Cert.Spec.headOf k) n (Cert.Spec.laneOf k))
  · exact HostRead.wp_entry3_at m ρ c d k
  · exact HostRead.bp_entry3_at m ρ c d

end Cert.KernelIdeal.Whole

end
-- ==== Proof.RTerm.lean ====
/-
  The reference program's result as ONE pure term of its six arguments, cut into the stages of its mathematics: the spike
  (clip to [0, 4], add one half, round down) of the input; the qkv projection; the per-channel mean, variance and inverse
  deviation over batch and sequence; the normalisation; the three head-major parts; the spiked scores; the scaled context;
  the merge of the heads; the output projection with its bias. Each stage is the composition of the host operations the
  program applies, in its own order, generic in the float instance; nothing here is proved — the run module shows the program
  ends at `out`, and the value module reads `out` at an index.
-/
import proofs.«145565_j53025666236638_1_alg».proof.Proof.Gen.ReferenceIdeal

noncomputable section

namespace Cert.ReferenceIdeal.Term

open Cert.ReferenceIdeal Cert.ReferenceIdeal.Facts₀ Cert.ReferenceIdeal.Facts Idealize.ShloMosaic

variable {F : FTy → Type} [FloatOps F]

/-- The contents of an f32 buffer of shape `S`. -/
abbrev C (S : Shape) : Type := (⟨S, .f32⟩ : BufTy).Contents (Elt F)

/-- The spike on a [4,1024,512] array (the input, and the merged heads). -/
def spikeX (x : C (F := F) S4x1024x512) : C (F := F) S4x1024x512 :=
  Host.floor (addf
    (minimumf (broadcastInDim S4x1024x512 ![] bcast_S_S4x1024x512 (constant S_ .f32 0x40800000#32))
      (maximumf (broadcastInDim S4x1024x512 ![] bcast_S_S4x1024x512 (constant S_ .f32 0x00000000#32)) x))
    (broadcastInDim S4x1024x512 ![] bcast_S_S4x1024x512 (constant S_ .f32 0x3F000000#32)))

/-- The spike on a head-major [4,8,1024,64] array. -/
def spikeH (x : C (F := F) S4x8x1024x64) : C (F := F) S4x8x1024x64 :=
  Host.floor (addf
    (minimumf (broadcastInDim S4x8x1024x64 ![] bcast_S_S4x8x1024x64 (constant S_ .f32 0x40800000#32))
      (maximumf (broadcastInDim S4x8x1024x64 ![] bcast_S_S4x8x1024x64 (constant S_ .f32 0x00000000#32)) x))
    (broadcastInDim S4x8x1024x64 ![] bcast_S_S4x8x1024x64 (constant S_ .f32 0x3F000000#32)))

/-- The spike on the [4,8,1024,1024] scores. -/
def spikeS (x : C (F := F) S4x8x1024x1024) : C (F := F) S4x8x1024x1024 :=
  Host.floor (addf
    (minimumf (broadcastInDim S4x8x1024x1024 ![] bcast_S_S4x8x1024x1024 (constant S_ .f32 0x40800000#32))
      (maximumf (broadcastInDim S4x8x1024x1024 ![] bcast_S_S4x8x1024x1024 (constant S_ .f32 0x00000000#32)) x))
    (broadcastInDim S4x8x1024x1024 ![] bcast_S_S4x8x1024x1024 (constant S_ .f32 0x3F000000#32)))

/-- The qkv projection: the spiked input against the weights, contracting the 512. -/
def qkv (x : C (F := F) S4x1024x512) (w : C (F := F) S1536x512) : C (F := F) S4x1024x1536 :=
  Host.dotGeneral dot_S4x1024x512_S1536x512_S4x1024x1536_2_1_01_0_n_n none (spikeX x) w

/-- The per-channel sum over batch and sequence. -/
def sumBN (q : C (F := F) S4x1024x1536) : C (F := F) S1536 :=
  Host.reduceAdd q (constant S_ .f32 0x00000000#32) reducesTo_S4x1024x1536_S1536_d0_1 h_S_

/-- The per-channel mean over the 4096 positions. -/
def mean (q : C (F := F) S4x1024x1536) : C (F := F) S1536 :=
  Host.divf (sumBN q) (broadcastInDim S1536 ![] bcast_S_S1536 (constant S_ .f32 0x45800000#32))

/-- A per-channel vector laid along the last axis of a [4,1024,1536] array. -/
def alongC (v : C (F := F) S1536) : C (F := F) S4x1024x1536 :=
  broadcastInDim S4x1024x1536 ![0, 1, 2] bcast_S1x1x1536_S4x1024x1536_0_1_2 (broadcastInDim S1x1x1536 ![2] bcast_S1536_S1x1x1536_2 v)

/-- The variance's divisor 4096 − 0 (the count less the degrees of freedom taken off), a scalar. -/
def count : (⟨S_, .f32⟩ : BufTy).Contents (Elt F) :=
  subf (constant S_ .f32 0x45800000#32) (sitofp .f32 (constantI S_ 32 0#32))

/-- The deviations from the mean, as the variance computes them (its own copy of the mean, kept 1×1×1536 before it is laid out). -/
def dev (q : C (F := F) S4x1024x1536) : C (F := F) S4x1024x1536 :=
  subf q (broadcastInDim S4x1024x1536 ![0, 1, 2] bcast_S1x1x1536_S4x1024x1536_0_1_2
    (Host.divf (broadcastInDim S1x1x1536 ![2] bcast_S1536_S1x1x1536_2 (sumBN q))
      (broadcastInDim S1x1x1536 ![] bcast_S_S1x1x1536 (constant S_ .f32 0x45800000#32))))

/-- The per-channel variance: the mean square deviation where the divisor is positive (it is), a not-a-number word otherwise. -/
def var (q : C (F := F) S4x1024x1536) : C (F := F) S1536 :=
  select (broadcastInDim S1536 ![] bcast_S_S1536 (cmpf .ogt (count (F := F)) (constant S_ .f32 0x00000000#32)))
    (Host.divf (Host.reduceAdd (mulf (dev q) (dev q)) (constant S_ .f32 0x00000000#32) reducesTo_S4x1024x1536_S1536_d0_1 h_S_)
      (broadcastInDim S1536 ![] bcast_S_S1536 (count (F := F))))
    (broadcastInDim S1536 ![] bcast_S_S1536 (constant S_ .f32 0x7FC00000#32))

/-- The per-channel inverse deviation 1/√(var + ε). -/
def inv (q : C (F := F) S4x1024x1536) : C (F := F) S1536 :=
  Host.rsqrt (addf (var q) (broadcastInDim S1536 ![] bcast_S_S1536 (constant S_ .f32 0x3727C5AC#32)))

/-- The normalisation: centre, scale by the inverse deviation, then by γ, shift by β. -/
def normed (q : C (F := F) S4x1024x1536) (g b : C (F := F) S1536) : C (F := F) S4x1024x1536 :=
  addf (mulf (mulf (subf q (alongC (mean q))) (alongC (inv q))) (alongC g)) (alongC b)

/-- The normalised activations with the channel axis split 3 × 8 × 64 and the part axis brought to the front. -/
def parts (nq : C (F := F) S4x1024x1536) : C (F := F) S3x4x8x1024x64 :=
  transpose S3x4x8x1024x64 [2, 0, 3, 1, 4] (shapeCast S4x1024x3x8x64 nq shapeCasts_S4x1024x1536_S4x1024x3x8x64)
    transposes_S4x1024x3x8x64_S3x4x8x1024x64_2_0_3_1_4

/-- Part 0, 1, 2 (query, key, value), head-major. -/
def part0 (p : C (F := F) S3x4x8x1024x64) : C (F := F) S4x8x1024x64 :=
  shapeCast S4x8x1024x64 (extractStridedSlice S1x4x8x1024x64 ![0, 0, 0, 0, 0] p slices_S3x4x8x1024x64_S1x4x8x1024x64_0_0_0_0_0)
    shapeCasts_S1x4x8x1024x64_S4x8x1024x64
def part1 (p : C (F := F) S3x4x8x1024x64) : C (F := F) S4x8x1024x64 :=
  shapeCast S4x8x1024x64 (extractStridedSlice S1x4x8x1024x64 ![1, 0, 0, 0, 0] p slices_S3x4x8x1024x64_S1x4x8x1024x64_1_0_0_0_0)
    shapeCasts_S1x4x8x1024x64_S4x8x1024x64
def part2 (p : C (F := F) S3x4x8x1024x64) : C (F := F) S4x8x1024x64 :=
  shapeCast S4x8x1024x64 (extractStridedSlice S1x4x8x1024x64 ![2, 0, 0, 0, 0] p slices_S3x4x8x1024x64_S1x4x8x1024x64_2_0_0_0_0)
    shapeCasts_S1x4x8x1024x64_S4x8x1024x64

/-- The scores of each batch and head: queries against keys, contracting the 64. -/
def scores (q k : C (F := F) S4x8x1024x64) : C (F := F) S4x8x1024x1024 :=
  Host.dotGeneral dot_S4x8x1024x64_S4x8x1024x64_S4x8x1024x1024_3_3_2_2_01_01 none q k

/-- The context of each batch and head: spiked scores against values, contracting the 1024, times 1/8. -/
def ctx (a : C (F := F) S4x8x1024x1024) (v : C (F := F) S4x8x1024x64) : C (F := F) S4x8x1024x64 :=
  mulf (Host.dotGeneral dot_S4x8x1024x1024_S4x8x1024x64_S4x8x1024x64_3_2_2_3_01_01 none a v)
    (broadcastInDim S4x8x1024x64 ![] bcast_S_S4x8x1024x64 (constant S_ .f32 0x3E000000#32))

/-- The heads merged back into 512 channels. -/
def merge (o : C (F := F) S4x8x1024x64) : C (F := F) S4x1024x512 :=
  shapeCast S4x1024x512 (transpose S4x1024x8x64 [0, 2, 1, 3] o transposes_S4x8x1024x64_S4x1024x8x64_0_2_1_3)
    shapeCasts_S4x1024x8x64_S4x1024x512

/-- The output projection, contracting the 512, plus the bias laid along the last axis. -/
def proj (o : C (F := F) S4x1024x512) (wp : C (F := F) S512x512) (bp : C (F := F) S512) : C (F := F) S4x1024x512 :=
  addf (Host.dotGeneral dot_S4x1024x512_S512x512_S4x1024x512_2_1_01_0_n_n none o wp)
    (broadcastInDim S4x1024x512 ![0, 1, 2] bcast_S1x1x512_S4x1024x512_0_1_2 (broadcastInDim S1x1x512 ![2] bcast_S512_S1x1x512_2 bp))

/-- The head-major part `k` of the normalised qkv activations, spiked. -/
def headQ (x : C (F := F) S4x1024x512) (w : C (F := F) S1536x512) (g b : C (F := F) S1536) : C (F := F) S4x8x1024x64 :=
  spikeH (part0 (parts (normed (qkv x w) g b)))
def headK (x : C (F := F) S4x1024x512) (w : C (F := F) S1536x512) (g b : C (F := F) S1536) : C (F := F) S4x8x1024x64 :=
  spikeH (part1 (parts (normed (qkv x w) g b)))
def headV (x : C (F := F) S4x1024x512) (w : C (F := F) S1536x512) (g b : C (F := F) S1536) : C (F := F) S4x8x1024x64 :=
  spikeH (part2 (parts (normed (qkv x w) g b)))

/-- The reference's result. -/
def out (x : C (F := F) S4x1024x512) (w : C (F := F) S1536x512) (g b : C (F := F) S1536) (wp : C (F := F) S512x512)
    (bp : C (F := F) S512) : C (F := F) S4x1024x512 :=
  proj (spikeX (merge (ctx (spikeS (scores (headQ x w g b) (headK x w g b))) (headV x w g b)))) wp bp

end Cert.ReferenceIdeal.Term

end
-- ==== Proof.RRun.lean ====
/-
  The reference program's run, by hand: its @main — two windows, seven calls of its private functions — is the straight line
  of its 136 host operations (a called function's operations stand where it is called, over that call's own buffers), so every
  weakly fair execution terminates with each buffer at the fold of the operations' results over the launch contents; read at
  the result buffer that fold is the composed term `Term.out` of the six arguments, and no operation writes an argument.
-/
import proofs.«145565_j53025666236638_1_alg».proof.Proof.Gen.ReferenceIdeal
import proofs.«145565_j53025666236638_1_alg».proof.Proof.RTerm
import proofs.«145565_j53025666236638_1_alg».proof.Proof.RRunA
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order: its two windows one after the other. -/
abbrev ops : List (HloOp τ sig (Elt F)) := ops_part0 ++ ops_part1

-- one hundred and one binds re-associated: the rewriting recurses once per statement
set_option maxRecDepth 8192 in
/-- The first window is that straight line: each called function's definition unfolded where it is called and its record
    at its fields, both sides are one chain of single steps once sequencing is re-associated (associativity of bind, the
    left unit law for each function's closing return). -/
theorem main_part0_eq (c : Dev nD) : main_part0 (F := F) c = seq ops_part0 := by
  simp only [main_part0, fn_clip.body, fn_var.body, fn_where.body, fn_clip_0.body, seq, bind_assoc, pure_bind]
  rfl
set_option maxRecDepth 8192 in
/-- The second window likewise; it ends with the program's own return, so the two chains already coincide. -/
theorem main_part1_eq (c : Dev nD) : main_part1 (F := F) c = seq ops_part1 := by
  simp only [main_part1, fn_clip_1.body, fn_clip_2.body, seq, bind_assoc, pure_bind]
/-- The whole program is the straight line of all its operations: a line of a concatenation is the two lines in sequence. -/
theorem main_eq (c : Dev nD) : main (F := F) c = seq ops := by
  simp only [ops, seq_append, ← main_part0_eq c, ← main_part1_eq c]
  rfl
/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide
/-- Every buffer any operation touches is a TensorCore reference: membership in a concatenation is membership in a part. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

attribute [local irreducible] Host.reduceAdd in
set_option maxRecDepth 16384 in
set_option maxHeartbeats 8000000 in
/-- The fold of the operations' results, read at the result buffer, is the composed term: each operation's result at its own
    buffer is its function of the contents of its operands' buffers, at any other buffer what was there (distinct references
    are distinct buffers); what remains compares, stage by stage, with the term's definition — the conversions the clip
    functions make are identities, and the transport of contents along a literal reference's type is the identity. The sums
    stay folded meanwhile (the equation never looks inside them). -/
theorem out_eq (V : Valuation τ sig (Elt F)) :
    after ops V (Proc.devRef .tc main_v61)
      = Term.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, ops_part0, ops_part1, List.cons_append, List.nil_append]
  after_results_simp
  rfl

set_option maxRecDepth 16384 in
set_option maxHeartbeats 8000000 in
/-- No operation writes an argument's buffer: each keeps its contents through the whole line. -/
theorem args_eq (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  simp only [ops, ops_part0, ops_part1, List.cons_append, List.nil_append]
  refine ⟨?_, ?_, ?_, ?_, ?_, ?_⟩ <;> after_results_simp

set_option maxRecDepth 8192 in
/-- On every device, for any float values, from any memory with zero counters: every weakly fair execution of the reference's
    @main terminates with its result at the composed term `Term.out` of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = Term.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have ha := args_eq (launchContents m c)
      ⟨(h c main_v61).trans (out_eq (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2⟩)
    (run_seq scopedRefs_eq scopedSems_eq defs main (fun _ => ops) main_eq (fun _ => ops_sub) m ρ)

end Cert.ReferenceIdeal.RunValue

end
-- ==== Proof.RValueA.lean ====
/-
  The first half of the reference's result read at an index, at the ideal values: the spike is elementwise; the qkv projection
  at (b, n, d) is the sum over k of the spiked input at (b, n, k) times the weights at (d, k); the normalisation at (b, n, d) is
  ((q − μ(d)) · inv(d)) · γ(d) + β(d) with the mean μ and the inverse deviation inv kept as named vectors; the reshape, the
  transposition, the slice and the dropped unit axis read part s, head h, lane e at channel s·512 + h·64 + e. Together: the
  three spiked head-major parts are the specification's, over the specification's projection.
-/
import proofs.«145565_j53025666236638_1_alg».proof.Proof.Gen.ReferenceIdeal
import proofs.«145565_j53025666236638_1_alg».proof.Proof.RTerm
import proofs.«145565_j53025666236638_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ReadHeads

open Cert.ReferenceIdeal Cert.ReferenceIdeal.Gen Idealize.ShloMosaic Idealize.ShloMosaic.ValueIdx
open scoped BigOperators

/-! ## The spike

Every operation of the spike is elementwise, so read at an index the program's composition (clip below by the word of 0,
above by the word of 4, add the word of 1/2, round down) is the specification's spike of the operand there, by unfolding. -/

/-- The spike of a [4,1024,512] array at an index. -/
theorem spikeX_apply (x : Term.C (F := Ideal) S4x1024x512) (i : S4x1024x512.Idx) :
    Term.spikeX (F := Ideal) x i = Cert.Spec.spk (x i) := rfl

/-- The spike of a head-major [4,8,1024,64] array at an index. -/
theorem spikeH_apply (x : Term.C (F := Ideal) S4x8x1024x64) (i : S4x8x1024x64.Idx) :
    Term.spikeH (F := Ideal) x i = Cert.Spec.spk (x i) := rfl

/-! ## The qkv projection

The projection contracts the last axis of the spiked input against the last axis of the weights. The left operand's index at
result index (b, n, d) and contraction position k is (b, n, k), the right operand's is (d, k): one lemma per operand axis, then
the sum over the contraction index is carried to the sum over k : Fin 512. -/

/-- Left operand, axes 0 and 1: free axes, read from the result's axes 0 and 1. -/
theorem lhs_qkv_0 (i : S4x1024x1536.Idx) (q : dot_S4x1024x512_S1536x512_S4x1024x1536_2_1_01_0_n_n.contr.Idx) :
    (dot_S4x1024x512_S1536x512_S4x1024x1536_2_1_01_0_n_n.lhsIdx i q 0).val = (i 0).val := by
  unfold DotDims.lhsIdx
  rw [dif_neg (show ¬(0 : Fin S4x1024x512.rank) ∈ dot_S4x1024x512_S1536x512_S4x1024x1536_2_1_01_0_n_n.lhsBatch by decide),
    dif_pos (show (0 : Fin S4x1024x512.rank) ∈ dot_S4x1024x512_S1536x512_S4x1024x1536_2_1_01_0_n_n.lhsNonContracting by decide)]
  rfl
theorem lhs_qkv_1 (i : S4x1024x1536.Idx) (q : dot_S4x1024x512_S1536x512_S4x1024x1536_2_1_01_0_n_n.contr.Idx) :
    (dot_S4x1024x512_S1536x512_S4x1024x1536_2_1_01_0_n_n.lhsIdx i q 1).val = (i 1).val := by
  unfold DotDims.lhsIdx
  rw [dif_neg (show ¬(1 : Fin S4x1024x512.rank) ∈ dot_S4x1024x512_S1536x512_S4x1024x1536_2_1_01_0_n_n.lhsBatch by decide),
    dif_pos (show (1 : Fin S4x1024x512.rank) ∈ dot_S4x1024x512_S1536x512_S4x1024x1536_2_1_01_0_n_n.lhsNonContracting by decide)]
  rfl
/-- Left operand, axis 2: the contracted axis, read from the contraction position. -/
theorem lhs_qkv_2 (i : S4x1024x1536.Idx) (q : dot_S4x1024x512_S1536x512_S4x1024x1536_2_1_01_0_n_n.contr.Idx) :
    (dot_S4x1024x512_S1536x512_S4x1024x1536_2_1_01_0_n_n.lhsIdx i q 2).val = (q ⟨0, by decide⟩).val :=
  dot_S4x1024x512_S1536x512_S4x1024x1536_2_1_01_0_n_n.lhsIdx_val_of_single rfl i q
/-- Right operand, axis 0: its free axis, read from the result's axis 2. -/
theorem rhs_qkv_0 (i : S4x1024x1536.Idx) (q : dot_S4x1024x512_S1536x512_S4x1024x1536_2_1_01_0_n_n.contr.Idx) :
    (dot_S4x1024x512_S1536x512_S4x1024x1536_2_1_01_0_n_n.rhsIdx i q 0).val = (i 2).val := by
  unfold DotDims.rhsIdx
  rw [dif_neg (show ¬(0 : Fin S1536x512.rank) ∈ dot_S4x1024x512_S1536x512_S4x1024x1536_2_1_01_0_n_n.rhsBatch by decide),
    dif_pos (show (0 : Fin S1536x512.rank) ∈ dot_S4x1024x512_S1536x512_S4x1024x1536_2_1_01_0_n_n.rhsNonContracting by decide)]
  rfl
/-- Right operand, axis 1: the contracted axis, read from the contraction position. -/
theorem rhs_qkv_1 (i : S4x1024x1536.Idx) (q : dot_S4x1024x512_S1536x512_S4x1024x1536_2_1_01_0_n_n.contr.Idx) :
    (dot_S4x1024x512_S1536x512_S4x1024x1536_2_1_01_0_n_n.rhsIdx i q 1).val = (q ⟨0, by decide⟩).val :=
  dot_S4x1024x512_S1536x512_S4x1024x1536_2_1_01_0_n_n.rhsIdx_val_of_single rfl i q

/-- The projection at (b, n, d): the spiked input row against row d of the weights. -/
theorem qkv_apply (x : Term.C (F := Ideal) S4x1024x512) (w : Term.C (F := Ideal) S1536x512) (b : Fin 4) (n : Fin 1024) (d : Fin 1536) :
    Term.qkv (F := Ideal) x w (ix3 b n d) = ∑ k : Fin 512, Term.spikeX (F := Ideal) x (ix3 b n k) * w (ix2 d k) := by
  unfold Term.qkv
  simp only [Host.dotGeneral]
  rw [Ideal.dotGeneral_apply, ← Equiv.sum_comp (contrEquiv1 dot_S4x1024x512_S1536x512_S4x1024x1536_2_1_01_0_n_n 512 rfl rfl).symm]
  refine Finset.sum_congr rfl fun k _ => ?_
  have hk := contrEquiv1_symm_val dot_S4x1024x512_S1536x512_S4x1024x1536_2_1_01_0_n_n 512 rfl rfl k
  have el : dot_S4x1024x512_S1536x512_S4x1024x1536_2_1_01_0_n_n.lhsIdx (ix3 b n d)
      ((contrEquiv1 dot_S4x1024x512_S1536x512_S4x1024x1536_2_1_01_0_n_n 512 rfl rfl).symm k) = ix3 b n k :=
    funext fun a => Fin.ext (by
      match a with
      | ⟨0, _⟩ => exact lhs_qkv_0 _ _
      | ⟨1, _⟩ => exact lhs_qkv_1 _ _
      | ⟨2, _⟩ => exact (lhs_qkv_2 _ _).trans hk)
  have er : dot_S4x1024x512_S1536x512_S4x1024x1536_2_1_01_0_n_n.rhsIdx (ix3 b n d)
      ((contrEquiv1 dot_S4x1024x512_S1536x512_S4x1024x1536_2_1_01_0_n_n 512 rfl rfl).symm k) = ix2 d k :=
    funext fun a => Fin.ext (by
      match a with
      | ⟨0, _⟩ => exact rhs_qkv_0 _ _
      | ⟨1, _⟩ => exact (rhs_qkv_1 _ _).trans hk)
  rw [el, er]

/-! ## A per-channel vector laid along the last axis -/

/-- A per-channel vector laid along the last axis reads, at (b, n, d), the vector at d. -/
theorem alongC_apply (v : Term.C (F := Ideal) S1536) (b : Fin 4) (n : Fin 1024) (d : Fin 1536) :
    Term.alongC (F := Ideal) v (ix3 b n d) = v (ix1 d) := by
  unfold Term.alongC
  refine (broadcastInDim_apply _ _ _ (ix3 b n d) (ix3 (0 : Fin 1) (0 : Fin 1) d) (fun a => ?_)).trans ?_
  · match a with
    | ⟨0, _⟩ => rfl
    | ⟨1, _⟩ => rfl
    | ⟨2, _⟩ => rfl
  · exact broadcastInDim_apply _ _ _ _ (ix1 d) (fun a => match a with | ⟨0, _⟩ => rfl)

/-! ## The normalisation -/

/-- The normalisation of an arbitrary activation array at (b, n, d), with the mean and the inverse deviation kept as named
    per-channel vectors: centre, scale by the inverse deviation, then by γ, shift by β. -/
theorem normed_apply (q : Term.C (F := Ideal) S4x1024x1536) (g b : Term.C (F := Ideal) S1536)
    (bb : Fin 4) (n : Fin 1024) (d : Fin 1536) :
    Term.normed (F := Ideal) q g b (ix3 bb n d)
      = Cert.Spec.normR q (Term.mean (F := Ideal) q) (Term.inv (F := Ideal) q) g b bb n d := by
  unfold Term.normed Cert.Spec.normR
  rw [addf_apply, mulf_apply, mulf_apply, subf_apply, alongC_apply, alongC_apply, alongC_apply, alongC_apply]

/-! ## The split into parts and heads -/

/-- The channel axis split 3 × 8 × 64 and the part axis brought to the front: at (s, b, h, n, e) the operand at
    (b, n, s·512 + h·64 + e). -/
theorem parts_apply (nq : Term.C (F := Ideal) S4x1024x1536) (s : Fin 3) (bb : Fin 4) (h : Fin 8) (n : Fin 1024) (e : Fin 64) :
    Term.parts (F := Ideal) nq (ix5 s bb h n e) = nq (ix3 bb n (Cert.Spec.chan s h e)) := by
  unfold Term.parts
  refine (transpose_apply _ _ _ (ix5 s bb h n e) (ix5 bb n s h e) (fun c => ?_)).trans ?_
  · match c with
    | ⟨0, _⟩ => rfl
    | ⟨1, _⟩ => rfl
    | ⟨2, _⟩ => rfl
    | ⟨3, _⟩ => rfl
    | ⟨4, _⟩ => rfl
  · refine shapeCast_apply _ _ _ (ix3 bb n (Cert.Spec.chan s h e)) ?_
    rw [Shape.rowMajor_val_three, Shape.rowMajor_val_five]
    show (bb.val * 1024 + n.val) * 1536 + (s.val * 512 + h.val * 64 + e.val)
      = (((bb.val * 1024 + n.val) * 3 + s.val) * 8 + h.val) * 64 + e.val
    omega

/-- Part 0 cut out of the part-major array and its unit axis dropped: at (b, h, n, e) the operand at (0, b, h, n, e). -/
theorem part0_apply (p : Term.C (F := Ideal) S3x4x8x1024x64) (bb : Fin 4) (h : Fin 8) (n : Fin 1024) (e : Fin 64) :
    Term.part0 (F := Ideal) p (ix4 bb h n e) = p (ix5 (0 : Fin 3) bb h n e) := by
  unfold Term.part0
  refine (shapeCast_apply _ _ (ix4 bb h n e) (ix5 (0 : Fin 1) bb h n e) ?_).trans ?_
  · rw [Shape.rowMajor_val_five, Shape.rowMajor_val_four]
    show ((((0 : Fin 1).val * 4 + bb.val) * 8 + h.val) * 1024 + n.val) * 64 + e.val
      = ((bb.val * 8 + h.val) * 1024 + n.val) * 64 + e.val
    simp
  · exact extractStridedSlice_apply _ _ _ _ (ix5 (0 : Fin 3) bb h n e) (fun a => match a with
      | ⟨0, _⟩ => rfl
      | ⟨1, _⟩ => by show bb.val = 0 + bb.val; omega
      | ⟨2, _⟩ => by show h.val = 0 + h.val; omega
      | ⟨3, _⟩ => by show n.val = 0 + n.val; omega
      | ⟨4, _⟩ => by show e.val = 0 + e.val; omega)

/-- The same for part 1 (the slice starts at 1 on the part axis). -/
theorem part1_apply (p : Term.C (F := Ideal) S3x4x8x1024x64) (bb : Fin 4) (h : Fin 8) (n : Fin 1024) (e : Fin 64) :
    Term.part1 (F := Ideal) p (ix4 bb h n e) = p (ix5 (1 : Fin 3) bb h n e) := by
  unfold Term.part1
  refine (shapeCast_apply _ _ (ix4 bb h n e) (ix5 (0 : Fin 1) bb h n e) ?_).trans ?_
  · rw [Shape.rowMajor_val_five, Shape.rowMajor_val_four]
    show ((((0 : Fin 1).val * 4 + bb.val) * 8 + h.val) * 1024 + n.val) * 64 + e.val
      = ((bb.val * 8 + h.val) * 1024 + n.val) * 64 + e.val
    simp
  · exact extractStridedSlice_apply _ _ _ _ (ix5 (1 : Fin 3) bb h n e) (fun a => match a with
      | ⟨0, _⟩ => rfl
      | ⟨1, _⟩ => by show bb.val = 0 + bb.val; omega
      | ⟨2, _⟩ => by show h.val = 0 + h.val; omega
      | ⟨3, _⟩ => by show n.val = 0 + n.val; omega
      | ⟨4, _⟩ => by show e.val = 0 + e.val; omega)

/-- The same for part 2 (the slice starts at 2 on the part axis). -/
theorem part2_apply (p : Term.C (F := Ideal) S3x4x8x1024x64) (bb : Fin 4) (h : Fin 8) (n : Fin 1024) (e : Fin 64) :
    Term.part2 (F := Ideal) p (ix4 bb h n e) = p (ix5 (2 : Fin 3) bb h n e) := by
  unfold Term.part2
  refine (shapeCast_apply _ _ (ix4 bb h n e) (ix5 (0 : Fin 1) bb h n e) ?_).trans ?_
  · rw [Shape.rowMajor_val_five, Shape.rowMajor_val_four]
    show ((((0 : Fin 1).val * 4 + bb.val) * 8 + h.val) * 1024 + n.val) * 64 + e.val
      = ((bb.val * 8 + h.val) * 1024 + n.val) * 64 + e.val
    simp
  · exact extractStridedSlice_apply _ _ _ _ (ix5 (2 : Fin 3) bb h n e) (fun a => match a with
      | ⟨0, _⟩ => rfl
      | ⟨1, _⟩ => by show bb.val = 0 + bb.val; omega
      | ⟨2, _⟩ => by show h.val = 0 + h.val; omega
      | ⟨3, _⟩ => by show n.val = 0 + n.val; omega
      | ⟨4, _⟩ => by show e.val = 0 + e.val; omega)

/-! ## The four readings -/

/-- The reference's qkv projection is the specification's, as arrays. -/
theorem qkv_eq (x : Term.C (F := Ideal) S4x1024x512) (w : Term.C (F := Ideal) S1536x512) :
    Term.qkv (F := Ideal) x w = Cert.Spec.qkvA x w := by
  funext i
  obtain ⟨b, n, d, rfl⟩ : ∃ (b : Fin 4) (n : Fin 1024) (d : Fin 1536), i = ix3 b n d := ⟨i 0, i 1, i 2, eq_ix3 i⟩
  rw [qkv_apply, Cert.Spec.qkvA_ix3]
  unfold Cert.Spec.qkvS
  exact Finset.sum_congr rfl fun k _ => by rw [spikeX_apply]

/-- The reference's normalisation, read through the split, the transposition, the slice of part `s` and the spike, is the
    specification's head-major part `s` over the reference's arrangement of the normalisation. -/
theorem headQ_apply (x : Term.C (F := Ideal) S4x1024x512) (w : Term.C (F := Ideal) S1536x512) (g b : Term.C (F := Ideal) S1536)
    (bb : Fin 4) (h : Fin 8) (n : Fin 1024) (e : Fin 64) :
    Term.headQ (F := Ideal) x w g b (ix4 bb h n e)
      = Cert.Spec.headS (Cert.Spec.normR (Cert.Spec.qkvA x w) (Term.mean (F := Ideal) (Cert.Spec.qkvA x w)) (Term.inv (F := Ideal) (Cert.Spec.qkvA x w)) g b) 0 bb h n e := by
  unfold Term.headQ Cert.Spec.headS
  rw [spikeH_apply, part0_apply, parts_apply, normed_apply, qkv_eq]
theorem headK_apply (x : Term.C (F := Ideal) S4x1024x512) (w : Term.C (F := Ideal) S1536x512) (g b : Term.C (F := Ideal) S1536)
    (bb : Fin 4) (h : Fin 8) (n : Fin 1024) (e : Fin 64) :
    Term.headK (F := Ideal) x w g b (ix4 bb h n e)
      = Cert.Spec.headS (Cert.Spec.normR (Cert.Spec.qkvA x w) (Term.mean (F := Ideal) (Cert.Spec.qkvA x w)) (Term.inv (F := Ideal) (Cert.Spec.qkvA x w)) g b) 1 bb h n e := by
  unfold Term.headK Cert.Spec.headS
  rw [spikeH_apply, part1_apply, parts_apply, normed_apply, qkv_eq]
theorem headV_apply (x : Term.C (F := Ideal) S4x1024x512) (w : Term.C (F := Ideal) S1536x512) (g b : Term.C (F := Ideal) S1536)
    (bb : Fin 4) (h : Fin 8) (n : Fin 1024) (e : Fin 64) :
    Term.headV (F := Ideal) x w g b (ix4 bb h n e)
      = Cert.Spec.headS (Cert.Spec.normR (Cert.Spec.qkvA x w) (Term.mean (F := Ideal) (Cert.Spec.qkvA x w)) (Term.inv (F := Ideal) (Cert.Spec.qkvA x w)) g b) 2 bb h n e := by
  unfold Term.headV Cert.Spec.headS
  rw [spikeH_apply, part2_apply, parts_apply, normed_apply, qkv_eq]

end Cert.ReferenceIdeal.ReadHeads

end
-- ==== Proof.RValueB.lean ====
import proofs.«145565_j53025666236638_1_alg».proof.Proof.Gen.ReferenceIdeal
import proofs.«145565_j53025666236638_1_alg».proof.Proof.RTerm
import proofs.«145565_j53025666236638_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ReadTail

open Cert.ReferenceIdeal Cert.ReferenceIdeal.Gen Idealize.ShloMosaic Idealize.ShloMosaic.ValueIdx
open scoped BigOperators

/-! ## The spike at an index -/

/-- The spike on the scores at an index is the specification's spike of the element there: the three broadcast
    scalars read their words, minimum, maximum and sum read elementwise, and rounding down is the lifted floor. -/
theorem spikeS_apply (x : Term.C (F := Ideal) S4x8x1024x1024) (i : S4x8x1024x1024.Idx) :
    Term.spikeS (F := Ideal) x i = Cert.Spec.spk (x i) := rfl

/-- The same for the spike on a [4,1024,512] array. -/
theorem spikeX_apply (x : Term.C (F := Ideal) S4x1024x512) (i : S4x1024x512.Idx) :
    Term.spikeX (F := Ideal) x i = Cert.Spec.spk (x i) := rfl

/-! ## The two products per batch and head -/

/-- The scores at (b, h, n, m): the query row n against the key row m of batch b and head h, the 64 lanes contracted.
    Batch axes 0 and 1 read the result's first two coordinates on both sides, axis 2 reads the result's third
    coordinate on the left and its fourth on the right, and axis 3 is the contracted one. -/
theorem scores_apply (Q K : Term.C (F := Ideal) S4x8x1024x64) (b : Fin 4) (h : Fin 8) (n m : Fin 1024) :
    Term.scores (F := Ideal) Q K (ix4 b h n m) = ∑ e : Fin 64, Q (ix4 b h n e) * K (ix4 b h m e) := by
  unfold Term.scores
  show FloatOps.dotGeneral (F := Ideal) dot_S4x8x1024x64_S4x8x1024x64_S4x8x1024x1024_3_3_2_2_01_01 none _
    (Q : FVec Ideal S4x8x1024x64 .f32) (K : FVec Ideal S4x8x1024x64 .f32) (ix4 b h n m) = _
  rw [Ideal.dotGeneral_apply, ← Equiv.sum_comp (contrEquiv1 dot_S4x8x1024x64_S4x8x1024x64_S4x8x1024x1024_3_3_2_2_01_01 64 rfl rfl).symm]
  refine Finset.sum_congr rfl fun e _ => ?_
  have c := contrEquiv1_symm_val dot_S4x8x1024x64_S4x8x1024x64_S4x8x1024x1024_3_3_2_2_01_01 64 rfl rfl e
  have l : dot_S4x8x1024x64_S4x8x1024x64_S4x8x1024x1024_3_3_2_2_01_01.lhsIdx (ix4 b h n m) ((contrEquiv1 _ 64 rfl rfl).symm e) = ix4 b h n e := by
    funext ax; apply Fin.ext
    match ax with
    | ⟨0, _⟩ => simp [DotDims.lhsIdx, dot_S4x8x1024x64_S4x8x1024x64_S4x8x1024x1024_3_3_2_2_01_01]; rfl
    | ⟨1, _⟩ => simp [DotDims.lhsIdx, dot_S4x8x1024x64_S4x8x1024x64_S4x8x1024x1024_3_3_2_2_01_01]; rfl
    | ⟨2, _⟩ => simp [DotDims.lhsIdx, dot_S4x8x1024x64_S4x8x1024x64_S4x8x1024x1024_3_3_2_2_01_01]; rfl
    | ⟨3, _⟩ => simp [DotDims.lhsIdx, dot_S4x8x1024x64_S4x8x1024x64_S4x8x1024x1024_3_3_2_2_01_01]; exact c
  have r : dot_S4x8x1024x64_S4x8x1024x64_S4x8x1024x1024_3_3_2_2_01_01.rhsIdx (ix4 b h n m) ((contrEquiv1 _ 64 rfl rfl).symm e) = ix4 b h m e := by
    funext ax; apply Fin.ext
    match ax with
    | ⟨0, _⟩ => simp [DotDims.rhsIdx, dot_S4x8x1024x64_S4x8x1024x64_S4x8x1024x1024_3_3_2_2_01_01]; rfl
    | ⟨1, _⟩ => simp [DotDims.rhsIdx, dot_S4x8x1024x64_S4x8x1024x64_S4x8x1024x1024_3_3_2_2_01_01]; rfl
    | ⟨2, _⟩ => simp [DotDims.rhsIdx, dot_S4x8x1024x64_S4x8x1024x64_S4x8x1024x1024_3_3_2_2_01_01]; rfl
    | ⟨3, _⟩ => simp [DotDims.rhsIdx, dot_S4x8x1024x64_S4x8x1024x64_S4x8x1024x1024_3_3_2_2_01_01]; exact c
  rw [l, r]

/-- The scaled context at (b, h, n, e): row n of the scores against column e of the values of batch b and head h, the
    1024 positions contracted (axis 3 on the left, axis 2 on the right), times one eighth. -/
theorem ctx_apply (a : Term.C (F := Ideal) S4x8x1024x1024) (V : Term.C (F := Ideal) S4x8x1024x64)
    (b : Fin 4) (h : Fin 8) (n : Fin 1024) (e : Fin 64) :
    Term.ctx (F := Ideal) a V (ix4 b h n e)
      = (∑ m : Fin 1024, a (ix4 b h n m) * V (ix4 b h m e)) * Cert.Spec.eighth := by
  unfold Term.ctx
  rw [mulf_apply]
  congr 1
  show FloatOps.dotGeneral (F := Ideal) dot_S4x8x1024x1024_S4x8x1024x64_S4x8x1024x64_3_2_2_3_01_01 none _
    (a : FVec Ideal S4x8x1024x1024 .f32) (V : FVec Ideal S4x8x1024x64 .f32) (ix4 b h n e) = _
  rw [Ideal.dotGeneral_apply, ← Equiv.sum_comp (contrEquiv1 dot_S4x8x1024x1024_S4x8x1024x64_S4x8x1024x64_3_2_2_3_01_01 1024 rfl rfl).symm]
  refine Finset.sum_congr rfl fun m _ => ?_
  have c := contrEquiv1_symm_val dot_S4x8x1024x1024_S4x8x1024x64_S4x8x1024x64_3_2_2_3_01_01 1024 rfl rfl m
  have l : dot_S4x8x1024x1024_S4x8x1024x64_S4x8x1024x64_3_2_2_3_01_01.lhsIdx (ix4 b h n e) ((contrEquiv1 _ 1024 rfl rfl).symm m) = ix4 b h n m := by
    funext ax; apply Fin.ext
    match ax with
    | ⟨0, _⟩ => simp [DotDims.lhsIdx, dot_S4x8x1024x1024_S4x8x1024x64_S4x8x1024x64_3_2_2_3_01_01]; rfl
    | ⟨1, _⟩ => simp [DotDims.lhsIdx, dot_S4x8x1024x1024_S4x8x1024x64_S4x8x1024x64_3_2_2_3_01_01]; rfl
    | ⟨2, _⟩ => simp [DotDims.lhsIdx, dot_S4x8x1024x1024_S4x8x1024x64_S4x8x1024x64_3_2_2_3_01_01]; rfl
    | ⟨3, _⟩ => simp [DotDims.lhsIdx, dot_S4x8x1024x1024_S4x8x1024x64_S4x8x1024x64_3_2_2_3_01_01]; exact c
  have r : dot_S4x8x1024x1024_S4x8x1024x64_S4x8x1024x64_3_2_2_3_01_01.rhsIdx (ix4 b h n e) ((contrEquiv1 _ 1024 rfl rfl).symm m) = ix4 b h m e := by
    funext ax; apply Fin.ext
    match ax with
    | ⟨0, _⟩ => simp [DotDims.rhsIdx, dot_S4x8x1024x1024_S4x8x1024x64_S4x8x1024x64_3_2_2_3_01_01]; rfl
    | ⟨1, _⟩ => simp [DotDims.rhsIdx, dot_S4x8x1024x1024_S4x8x1024x64_S4x8x1024x64_3_2_2_3_01_01]; rfl
    | ⟨2, _⟩ => simp [DotDims.rhsIdx, dot_S4x8x1024x1024_S4x8x1024x64_S4x8x1024x64_3_2_2_3_01_01]; exact c
    | ⟨3, _⟩ => simp [DotDims.rhsIdx, dot_S4x8x1024x1024_S4x8x1024x64_S4x8x1024x64_3_2_2_3_01_01]; rfl
  rw [l, r]

/-! ## The heads merged -/

/-- Merging the heads: channel c of the 512 is lane c % 64 of head c / 64. The shape cast keeps the row-major
    position, ((b·1024 + n)·8 + h)·64 + l = (b·1024 + n)·512 + c; the transpose swaps the head and sequence axes. -/
theorem merge_apply (o : Term.C (F := Ideal) S4x8x1024x64) (b : Fin 4) (n : Fin 1024) (c : Fin 512) :
    Term.merge (F := Ideal) o (ix3 b n c) = o (ix4 b (Cert.Spec.headOf c) n (Cert.Spec.laneOf c)) := by
  unfold Term.merge
  rw [shapeCast_apply _ shapeCasts_S4x1024x8x64_S4x1024x512 (ix3 b n c)
      (ix4 b n (Cert.Spec.headOf c) (Cert.Spec.laneOf c)) (by
        rw [Shape.rowMajor_val_four, Shape.rowMajor_val_three]
        show ((b.val * 1024 + n.val) * 8 + c.val / 64) * 64 + c.val % 64 = (b.val * 1024 + n.val) * 512 + c.val
        omega)]
  exact transpose_apply _ o transposes_S4x8x1024x64_S4x1024x8x64_0_2_1_3 _ _
    fun a => match a with | ⟨0, _⟩ => rfl | ⟨1, _⟩ => rfl | ⟨2, _⟩ => rfl | ⟨3, _⟩ => rfl

/-! ## The output projection -/

/-- The bias laid along the last axis of a [4,1024,512] array reads the bias at the channel: the two leading unit
    axes read coordinate 0, the last axis reads the result's last coordinate. -/
theorem bias_apply (bp : Term.C (F := Ideal) S512) (b : Fin 4) (n : Fin 1024) (d : Fin 512) :
    broadcastInDim S4x1024x512 ![0, 1, 2] bcast_S1x1x512_S4x1024x512_0_1_2
      (broadcastInDim S1x1x512 ![2] bcast_S512_S1x1x512_2 bp) (ix3 b n d) = bp (ix1 d) := by
  rw [broadcastInDim_apply _ bcast_S1x1x512_S4x1024x512_0_1_2 _ (ix3 b n d) (ix3 (0 : Fin 1) (0 : Fin 1) d)
      (fun a => match a with | ⟨0, _⟩ => rfl | ⟨1, _⟩ => rfl | ⟨2, _⟩ => rfl)]
  exact broadcastInDim_apply _ bcast_S512_S1x1x512_2 bp _ (ix1 d) (fun a => match a with | ⟨0, _⟩ => rfl)

/-- The output projection at (b, n, d): row (b, n) against row d of the projection weights, the 512 channels
    contracted (axis 2 on the left, axis 1 on the right, no batch axis), plus the bias at d. -/
theorem proj_apply (o : Term.C (F := Ideal) S4x1024x512) (wp : Term.C (F := Ideal) S512x512) (bp : Term.C (F := Ideal) S512)
    (b : Fin 4) (n : Fin 1024) (d : Fin 512) :
    Term.proj (F := Ideal) o wp bp (ix3 b n d) = (∑ c : Fin 512, o (ix3 b n c) * wp (ix2 d c)) + bp (ix1 d) := by
  unfold Term.proj
  rw [addf_apply, bias_apply]
  congr 1
  show FloatOps.dotGeneral (F := Ideal) dot_S4x1024x512_S512x512_S4x1024x512_2_1_01_0_n_n none _
    (o : FVec Ideal S4x1024x512 .f32) (wp : FVec Ideal S512x512 .f32) (ix3 b n d) = _
  rw [Ideal.dotGeneral_apply, ← Equiv.sum_comp (contrEquiv1 dot_S4x1024x512_S512x512_S4x1024x512_2_1_01_0_n_n 512 rfl rfl).symm]
  refine Finset.sum_congr rfl fun c _ => ?_
  have hc := contrEquiv1_symm_val dot_S4x1024x512_S512x512_S4x1024x512_2_1_01_0_n_n 512 rfl rfl c
  have l : dot_S4x1024x512_S512x512_S4x1024x512_2_1_01_0_n_n.lhsIdx (ix3 b n d) ((contrEquiv1 _ 512 rfl rfl).symm c) = ix3 b n c := by
    funext ax; apply Fin.ext
    match ax with
    | ⟨0, _⟩ => simp [DotDims.lhsIdx, dot_S4x1024x512_S512x512_S4x1024x512_2_1_01_0_n_n]; rfl
    | ⟨1, _⟩ => simp [DotDims.lhsIdx, dot_S4x1024x512_S512x512_S4x1024x512_2_1_01_0_n_n]; rfl
    | ⟨2, _⟩ => simp [DotDims.lhsIdx, dot_S4x1024x512_S512x512_S4x1024x512_2_1_01_0_n_n]; exact hc
  have r : dot_S4x1024x512_S512x512_S4x1024x512_2_1_01_0_n_n.rhsIdx (ix3 b n d) ((contrEquiv1 _ 512 rfl rfl).symm c) = ix2 d c := by
    funext ax; apply Fin.ext
    match ax with
    | ⟨0, _⟩ => simp [DotDims.rhsIdx, dot_S4x1024x512_S512x512_S4x1024x512_2_1_01_0_n_n]; rfl
    | ⟨1, _⟩ => simp [DotDims.rhsIdx, dot_S4x1024x512_S512x512_S4x1024x512_2_1_01_0_n_n]; exact hc
  rw [l, r]

/-! ## The stages composed -/

/-- From head-major query, key and value arrays on: spiked scores, scaled context, merged heads spiked, projection and bias,
    read at an index, is the specification's output over its attention. -/
theorem tail_apply (Q K V : Term.C (F := Ideal) S4x8x1024x64) (wp : Term.C (F := Ideal) S512x512) (bp : Term.C (F := Ideal) S512)
    (bb : Fin 4) (n : Fin 1024) (d : Fin 512) :
    Term.proj (F := Ideal) (Term.spikeX (Term.merge (Term.ctx (Term.spikeS (Term.scores Q K)) V))) wp bp (ix3 bb n d)
      = Cert.Spec.outS (Cert.Spec.attS (fun b h n e => Q (ix4 b h n e)) (fun b h n e => K (ix4 b h n e)) (fun b h n e => V (ix4 b h n e)))
          wp bp bb n d := by
  rw [proj_apply]
  unfold Cert.Spec.outS
  congr 1
  refine Finset.sum_congr rfl fun c _ => ?_
  rw [spikeX_apply, merge_apply, ctx_apply]
  unfold Cert.Spec.attS
  congr 3
  refine Finset.sum_congr rfl fun m _ => ?_
  rw [spikeS_apply, scores_apply]

end Cert.ReferenceIdeal.ReadTail

end
-- ==== Proof.RValue.lean ====
import proofs.«145565_j53025666236638_1_alg».proof.Proof.RValueA
import proofs.«145565_j53025666236638_1_alg».proof.Proof.RValueB
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Read

open Cert.ReferenceIdeal Cert.ReferenceIdeal.Gen Idealize.ShloMosaic Idealize.ShloMosaic.ValueIdx
open scoped BigOperators

/-- The reference's result at an index is the specification's output over the reference's arrangement of the normalisation. -/
theorem out_apply (x : Term.C (F := Ideal) S4x1024x512) (w : Term.C (F := Ideal) S1536x512) (g b : Term.C (F := Ideal) S1536)
    (wp : Term.C (F := Ideal) S512x512) (bp : Term.C (F := Ideal) S512) (bb : Fin 4) (n : Fin 1024) (d : Fin 512) :
    Term.out (F := Ideal) x w g b wp bp (ix3 bb n d)
      = Cert.Spec.outOf (Cert.Spec.normR (Cert.Spec.qkvA x w) (Term.mean (F := Ideal) (Cert.Spec.qkvA x w)) (Term.inv (F := Ideal) (Cert.Spec.qkvA x w)) g b)
          wp bp bb n d := by
  unfold Term.out Cert.Spec.outOf
  rw [ReadTail.tail_apply]
  have hq : (fun b' h' n' e' => Term.headQ (F := Ideal) x w g b (ix4 b' h' n' e')) = Cert.Spec.headS _ 0 :=
    funext fun b' => funext fun h => funext fun n' => funext fun e => ReadHeads.headQ_apply x w g b b' h n' e
  have hk : (fun b' h' n' e' => Term.headK (F := Ideal) x w g b (ix4 b' h' n' e')) = Cert.Spec.headS _ 1 :=
    funext fun b' => funext fun h => funext fun n' => funext fun e => ReadHeads.headK_apply x w g b b' h n' e
  have hv : (fun b' h' n' e' => Term.headV (F := Ideal) x w g b (ix4 b' h' n' e')) = Cert.Spec.headS _ 2 :=
    funext fun b' => funext fun h => funext fun n' => funext fun e => ReadHeads.headV_apply x w g b b' h n' e
  rw [hq, hk, hv]

end Cert.ReferenceIdeal.Read

end
-- ==== Proof.RealValued.lean ====
/-
  "Every entry is a real number": the form in which the finiteness precondition is used.
-/
import Idealize.ShloMosaic.PureOps.Ideal

namespace Cert.Spec

/-- Every entry of an extended-real array is a real number (neither infinity). -/
def AllReal {α : Type} (f : α → EReal) : Prop := ∀ i, ∃ r : ℝ, f i = (r : EReal)

end Cert.Spec
-- ==== Proof.Stats.lean ====
import proofs.«145565_j53025666236638_1_alg».proof.Proof.KTerm
import proofs.«145565_j53025666236638_1_alg».proof.Proof.RTerm
import proofs.«145565_j53025666236638_1_alg».proof.Proof.Spec
import proofs.«145565_j53025666236638_1_alg».proof.Proof.RealValued
import Idealize.ShloMosaic.Lib.Pipeline.Value
import Idealize.ShloMosaic.Lib.ValueIdx
import Idealize.ShloMosaic.PureOps.Ideal.Laws

noncomputable section

namespace Cert.Stats

open Idealize.ShloMosaic Idealize.ShloMosaic.ValueIdx Cert.Spec
open scoped BigOperators

/-- The kernel's host code and the reference compute the per-channel mean by the same operations. -/
theorem mean_eq (q : SQ.Idx → EReal) :
    Cert.KernelIdeal.Term.mean (F := Ideal) q = Cert.ReferenceIdeal.Term.mean (F := Ideal) q := rfl

/-- … and the per-channel inverse deviation. -/
theorem inv_eq (q : SQ.Idx → EReal) :
    Cert.KernelIdeal.Term.inv (F := Ideal) q = Cert.ReferenceIdeal.Term.inv (F := Ideal) q := rfl

/-! ## The words of the constants, as the reals they denote -/

private theorem ofBits_four : Ideal.ofBits .f32 0x40800000#32 = ((4 : ℝ) : EReal) := by
  simp [Ideal.ofBits, Ideal.ieee, -EReal.coe_mul]; norm_num

private theorem ofBits_half : Ideal.ofBits .f32 0x3F000000#32 = ((1 / 2 : ℝ) : EReal) := by
  simp [Ideal.ofBits, Ideal.ieee, -EReal.coe_mul]; norm_num

private theorem ofBits_4096 : Ideal.ofBits .f32 0x45800000#32 = ((4096 : ℝ) : EReal) := by
  simp [Ideal.ofBits, Ideal.ieee, -EReal.coe_mul]; norm_num

/-- The variance's ε is a positive real. -/
private theorem ofBits_eps : ∃ e : ℝ, 0 < e ∧ Ideal.ofBits .f32 0x3727C5AC#32 = (e : EReal) := by
  simp [Ideal.ofBits, Ideal.ieee, -EReal.coe_mul]

/-! ## Real numbers among the extended reals are closed under the operations used -/

/-- An extended real that is a real number. -/
private def IsReal (a : EReal) : Prop := ∃ r : ℝ, a = (r : EReal)

private theorem isReal_coe (r : ℝ) : IsReal (r : EReal) := ⟨r, rfl⟩

private theorem isReal_zero : IsReal 0 := ⟨0, EReal.coe_zero.symm⟩

private theorem isReal_add {a b : EReal} (ha : IsReal a) (hb : IsReal b) : IsReal (a + b) := by
  obtain ⟨r, rfl⟩ := ha; obtain ⟨s, rfl⟩ := hb; exact ⟨r + s, (EReal.coe_add r s).symm⟩

private theorem isReal_sub {a b : EReal} (ha : IsReal a) (hb : IsReal b) : IsReal (a - b) := by
  obtain ⟨r, rfl⟩ := ha; obtain ⟨s, rfl⟩ := hb; exact ⟨r - s, (EReal.coe_sub r s).symm⟩

private theorem isReal_mul {a b : EReal} (ha : IsReal a) (hb : IsReal b) : IsReal (a * b) := by
  obtain ⟨r, rfl⟩ := ha; obtain ⟨s, rfl⟩ := hb; exact ⟨r * s, (EReal.coe_mul r s).symm⟩

private theorem isReal_min {a b : EReal} (ha : IsReal a) (hb : IsReal b) : IsReal (min a b) := by
  rcases min_choice a b with h | h <;> rw [h] <;> assumption

private theorem isReal_max {a b : EReal} (ha : IsReal a) (hb : IsReal b) : IsReal (max a b) := by
  rcases max_choice a b with h | h <;> rw [h] <;> assumption

/-- A finite sum of reals is a real. -/
private theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- Division of a real by the positive real 4096 is a real, of the same sign. -/
private theorem div4096 (r : ℝ) : Ideal.div (r : EReal) ((4096 : ℝ) : EReal) = ((r * (1 / 4096) : ℝ) : EReal) := by
  rw [Ideal.div_coe (by norm_num), ← EReal.coe_mul]

/-! ## The spike and the projection of real data are real -/

/-- The clip to [0, 4] of ANY extended real is a real. -/
private theorem clip_real (v : EReal) : IsReal (min hi (max lo v)) := by
  have h4 : IsReal hi := ⟨4, ofBits_four⟩
  have h0 : IsReal lo := ⟨0, by rw [EReal.coe_zero]; exact Ideal.ofBits_zero_f32⟩
  induction v using EReal.rec with
  | bot => rw [max_eq_left bot_le]; exact isReal_min h4 h0
  | top => rw [max_eq_right le_top, min_eq_left le_top]; exact h4
  | coe r => exact isReal_min h4 (isReal_max h0 (isReal_coe r))

/-- So the spike of any extended real is a real (an integer, in fact). -/
private theorem spk_real (v : EReal) : IsReal (spk v) := by
  obtain ⟨c, hc⟩ := clip_real v
  have hh : half = ((1 / 2 : ℝ) : EReal) := ofBits_half
  unfold spk
  rw [hc, hh, ← EReal.coe_add, Ideal.liftRound_coe]
  exact isReal_coe _

/-- The qkv projection of real weights is real, whatever the input. -/
private theorem qkvS_real (x : SX.Idx → EReal) (w : SW.Idx → EReal) (hw : AllReal w) (b : Fin 4) (n : Fin 1024) (d : Fin 1536) :
    IsReal (qkvS x w b n d) := by
  unfold qkvS
  exact isReal_sum _ _ fun k _ => isReal_mul (spk_real _) (hw _)

private theorem qkvA_real (x : SX.Idx → EReal) (w : SW.Idx → EReal) (hw : AllReal w) (i : SQ.Idx) : IsReal (qkvA x w i) :=
  qkvS_real x w hw _ _ _

/-! ## The statistics of a real array -/

section Statistics
open Cert.ReferenceIdeal

variable (q : SQ.Idx → EReal)

/-- The per-channel sum is zero plus a finite sum of entries. -/
private theorem sumBN_real (hq : ∀ i, IsReal (q i)) (j : S1536.Idx) : IsReal (Term.sumBN (F := Ideal) q j) := by
  show IsReal (Ideal.ofBits .f32 0x00000000#32 + ∑ i ∈ Finset.univ.filter (fun i => Shape.ReducesTo.drop _ i = j), q i)
  rw [Ideal.ofBits_zero_f32]
  exact isReal_add isReal_zero (isReal_sum _ _ fun i _ => hq i)

/-- The mean is the sum divided by 4096. -/
private theorem mean_real (hq : ∀ i, IsReal (q i)) (j : S1536.Idx) : IsReal (Term.mean (F := Ideal) q j) := by
  obtain ⟨s, hs⟩ := sumBN_real q hq j
  show IsReal (Ideal.div (Term.sumBN (F := Ideal) q j) (Ideal.ofBits .f32 0x45800000#32))
  rw [hs, ofBits_4096, div4096]
  exact isReal_coe _

/-- A deviation is an entry less a channel's sum divided by 4096 (the mean laid along the array). -/
private theorem dev_real (hq : ∀ i, IsReal (q i)) (i : SQ.Idx) : IsReal (Term.dev (F := Ideal) q i) := by
  show IsReal (q i - Ideal.div (Term.sumBN (F := Ideal) q _) (Ideal.ofBits .f32 0x45800000#32))
  obtain ⟨s, hs⟩ := sumBN_real q hq _
  rw [hs, ofBits_4096, div4096]
  exact isReal_sub (hq i) (isReal_coe _)

/-- The divisor 4096 − 0. -/
private theorem count_eq (k : S_.Idx) : Term.count (F := Ideal) k = ((4096 : ℝ) : EReal) := by
  show Ideal.ofBits .f32 0x45800000#32 - (((0#32 : BitVec 32).toInt : ℝ) : EReal) = _
  rw [ofBits_4096]
  simp

/-- The divisor is positive, so the variance is its first branch: the sum of the squared deviations over 4096, a
    nonnegative real. -/
private theorem var_real (hq : ∀ i, IsReal (q i)) (j : S1536.Idx) :
    ∃ v : ℝ, 0 ≤ v ∧ Term.var (F := Ideal) q j = (v : EReal) := by
  -- the sum of the squares is a real, and it is nonnegative
  have hsq : ∀ i, IsReal (Term.dev (F := Ideal) q i * Term.dev (F := Ideal) q i) := fun i =>
    isReal_mul (dev_real q hq i) (dev_real q hq i)
  have hnn : ∀ i, (0 : EReal) ≤ Term.dev (F := Ideal) q i * Term.dev (F := Ideal) q i := fun i => by
    obtain ⟨r, hr⟩ := dev_real q hq i
    rw [hr, ← EReal.coe_mul]
    exact EReal.coe_nonneg.mpr (mul_self_nonneg r)
  obtain ⟨s, hs⟩ := isReal_sum (Finset.univ.filter (fun i => Shape.ReducesTo.drop Facts₀.reducesTo_S4x1024x1536_S1536_d0_1 i = j))
    (fun i => Term.dev (F := Ideal) q i * Term.dev (F := Ideal) q i) fun i _ => hsq i
  have hs0 : 0 ≤ s := by
    rw [← EReal.coe_nonneg, ← hs]
    exact Finset.sum_nonneg fun i _ => hnn i
  refine ⟨(0 + s) * (1 / 4096), by positivity, ?_⟩
  show Scalar.select (Ideal.cmp .ogt (Term.count (F := Ideal) _) (Ideal.ofBits .f32 0x00000000#32))
      (Ideal.div (Ideal.ofBits .f32 0x00000000#32
          + ∑ i ∈ Finset.univ.filter (fun i => Shape.ReducesTo.drop Facts₀.reducesTo_S4x1024x1536_S1536_d0_1 i = j),
            Term.dev (F := Ideal) q i * Term.dev (F := Ideal) q i)
        (Term.count (F := Ideal) _))
      (Ideal.ofBits .f32 0x7FC00000#32) = _
  rw [count_eq, Ideal.ofBits_zero_f32, hs]
  have hc : Ideal.cmp .ogt ((4096 : ℝ) : EReal) 0 = 1#1 := by
    have : (0 : EReal) < ((4096 : ℝ) : EReal) := EReal.coe_pos.mpr (by norm_num)
    simp [Ideal.cmp, this]
  rw [hc, select_one, ← EReal.coe_zero, ← EReal.coe_add, div4096]

/-- The inverse deviation 1/√(var + ε) of a nonnegative real variance and a positive real ε is a real. -/
private theorem inv_real (hq : ∀ i, IsReal (q i)) (j : S1536.Idx) : IsReal (Term.inv (F := Ideal) q j) := by
  obtain ⟨v, hv0, hv⟩ := var_real q hq j
  obtain ⟨e, he0, he⟩ := ofBits_eps
  show IsReal (Ideal.rsqrt (Term.var (F := Ideal) q j + Ideal.ofBits .f32 0x3727C5AC#32))
  have hpos : 0 < v + e := by positivity
  rw [hv, he, ← EReal.coe_add, Ideal.rsqrt_coe, if_neg (not_lt.mpr hpos.le), if_neg hpos.ne']
  exact isReal_coe _

end Statistics

/-! ## The two arrangements agree over the reals -/

/-- q·(γ·inv) + (β − μ·(γ·inv)) = ((q − μ)·inv)·γ + β for real numbers, read in the extended reals. -/
private theorem arrange_real (q m i g b : ℝ) :
    (q : EReal) * ((g : EReal) * (i : EReal)) + ((b : EReal) - (m : EReal) * ((g : EReal) * (i : EReal)))
      = ((q : EReal) - (m : EReal)) * (i : EReal) * (g : EReal) + (b : EReal) := by
  rw [← EReal.coe_mul, ← EReal.coe_mul, ← EReal.coe_mul, ← EReal.coe_sub, ← EReal.coe_add, ← EReal.coe_sub, ← EReal.coe_mul,
    ← EReal.coe_mul, ← EReal.coe_add]
  congr 1
  ring

/-- The two arrangements of the normalisation agree on finite data: the qkv projection of real inputs is real, so is its
    per-channel mean, its variance is a nonnegative real, so the inverse deviation 1/√(var + ε) is a real, and over the reals
    q·(γ·inv) + (β − μ·(γ·inv)) = ((q − μ)·inv)·γ + β. -/
theorem norm_eq (x : SX.Idx → EReal) (w : SW.Idx → EReal) (g b : SC.Idx → EReal)
    (hx : AllReal x) (hw : AllReal w) (hg : AllReal g) (hb : AllReal b) (bb : Fin 4) (n : Fin 1024) (d : Fin 1536) :
    normK (qkvA x w) (Cert.ReferenceIdeal.Term.mean (F := Ideal) (qkvA x w)) (Cert.ReferenceIdeal.Term.inv (F := Ideal) (qkvA x w)) g b bb n d
      = normR (qkvA x w) (Cert.ReferenceIdeal.Term.mean (F := Ideal) (qkvA x w)) (Cert.ReferenceIdeal.Term.inv (F := Ideal) (qkvA x w)) g b bb n d := by
  have hq : ∀ i, IsReal (qkvA x w i) := qkvA_real x w hw
  obtain ⟨q', hq'⟩ := hq (ix3 bb n d)
  obtain ⟨m', hm'⟩ := mean_real (qkvA x w) hq (ix1 d)
  obtain ⟨i', hi'⟩ := inv_real (qkvA x w) hq (ix1 d)
  obtain ⟨g', hg'⟩ := hg (ix1 d)
  obtain ⟨b', hb'⟩ := hb (ix1 d)
  unfold normK normR
  rw [hq', hm', hi', hg', hb']
  exact arrange_real q' m' i' g' b'

end Cert.Stats

end
-- ==== Proof.PreReal.lean ====
import proofs.«145565_j53025666236638_1_alg».proof.Defs
import proofs.«145565_j53025666236638_1_alg».proof.Proof.Gen.KernelIdeal
import proofs.«145565_j53025666236638_1_alg».proof.Proof.Gen.Pre_finite_inputs
import proofs.«145565_j53025666236638_1_alg».proof.Proof.RealValued
import Idealize.ShloMosaic.Lib.ReduceAll
import Idealize.ShloMosaic.Lib.ValueIdx
import Idealize.ShloMosaic.PureOps.Ideal.Laws

noncomputable section

namespace Cert.PreReal

open Idealize.ShloMosaic Idealize.ShloMosaic.ValueIdx Idealize.SL.Sem Cert.Spec

/-- The rank-0 shape has exactly one index. -/
instance subsingleton_scalar_idx : Subsingleton Cert.Pre_finite_inputs.S_.Idx :=
  ⟨fun _ _ => funext fun d => d.elim0⟩

/-- An extended real whose absolute value `max x (-x)` lies strictly below `+∞` is a real number:
    at `⊥` and at `⊤` the absolute value is `⊤`, which is not below itself. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition, read back, for an array of any shape: if the conjunction over all
    entries of `|a| < +∞` (a reduction by `and` over all axes into the one-index result) is 1, then
    every entry of `a` is a real number. -/
theorem allReal_of_all_abs_lt {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant Cert.Pre_finite_inputs.S_ .f32 0x7F800000#32)))
          (constantI Cert.Pre_finite_inputs.S_ 1 1#1) hr hu ix0 = 1#1) :
    AllReal a := by
  intro i
  -- the entry of the compared array at `i` is 1
  have hi := Host.reduce_andi_all _ _ hr hu ix0 e i
  -- which says `max (a i) (-(a i)) < ⊤`
  have hlt : max (a i) (-(a i)) < (⊤ : EReal) := by
    have h1 : Ideal.cmp .olt (max (a i) (-(a i))) (Ideal.ofBits .f32 0x7F800000#32) = 1#1 := hi
    have h2 : Ideal.ofBits .f32 0x7F800000#32 = (⊤ : EReal) := by simp [Ideal.ofBits, Ideal.ieee]
    rw [h2] at h1
    by_contra hn
    simp [Ideal.cmp, hn] at h1
  exact real_of_abs_lt_top (a i) hlt

/-- Under the precondition (every float input finite: |a| < +∞ entrywise, all six conjoined) every entry of every argument
    array of the idealized kernel is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5)) := by
  -- the precondition at device `c`, at the one index of its rank-0 result
  have h0 := congrFun (h c) ix0
  -- the printed function is a chain of `let`s ending in five nested `and`s of the six reductions
  simp only [Cert.Pre_finite_inputs.fn, Cert.Pre_finite_inputs.fn_part1, andi] at h0
  -- split the conjunction
  rw [IntOp.andi_eq_one, IntOp.andi_eq_one, IntOp.andi_eq_one, IntOp.andi_eq_one, IntOp.andi_eq_one] at h0
  obtain ⟨⟨⟨⟨⟨e0, e1⟩, e2⟩, e3⟩, e4⟩, e5⟩ := h0
  exact ⟨allReal_of_all_abs_lt _ _ _ _ e0, allReal_of_all_abs_lt _ _ _ _ e1, allReal_of_all_abs_lt _ _ _ _ e2,
    allReal_of_all_abs_lt _ _ _ _ e3, allReal_of_all_abs_lt _ _ _ _ e4, allReal_of_all_abs_lt _ _ _ _ e5⟩

end Cert.PreReal

end
-- ==== Proof.lean ====
/-
  The kernel computes, in four fused regions with a little host code between them, what the reference computes with plain array
  operations: spike the input (clip to [0, 4], add one half, round down), project it to 1536 channels, normalise each channel over
  batch and sequence with its mean and variance, spike, split into the query, key and value of 8 heads, form the scores, spike
  them, average the values with them, scale by 1/8, spike, merge the heads and project with a bias. Over the extended reals the
  two programs differ only in how the normalisation is arranged — the kernel folds the inverse deviation and the mean into one
  per-channel scale γ·inv and shift β − μ·(γ·inv), the reference centres, scales and shifts in turn — and the two arrangements
  agree because, the inputs being finite, the projection, its mean and its inverse deviation 1/√(var + ε) are real numbers
  (the variance is a mean of squares, so var + ε > 0). Every narrowing to a 16-bit format is the identity over the extended reals.

  The frames of the kernel and of its idealization are the generated ones. The idealized kernel's run with its result named is
  the launch theorem called again with the result buffer kept (KRun); what the four regions and the host stretches leave there,
  index by index, is KReg0 … KReg3 and KValue. The reference's run is written by hand over its operations with the called
  functions' bodies inlined (RRun), its composed term named stage by stage (RTerm) and read at an index (RValueA, RValueB, RValue).
  The precondition gives real entries (PreReal); on real entries the two normalisations agree (Stats).
-/
import proofs.«145565_j53025666236638_1_alg».proof.Defs
import proofs.«145565_j53025666236638_1_alg».proof.Proof.Gen.Kernel
import proofs.«145565_j53025666236638_1_alg».proof.Proof.Gen.Kernel.Skeleton
import proofs.«145565_j53025666236638_1_alg».proof.Proof.Gen.Kernel.Launch
import proofs.«145565_j53025666236638_1_alg».proof.Proof.Gen.Kernel.Points
import proofs.«145565_j53025666236638_1_alg».proof.Proof.Gen.Kernel.Frame
import proofs.«145565_j53025666236638_1_alg».proof.Proof.Gen.KernelIdeal
import proofs.«145565_j53025666236638_1_alg».proof.Proof.Gen.KernelIdeal.Skeleton
import proofs.«145565_j53025666236638_1_alg».proof.Proof.Gen.KernelIdeal.Launch
import proofs.«145565_j53025666236638_1_alg».proof.Proof.Gen.KernelIdeal.Points
import proofs.«145565_j53025666236638_1_alg».proof.Proof.Gen.KernelIdeal.Frame
import proofs.«145565_j53025666236638_1_alg».proof.Proof.Gen.ReferenceIdeal
import proofs.«145565_j53025666236638_1_alg».proof.Proof.Gen.Pre_finite_inputs
import proofs.«145565_j53025666236638_1_alg».proof.Proof.KRun
import proofs.«145565_j53025666236638_1_alg».proof.Proof.KValue
import proofs.«145565_j53025666236638_1_alg».proof.Proof.RRun
import proofs.«145565_j53025666236638_1_alg».proof.Proof.RValue
import proofs.«145565_j53025666236638_1_alg».proof.Proof.Stats
import proofs.«145565_j53025666236638_1_alg».proof.Proof.PreReal
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunValue.run (F := Ideal) m ρ)

/-- Both programs end at the specification's output; the kernel's over its arrangement of the normalisation, the reference's over
    its own, which agree on the finite inputs the precondition admits. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v26),
    Cert.KernelIdeal.RunValue.run_value m ρ, ?_⟩
  refine (θ_run Cert.ReferenceIdeal.defs _ _).mono (fun _ h c => ⟨(h c).1.trans ?_, (h c).2⟩)
    (Cert.ReferenceIdeal.RunValue.run (F := Ideal) m' ρ')
  obtain ⟨h0, h1, h2, h3, h4, h5⟩ := hagree c
  obtain ⟨r0, r1, r2, r3, -, -⟩ := Cert.PreReal.real_of_pre m hpre c
  rw [h0, h1, h2, h3, h4, h5]
  funext i
  obtain ⟨bb, n, d, rfl⟩ : ∃ (bb : Fin 4) (n : Fin 1024) (d : Fin 512), i = ix3 bb n d := ⟨i 0, i 1, i 2, eq_ix3 i⟩
  rw [Cert.ReferenceIdeal.Read.out_apply]
  refine Eq.trans ?_ (Cert.KernelIdeal.Whole.value m ρ c bb n d).symm
  rw [Cert.Stats.mean_eq, Cert.Stats.inv_eq]
  congr 1
  funext b' n' d'
  exact (Cert.Stats.norm_eq _ _ _ _ r0 r1 r2 r3 b' n' d').symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
